-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S65536 : Shape := ⟨1, ![65536]⟩
abbrev S100000x256 : Shape := ⟨2, ![100000, 256]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S100000x256 : S_.BroadcastsInDim S100000x256 (![] : Fin 0 → Fin S100000x256.rank)
  reducesTo_S100000x256_S_d0_1 : S100000x256.ReducesTo [0, 1] S_
  bcast_S_S65536 : S_.BroadcastsInDim S65536 (![] : Fin 0 → Fin S65536.rank)
  reducesTo_S65536_S_d0 : S65536.ReducesTo [0] S_

variable [Facts]

def fn {F : FTy → Type} [FloatOps F] (main_arg0 : FVec F S65536x256 .f32) (main_arg1 : IVec S65536 32) (main_arg2 : FVec F S100000x256 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S100000x256 .f32 := Host.absf main_arg2
  let main_cst_0 : FVec F S_ .f32 := constant S_ .f32 0x7F800000#32
  let main_v5 : FVec F S100000x256 .f32 := broadcastInDim S100000x256 ![] bcast_S_S100000x256 main_cst_0
  let main_v6 : IVec S100000x256 1 := cmpf .olt main_v4 main_v5
  let main_c_1 : IVec S_ 1 := constantI S_ 1 1#1
  let main_v7 : IVec S_ 1 := (fun x v => Host.reduce IntOp.andi x v reducesTo_S100000x256_S_d0_1 h_S_) main_v6 main_c_1
  let main_v8 : IVec S_ 1 := andi main_v3 main_v7
  let main_c_2 : IVec S_ 32 := constantI S_ 32 0#32
  let main_v9 : IVec S65536 32 := broadcastInDim S65536 ![] bcast_S_S65536 main_c_2
  let main_v10 : IVec S65536 1 := cmpi .sge main_arg1 main_v9
  let main_c_3 : IVec S_ 32 := constantI S_ 32 100000#32
  let main_v11 : IVec S65536 32 := broadcastInDim S65536 ![] bcast_S_S65536 main_c_3
  let main_v12 : IVec S65536 1 := cmpi .slt main_arg1 main_v11
  let main_v13 : IVec S65536 1 := andi main_v10 main_v12
  let main_c_4 : IVec S_ 1 := constantI S_ 1 1#1
  let main_v14 : IVec S_ 1 := (fun x v => Host.reduce IntOp.andi x v reducesTo_S65536_S_d0 h_S_) main_v13 main_c_4
  let main_v15 : IVec S_ 1 := andi main_v8 main_v14
  main_v15
-- ==== Kernel.lean ====
abbrev S65536x256 : Shape := ⟨2, ![65536, 256]⟩
abbrev S65536 : Shape := ⟨1, ![65536]⟩
abbrev S100000x256 : Shape := ⟨2, ![100000, 256]⟩
abbrev S1x65536 : Shape := ⟨2, ![1, 65536]⟩
abbrev S100000x1 : Shape := ⟨2, ![100000, 1]⟩
abbrev S1x1024 : Shape := ⟨2, ![1, 1024]⟩
abbrev S1024x256 : Shape := ⟨2, ![1024, 256]⟩
abbrev S4000x256 : Shape := ⟨2, ![4000, 256]⟩
abbrev S4000x1 : Shape := ⟨2, ![4000, 1]⟩
abbrev S4000x1024 : Shape := ⟨2, ![4000, 1024]⟩
abbrev S1024x1 : Shape := ⟨2, ![1024, 1]⟩
abbrev S5000x256 : Shape := ⟨2, ![5000, 256]⟩
abbrev S5000x1 : Shape := ⟨2, ![5000, 1]⟩

abbrev nBuf : Space → Nat
  | .hbm => 7
  | .vmem => 18
  | .smem => 0
  | _ => 0

abbrev bufTy : (tb : Table) → Fin (tcTables nBuf tb) → BufTy
  | .hbm, ⟨0, _⟩ => ⟨S65536x256, .f32⟩
  | .hbm, ⟨1, _⟩ => ⟨S65536, .i32⟩
  | .hbm, ⟨2, _⟩ => ⟨S100000x256, .f32⟩
  | .hbm, ⟨3, _⟩ => ⟨S1x65536, .i32⟩
  | .hbm, ⟨4, _⟩ => ⟨S100000x256, .f32⟩
  | .hbm, ⟨5, _⟩ => ⟨S100000x1, .f32⟩
  | .hbm, ⟨6, _⟩ => ⟨S100000x256, .f32⟩
  | .local _ .vmem, ⟨0, _⟩ => ⟨S1x1024, .i32⟩
  | .local _ .vmem, ⟨1, _⟩ => ⟨S1x1024, .i32⟩
  | .local _ .vmem, ⟨2, _⟩ => ⟨S1024x256, .f32⟩
  | .local _ .vmem, ⟨3, _⟩ => ⟨S1024x256, .f32⟩
  | .local _ .vmem, ⟨4, _⟩ => ⟨S4000x256, .f32⟩
  | .local _ .vmem, ⟨5, _⟩ => ⟨S4000x256, .f32⟩
  | .local _ .vmem, ⟨6, _⟩ => ⟨S4000x1, .f32⟩
  | .local _ .vmem, ⟨7, _⟩ => ⟨S4000x1, .f32⟩
  | .local _ .vmem, ⟨8, _⟩ => ⟨S4000x256, .f32⟩
  | .local _ .vmem, ⟨9, _⟩ => ⟨S4000x1, .f32⟩
  | .local _ .vmem, ⟨10, _⟩ => ⟨S5000x256, .f32⟩
  | .local _ .vmem, ⟨11, _⟩ => ⟨S5000x256, .f32⟩
  | .local _ .vmem, ⟨12, _⟩ => ⟨S5000x256, .f32⟩
  | .local _ .vmem, ⟨13, _⟩ => ⟨S5000x256, .f32⟩
  | .local _ .vmem, ⟨14, _⟩ => ⟨S5000x1, .f32⟩
  | .local _ .vmem, ⟨15, _⟩ => ⟨S5000x1, .f32⟩
  | .local _ .vmem, ⟨16, _⟩ => ⟨S5000x256, .f32⟩
  | .local _ .vmem, ⟨17, _⟩ => ⟨S5000x256, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![25, 64], ![false, false]⟩

def k0_cond2 (i : grid0.Coords) : BitVec 1 :=
  let arg1 : BitVec 32 := BitVec.ofNat 32 (i 1).val
  let c63_i32 : BitVec 32 := 63#32
  let v30 : BitVec 1 := Scalar.cmpi .eq arg1 c63_i32
  let v31 : BitVec 32 := Scalar.extui v30
  let c0_i32_14 : BitVec 32 := 0#32
  let v32 : BitVec 1 := Scalar.cmpi .ne v31 c0_i32_14
  v32

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S65536_S1x65536 : S65536.ShapeCasts S1x65536
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  iota_S4000x1_d0_w32 : S4000x1.Iotas .tc 32 [0]
  broadcasts_S4000x1_S4000x1024 : S4000x1.Broadcasts S4000x1024
  broadcasts_S1x1024_S4000x1024 : S1x1024.Broadcasts S4000x1024
  natLt_1_32 : 1 < 32
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x256 : S5000x1.Broadcasts S5000x256
  dot_S4000x1024_S1024x256_S4000x256_1_0_0_1_n_n_wf : DotDims.WF S4000x1024 S1024x256 S4000x256 [1] [0] [0] [1] [] []
  dot_S4000x1024_S1024x1_S4000x1_1_0_0_1_n_n_wf : DotDims.WF S4000x1024 S1024x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024.size a ≤ S1x65536.size a
  hwx0_0 : ∀ i : grid0.Coords, EltTy.bits .i32 = 32 ∨ (Rect.block (s := S1x65536) S1x1024.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S65536x256.size a
  hwx0_1 : ∀ i : grid0.Coords, EltTy.bits .f32 = 32 ∨ (Rect.block (s := S65536x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x256.size a ≤ S100000x256.size a
  hwx0_2 : ∀ i : grid0.Coords, EltTy.bits .f32 = 32 ∨ (Rect.block (s := S100000x256) S4000x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x1.size a ≤ S100000x1.size a
  hwx0_3 : ∀ i : grid0.Coords, EltTy.bits .f32 = 32 ∨ (Rect.block (s := S100000x1) S4000x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S100000x256.size a
  hwx1_0 : ∀ i : grid1.Coords, EltTy.bits .f32 = 32 ∨ (Rect.block (s := S100000x256) S5000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x256.size a ≤ S100000x256.size a
  hwx1_1 : ∀ i : grid1.Coords, EltTy.bits .f32 = 32 ∨ (Rect.block (s := S100000x256) S5000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x256.size a ≤ S100000x256.size a
  hwx1_3 : ∀ i : grid1.Coords, EltTy.bits .f32 = 32 ∨ (Rect.block (s := S100000x256) S5000x256.size (cc1_transform_3 i) (hinb1_3 i)).WholeWords (EltTy.packing .f32)

variable [Facts₀]

def dot_S4000x1024_S1024x256_S4000x256_1_0_0_1_n_n : DotDims S4000x1024 S1024x256 S4000x256 where
  lhsContracting := [1]
  rhsContracting := [0]
  lhsNonContracting := [0]
  rhsNonContracting := [1]
  lhsBatch := []
  rhsBatch := []
  wf := dot_S4000x1024_S1024x256_S4000x256_1_0_0_1_n_n_wf
def dot_S4000x1024_S1024x1_S4000x1_1_0_0_1_n_n : DotDims S4000x1024 S1024x1 S4000x1 where
  lhsContracting := [1]
  rhsContracting := [0]
  lhsNonContracting := [0]
  rhsNonContracting := [1]
  lhsBatch := []
  rhsBatch := []
  wf := dot_S4000x1024_S1024x1_S4000x1_1_0_0_1_n_n_wf

abbrev win0_0 : Pipeline.Window sig grid0 :=
  Pipeline.Window.ofSpec (Memref.whole main_v0) S1x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S4000x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S4000x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg2) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_0) S5000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1_1) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S5000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S65536x256 : Shape := ⟨2, ![65536, 256]⟩
abbrev S65536 : Shape := ⟨1, ![65536]⟩
abbrev S100000x256 : Shape := ⟨2, ![100000, 256]⟩
abbrev S_ : Shape := ⟨0, ![]⟩
abbrev S65536x1 : Shape := ⟨2, ![65536, 1]⟩

abbrev nBuf : Space → Nat
  | .hbm => 25
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S65536, .i32⟩
  | .hbm, ⟨2, _⟩ => ⟨S100000x256, .f32⟩
  | .hbm, ⟨3, _⟩ => ⟨S_, .i32⟩
  | .hbm, ⟨4, _⟩ => ⟨S65536, .i32⟩
  | .hbm, ⟨5, _⟩ => ⟨S65536, .i1⟩
  | .hbm, ⟨6, _⟩ => ⟨S_, .i32⟩
  | .hbm, ⟨7, _⟩ => ⟨S65536, .i32⟩
  | .hbm, ⟨8, _⟩ => ⟨S65536, .i32⟩
  | .hbm, ⟨9, _⟩ => ⟨S65536, .i32⟩
  | .hbm, ⟨10, _⟩ => ⟨S65536x1, .i32⟩
  | .hbm, ⟨11, _⟩ => ⟨S65536x256, .f32⟩
  | .hbm, ⟨12, _⟩ => ⟨S65536x256, .f32⟩
  | .hbm, ⟨13, _⟩ => ⟨S_, .f32⟩
  | .hbm, ⟨14, _⟩ => ⟨S65536x256, .f32⟩
  | .hbm, ⟨15, _⟩ => ⟨S65536x256, .f32⟩
  | .hbm, ⟨16, _⟩ => ⟨S_, .i32⟩
  | .hbm, ⟨17, _⟩ => ⟨S65536, .i32⟩
  | .hbm, ⟨18, _⟩ => ⟨S65536, .i1⟩
  | .hbm, ⟨19, _⟩ => ⟨S_, .i32⟩
  | .hbm, ⟨20, _⟩ => ⟨S65536, .i32⟩
  | .hbm, ⟨21, _⟩ => ⟨S65536, .i32⟩
  | .hbm, ⟨22, _⟩ => ⟨S65536, .i32⟩
  | .hbm, ⟨23, _⟩ => ⟨S65536x1, .i32⟩
  | .hbm, ⟨24, _⟩ => ⟨S100000x256, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  bcast_S_S65536 : S_.BroadcastsInDim S65536 (![] : Fin 0 → Fin S65536.rank)
  bcast_S65536_S65536x1_0 : S65536.BroadcastsInDim S65536x1 (![0] : Fin 1 → Fin S65536x1.rank)
  bcast_S_S65536x256 : S_.BroadcastsInDim S65536x256 (![] : Fin 0 → Fin S65536x256.rank)
  gather_S100000x256_S65536x1_S65536x256_1_0_n_n_0_1_1256_wf : GatherDims.WF S100000x256 S65536x1 S65536x256 [1] [0] [] [0] [] 1 ![1, 256]
  scatter_S100000x256_S65536x1_S65536x256_1_0_0_1_wf : ScatterDims.WF S100000x256 S65536x1 S65536x256 [1] [0] [0] 1

variable [Facts₀]

def gather_S100000x256_S65536x1_S65536x256_1_0_n_n_0_1_1256 : GatherDims S100000x256 S65536x1 S65536x256 where
  offsetDims := [1]
  collapsedSliceDims := [0]
  operandBatchingDims := []
  startIndicesBatchingDims := []
  startIndexMap := [0]
  indexVectorDim := 1
  sliceSizes := ![1, 256]
  wf := gather_S100000x256_S65536x1_S65536x256_1_0_n_n_0_1_1256_wf
def scatter_S100000x256_S65536x1_S65536x256_1_0_0_1 : ScatterDims S100000x256 S65536x1 S65536x256 where
  updateWindowDims := [1]
  insertedWindowDims := [0]
  scatterDimsToOperandDims := [0]
  indexVectorDim := 1
  wf := scatter_S100000x256_S65536x1_S65536x256_1_0_0_1_wf

class Facts : Prop extends Facts₀ where

variable [Facts]
-- ==== Proof.K.Region0Runs.lean ====
/-
  The segment-sum call (the first pallas_call), at the buffer contents `V` it is entered from.

  Its grid is 25 × 64: point `t = 64·i + j` stages labels and features of samples 1024·j … 1024·j + 1023 and owns
  rows 4000·i … 4000·i + 3999 of the two outputs. Two scratch buffers carry a running sum of features and a running
  count across the 64 points of one `i`: the body clears them when `j = 0`, adds the tile's one-hot products at every
  point, and copies them into the outputs' staging buffers when `j = 63`, the only points at which the pipeline writes
  those blocks back. At the other points the output windows are idle: their staging buffers are handed back untouched.
  So the invariant between points is not the plain one: after point `t` the two scratch buffers hold the running sums
  up to `t` (`accAt`), and that is what the next point starts from.
-/
import proofs.«422952_j16217796510058_1_alg».proof.Proof.Gen.Kernel.Launch
import proofs.«422952_j16217796510058_1_alg».proof.Proof.Gen.Kernel.Skeleton
import proofs.«422952_j16217796510058_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the buffer contents the call finds on each core: the parameter everything below is stated at
variable (V : (c : Dev nD) → (b : Ref sig .tc) → Buf (Elt F) ((c : Thread nD τ).loc b))

/-! ## The blocks -/

/-- The zero offsets of a whole-buffer access, however they are spelt. -/
theorem off2_zero0 : (![0, 0] : Fin 2 → ℕ) = fun _ => 0 := by
  funext a; fin_cases a <;> rfl

/-- Window `w`'s block at point `t`: that tile of its array. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (Pipeline.UD sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-! ## The body's two conditions, over the grid -/

/-- The body clears its accumulators: the grid's second coordinate is 0. -/
abbrev isFirst (i : grid0.Coords) : Prop :=
  (Scalar.cmpi .ne (Scalar.extui (Scalar.cmpi .eq (BitVec.ofNat 32 (i 1).val) 0#32)) 0#32) = 1#1
theorem isFirst_iff : ∀ t : Fin cfg0.N, isFirst (grid0.coords t) ↔ t.val % 64 = 0 :=
  (by decide +kernel : ∀ t : Fin grid0.N, isFirst (grid0.coords t) ↔ t.val % 64 = 0)

/-- The body copies its accumulators out: the grid's second coordinate is 63. -/
abbrev isLast (i : grid0.Coords) : Prop := k0_cond2 i = 1#1
theorem isLast_iff : ∀ t : Fin cfg0.N, isLast (grid0.coords t) ↔ t.val % 64 = 63 :=
  (by decide +kernel : ∀ t : Fin grid0.N, isLast (grid0.coords t) ↔ t.val % 64 = 63)

/-! ## Where the windows are idle -/

theorem live0_0 : ∀ t : Fin cfg0.N, cfg0.idle 0 (grid0.coords t) = false := by decide +kernel
theorem live0_1 : ∀ t : Fin cfg0.N, cfg0.idle 1 (grid0.coords t) = false := by decide +kernel
theorem idle0_2 : ∀ t : Fin cfg0.N, ¬isLast (grid0.coords t) → cfg0.idle 2 (grid0.coords t) = true := by decide +kernel
theorem idle0_3 : ∀ t : Fin cfg0.N, ¬isLast (grid0.coords t) → cfg0.idle 3 (grid0.coords t) = true := by decide +kernel
theorem live0_2 : ∀ t : Fin cfg0.N, isLast (grid0.coords t) → cfg0.idle 2 (grid0.coords t) = false := by decide +kernel
theorem live0_3 : ∀ t : Fin cfg0.N, isLast (grid0.coords t) → cfg0.idle 3 (grid0.coords t) = false := by decide +kernel
theorem noFlush0_2 : ∀ t : Fin cfg0.N, ¬isLast (grid0.coords t) → (cfg0.win 2).flush t = false := by decide +kernel
theorem noFlush0_3 : ∀ t : Fin cfg0.N, ¬isLast (grid0.coords t) → (cfg0.win 3).flush t = false := by decide +kernel

/-! ## The body, case by case -/

set_option maxHeartbeats 2000000 in
/-- A middle point (neither clearing nor copying out): on whole memrefs, the inputs' at `x0`, `x1`, the outputs' at
    anything `y2`, `y3` (handed back untouched), the accumulators at `a`, `b`, the body ends with the accumulators at
    `a` plus the tile's one-hot products and `b` plus the tile's one-hot counts. -/
theorem run_mid (c : Dev nD) (E : Set ℕ) (i : grid0.Coords)
    (arg2 : Memref sig .tc .vmem S1x1024 .i32) (harg2 : arg2.IsWhole) (arg3 : Memref sig .tc .vmem S1024x256 .f32) (harg3 : arg3.IsWhole)
    (arg4 : Memref sig .tc .vmem S4000x256 .f32) (harg4 : arg4.IsWhole) (arg5 : Memref sig .tc .vmem S4000x1 .f32) (harg5 : arg5.IsWhole)
    (arg6 : Memref sig .tc .vmem S4000x256 .f32) (harg6 : arg6.IsWhole) (arg7 : Memref sig .tc .vmem S4000x1 .f32) (harg7 : arg7.IsWhole)
    (hF : ¬isFirst i) (hL : ¬isLast i)
    (x0 : Vec F S1x1024 .i32) (x1 : Vec F S1024x256 .f32) (y2 : Vec F S4000x256 .f32) (y3 : Vec F S4000x1 .f32)
    (a : Vec F S4000x256 .f32) (b : Vec F S4000x1 .f32) (K : PUnit → sProp 𝕄) :
    iprop(owns (c : Thread nD τ) arg2 fullShare x0 ∗ owns (c : Thread nD τ) arg3 fullShare x1
        ∗ owns (c : Thread nD τ) arg4 fullShare y2 ∗ owns (c : Thread nD τ) arg5 fullShare y3
        ∗ owns (c : Thread nD τ) arg6 fullShare a ∗ owns (c : Thread nD τ) arg7 fullShare b
        ∗ (iprop(owns (c : Thread nD τ) arg2 fullShare x0 ∗ owns (c : Thread nD τ) arg3 fullShare x1
            ∗ owns (c : Thread nD τ) arg4 fullShare y2 ∗ owns (c : Thread nD τ) arg5 fullShare y3
            ∗ owns (c : Thread nD τ) arg6 fullShare (k0_pay4 i x0 x1 a) ∗ owns (c : Thread nD τ) arg7 fullShare (k0_pay5 i x0 b)) -∗ K ⟨⟩))
      ⊢ wp frame (wpE (defs₀ (F := F)) Variants.none c none) E (cc0__segsum_kernel i arg2 harg2 arg3 harg3 arg4 harg4 arg5 harg5 arg6 harg6 arg7 harg7) K := by
  simp only [cc0__segsum_kernel_eq_skeleton]; unfold cc0__segsum_kernel_skel
  unfold owns
  iintro ⟨⟨%f0, %hf0, H0⟩, ⟨%f1, %hf1, H1⟩, ⟨%f2, %hf2, H2⟩, ⟨%f3, %hf3, H3⟩, ⟨%f6, %hf6, H6⟩, ⟨%f7, %hf7, H7⟩, Hk⟩
  subst hf0; subst hf1; subst hf2; subst hf3; subst hf6; subst hf7
  sl_exec (disch := first | exact hF | exact hL)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H6]
  · iexists _; isplitr
    swap; · iexact H6
    ipureintro
    sl_unfold_words
    rw [View.read_writes_eq_canon _ _ _ (fun y => ⟨_, List.mem_cons_self, View.mem_set_unit_zero off2_zero0 Facts₀.inb_S4000x256_S4000x256_0_0 y⟩),
      View.canon_cons_unit_zero off2_zero0]
    simp only [View.readAt_eq_ld, View.ld_unit_zero (S := S1x1024) off2_zero0, View.ld_unit_zero (S := S1024x256) off2_zero0,
      View.ld_unit_zero (S := S4000x256) off2_zero0, View.ld_unit_zero (S := S4000x1) off2_zero0,
      View.readCov_unit_zero (S := S4000x256) _ off2_zero0, View.readCov_unit_zero (S := S4000x1) _ off2_zero0]
  · iexists _; isplitr
    swap; · iexact H7
    ipureintro
    sl_unfold_words
    rw [View.read_writes_eq_canon _ _ _ (fun y => ⟨_, List.mem_cons_self, View.mem_set_unit_zero off2_zero0 Facts₀.inb_S4000x1_S4000x1_0_0 y⟩),
      View.canon_cons_unit_zero off2_zero0]
    simp only [View.readAt_eq_ld, View.ld_unit_zero (S := S1x1024) off2_zero0, View.ld_unit_zero (S := S1024x256) off2_zero0,
      View.ld_unit_zero (S := S4000x256) off2_zero0, View.ld_unit_zero (S := S4000x1) off2_zero0,
      View.readCov_unit_zero (S := S4000x256) _ off2_zero0, View.readCov_unit_zero (S := S4000x1) _ off2_zero0]

set_option maxHeartbeats 2000000 in
/-- A clearing point (the first of its 64): the accumulators, at anything before, end at the tile's one-hot products and
    counts added to zero; the outputs' staging buffers are handed back untouched. -/
theorem run_first (c : Dev nD) (E : Set ℕ) (i : grid0.Coords)
    (arg2 : Memref sig .tc .vmem S1x1024 .i32) (harg2 : arg2.IsWhole) (arg3 : Memref sig .tc .vmem S1024x256 .f32) (harg3 : arg3.IsWhole)
    (arg4 : Memref sig .tc .vmem S4000x256 .f32) (harg4 : arg4.IsWhole) (arg5 : Memref sig .tc .vmem S4000x1 .f32) (harg5 : arg5.IsWhole)
    (arg6 : Memref sig .tc .vmem S4000x256 .f32) (harg6 : arg6.IsWhole) (arg7 : Memref sig .tc .vmem S4000x1 .f32) (harg7 : arg7.IsWhole)
    (hF : isFirst i) (hL : ¬isLast i)
    (x0 : Vec F S1x1024 .i32) (x1 : Vec F S1024x256 .f32) (y2 : Vec F S4000x256 .f32) (y3 : Vec F S4000x1 .f32)
    (K : PUnit → sProp 𝕄) :
    iprop(owns (c : Thread nD τ) arg2 fullShare x0 ∗ owns (c : Thread nD τ) arg3 fullShare x1
        ∗ owns (c : Thread nD τ) arg4 fullShare y2 ∗ owns (c : Thread nD τ) arg5 fullShare y3
        ∗ (∃ a, owns (c : Thread nD τ) arg6 fullShare a) ∗ (∃ b, owns (c : Thread nD τ) arg7 fullShare b)
        ∗ (iprop(owns (c : Thread nD τ) arg2 fullShare x0 ∗ owns (c : Thread nD τ) arg3 fullShare x1
            ∗ owns (c : Thread nD τ) arg4 fullShare y2 ∗ owns (c : Thread nD τ) arg5 fullShare y3
            ∗ owns (c : Thread nD τ) arg6 fullShare (k0_pay4 i x0 x1 k0_pay1) ∗ owns (c : Thread nD τ) arg7 fullShare (k0_pay5 i x0 k0_pay2)) -∗ K ⟨⟩))
      ⊢ wp frame (wpE (defs₀ (F := F)) Variants.none c none) E (cc0__segsum_kernel i arg2 harg2 arg3 harg3 arg4 harg4 arg5 harg5 arg6 harg6 arg7 harg7) K := by
  simp only [cc0__segsum_kernel_eq_skeleton]; unfold cc0__segsum_kernel_skel
  unfold owns
  iintro ⟨⟨%f0, %hf0, H0⟩, ⟨%f1, %hf1, H1⟩, ⟨%f2, %hf2, H2⟩, ⟨%f3, %hf3, H3⟩, ⟨%a, %f6, -, H6⟩, ⟨%b, %f7, -, H7⟩, Hk⟩
  subst hf0; subst hf1; subst hf2; subst hf3
  sl_exec (disch := first | exact hF | exact hL)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H6]
  · iexists _; isplitr
    swap; · iexact H6
    ipureintro
    sl_unfold_words
    rw [View.read_writes_eq_canon _ _ _ (fun y => ⟨_, List.mem_cons_self, View.mem_set_unit_zero off2_zero0 Facts₀.inb_S4000x256_S4000x256_0_0 y⟩),
      View.canon_cons_unit_zero off2_zero0]
    simp only [View.readAt_eq_ld, View.ld_unit_zero (S := S1x1024) off2_zero0, View.ld_unit_zero (S := S1024x256) off2_zero0,
      View.ld_unit_zero (S := S4000x256) off2_zero0, View.ld_unit_zero (S := S4000x1) off2_zero0,
      View.readCov_unit_zero (S := S4000x256) _ off2_zero0, View.readCov_unit_zero (S := S4000x1) _ off2_zero0]
  · iexists _; isplitr
    swap; · iexact H7
    ipureintro
    sl_unfold_words
    rw [View.read_writes_eq_canon _ _ _ (fun y => ⟨_, List.mem_cons_self, View.mem_set_unit_zero off2_zero0 Facts₀.inb_S4000x1_S4000x1_0_0 y⟩),
      View.canon_cons_unit_zero off2_zero0]
    simp only [View.readAt_eq_ld, View.ld_unit_zero (S := S1x1024) off2_zero0, View.ld_unit_zero (S := S1024x256) off2_zero0,
      View.ld_unit_zero (S := S4000x256) off2_zero0, View.ld_unit_zero (S := S4000x1) off2_zero0,
      View.readCov_unit_zero (S := S4000x256) _ off2_zero0, View.readCov_unit_zero (S := S4000x1) _ off2_zero0]

set_option maxHeartbeats 2000000 in
/-- A copy-out point (the last of its 64): the accumulators end at `a`, `b` plus the tile's contribution, and both
    outputs' staging buffers, at anything before, end holding those same totals. -/
theorem run_last (c : Dev nD) (E : Set ℕ) (i : grid0.Coords)
    (arg2 : Memref sig .tc .vmem S1x1024 .i32) (harg2 : arg2.IsWhole) (arg3 : Memref sig .tc .vmem S1024x256 .f32) (harg3 : arg3.IsWhole)
    (arg4 : Memref sig .tc .vmem S4000x256 .f32) (harg4 : arg4.IsWhole) (arg5 : Memref sig .tc .vmem S4000x1 .f32) (harg5 : arg5.IsWhole)
    (arg6 : Memref sig .tc .vmem S4000x256 .f32) (harg6 : arg6.IsWhole) (arg7 : Memref sig .tc .vmem S4000x1 .f32) (harg7 : arg7.IsWhole)
    (hF : ¬isFirst i) (hL : isLast i)
    (x0 : Vec F S1x1024 .i32) (x1 : Vec F S1024x256 .f32)
    (a : Vec F S4000x256 .f32) (b : Vec F S4000x1 .f32) (K : PUnit → sProp 𝕄) :
    iprop(owns (c : Thread nD τ) arg2 fullShare x0 ∗ owns (c : Thread nD τ) arg3 fullShare x1
        ∗ (∃ y2, owns (c : Thread nD τ) arg4 fullShare y2) ∗ (∃ y3, owns (c : Thread nD τ) arg5 fullShare y3)
        ∗ owns (c : Thread nD τ) arg6 fullShare a ∗ owns (c : Thread nD τ) arg7 fullShare b
        ∗ (iprop(owns (c : Thread nD τ) arg2 fullShare x0 ∗ owns (c : Thread nD τ) arg3 fullShare x1
            ∗ owns (c : Thread nD τ) arg4 fullShare (k0_pay4 i x0 x1 a) ∗ owns (c : Thread nD τ) arg5 fullShare (k0_pay5 i x0 b)
            ∗ owns (c : Thread nD τ) arg6 fullShare (k0_pay4 i x0 x1 a) ∗ owns (c : Thread nD τ) arg7 fullShare (k0_pay5 i x0 b)) -∗ K ⟨⟩))
      ⊢ wp frame (wpE (defs₀ (F := F)) Variants.none c none) E (cc0__segsum_kernel i arg2 harg2 arg3 harg3 arg4 harg4 arg5 harg5 arg6 harg6 arg7 harg7) K := by
  simp only [cc0__segsum_kernel_eq_skeleton]; unfold cc0__segsum_kernel_skel
  unfold owns
  iintro ⟨⟨%f0, %hf0, H0⟩, ⟨%f1, %hf1, H1⟩, ⟨%y2, %f2, -, H2⟩, ⟨%y3, %f3, -, H3⟩, ⟨%f6, %hf6, H6⟩, ⟨%f7, %hf7, H7⟩, Hk⟩
  subst hf0; subst hf1; subst hf6; subst hf7
  sl_exec (disch := first | exact hF | exact hL)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    rw [View.read_writes_eq_canon _ _ _ (fun y => ⟨_, List.mem_cons_self, View.mem_set_unit_zero off2_zero0 Facts₀.inb_S4000x256_S4000x256_0_0 y⟩),
      View.canon_cons_unit_zero off2_zero0]
    simp only [View.readAt_eq_ld, View.ld_unit_zero (S := S1x1024) off2_zero0, View.ld_unit_zero (S := S1024x256) off2_zero0,
      View.ld_unit_zero (S := S4000x256) off2_zero0, View.ld_unit_zero (S := S4000x1) off2_zero0,
      View.readCov_unit_zero (S := S4000x256) _ off2_zero0, View.readCov_unit_zero (S := S4000x1) _ off2_zero0]
  isplitl [H3]
  · iexists _; isplitr
    swap; · iexact H3
    ipureintro
    sl_unfold_words
    rw [View.read_writes_eq_canon _ _ _ (fun y => ⟨_, List.mem_cons_self, View.mem_set_unit_zero off2_zero0 Facts₀.inb_S4000x1_S4000x1_0_0 y⟩),
      View.canon_cons_unit_zero off2_zero0]
    simp only [View.readAt_eq_ld, View.ld_unit_zero (S := S1x1024) off2_zero0, View.ld_unit_zero (S := S1024x256) off2_zero0,
      View.ld_unit_zero (S := S4000x256) off2_zero0, View.ld_unit_zero (S := S4000x1) off2_zero0,
      View.readCov_unit_zero (S := S4000x256) _ off2_zero0, View.readCov_unit_zero (S := S4000x1) _ off2_zero0]
  isplitl [H6]
  · iexists _; isplitr
    swap; · iexact H6
    ipureintro
    sl_unfold_words
    rw [View.read_writes_eq_canon _ _ _ (fun y => ⟨_, List.mem_cons_self, View.mem_set_unit_zero off2_zero0 Facts₀.inb_S4000x256_S4000x256_0_0 y⟩),
      View.canon_cons_unit_zero off2_zero0]
    simp only [View.readAt_eq_ld, View.ld_unit_zero (S := S1x1024) off2_zero0, View.ld_unit_zero (S := S1024x256) off2_zero0,
      View.ld_unit_zero (S := S4000x256) off2_zero0, View.ld_unit_zero (S := S4000x1) off2_zero0,
      View.readCov_unit_zero (S := S4000x256) _ off2_zero0, View.readCov_unit_zero (S := S4000x1) _ off2_zero0]
  · iexists _; isplitr
    swap; · iexact H7
    ipureintro
    sl_unfold_words
    rw [View.read_writes_eq_canon _ _ _ (fun y => ⟨_, List.mem_cons_self, View.mem_set_unit_zero off2_zero0 Facts₀.inb_S4000x1_S4000x1_0_0 y⟩),
      View.canon_cons_unit_zero off2_zero0]
    simp only [View.readAt_eq_ld, View.ld_unit_zero (S := S1x1024) off2_zero0, View.ld_unit_zero (S := S1024x256) off2_zero0,
      View.ld_unit_zero (S := S4000x256) off2_zero0, View.ld_unit_zero (S := S4000x1) off2_zero0,
      View.readCov_unit_zero (S := S4000x256) _ off2_zero0, View.readCov_unit_zero (S := S4000x1) _ off2_zero0]

end Cert.Kernel.Hand

end
-- ==== Proof.K.Region0.lean ====
/-
  The segment-sum call's proof data: what its two accumulators hold after every point, the invariant that carries
  them from one point to the next, and the body obligation.

  After point `t = 64·i + j` the accumulators hold the contributions of tiles `0 … j` of row block `i`: one
  `accStep` from cleared accumulators when `j = 0`, one `accStep` from what point `t − 1` left otherwise. The outputs'
  staging buffers receive that value at `j = 63` and are untouched elsewhere, where the proof data's entry for them is
  never consulted.
-/
import proofs.«422952_j16217796510058_1_alg».proof.Proof.Gen.Kernel.Launch
import proofs.«422952_j16217796510058_1_alg».proof.Proof.Gen.Kernel.Skeleton
import proofs.«422952_j16217796510058_1_alg».proof.Proof.Gen.Kernel.Points
import proofs.«422952_j16217796510058_1_alg».proof.Proof.K.Region0Runs
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the buffer contents the call finds on each core: the parameter everything below is stated at
variable (V : (c : Dev nD) → (b : Ref sig .tc) → Buf (Elt F) ((c : Thread nD τ).loc b))

/-! ## The running sums -/

/-- Both accumulators cleared. -/
def acc0 : Vec F S4000x256 .f32 × Vec F S4000x1 .f32 := (k0_pay1, k0_pay2)

/-- Point `t`'s tile added to both accumulators. -/
def accStep (c : Dev nD) (t : Fin cfg0.N) (p : Vec F S4000x256 .f32 × Vec F S4000x1 .f32) :
    Vec F S4000x256 .f32 × Vec F S4000x1 .f32 :=
  (k0_pay4 (grid0.coords t) (blk0 V c 0 t) (blk0 V c 1 t) p.1, k0_pay5 (grid0.coords t) (blk0 V c 0 t) p.2)

/-- What the accumulators hold after point `n`. -/
def accAt (c : Dev nD) : (n : ℕ) → n < cfg0.N → Vec F S4000x256 .f32 × Vec F S4000x1 .f32
  | 0, hn => accStep V c ⟨0, hn⟩ acc0
  | n + 1, hn => accStep V c ⟨n + 1, hn⟩ (if (n + 1) % 64 = 0 then acc0 else accAt c n (Nat.lt_of_succ_lt hn))

/-- At the first point of a row block the sums start afresh. -/
theorem accAt_first (c : Dev nD) (t : Fin cfg0.N) (h : t.val % 64 = 0) :
    accAt V c t.val t.isLt = accStep V c t acc0 := by
  obtain ⟨n, hn⟩ := t
  cases n with
  | zero => rfl
  | succ n => show accStep V c ⟨n + 1, hn⟩ (if (n + 1) % 64 = 0 then acc0 else accAt V c n _) = _; rw [if_pos h]

/-- At any other point they continue from the point before. -/
theorem accAt_next (c : Dev nD) (t : Fin cfg0.N) (h : ¬t.val % 64 = 0) :
    accAt V c t.val t.isLt = accStep V c t (accAt V c (t.val - 1) (Nat.lt_of_le_of_lt (Nat.sub_le _ _) t.isLt)) := by
  obtain ⟨n, hn⟩ := t
  cases n with
  | zero => exact absurd (Nat.zero_mod _) h
  | succ n => show accStep V c ⟨n + 1, hn⟩ (if (n + 1) % 64 = 0 then acc0 else accAt V c n _) = _; rw [if_neg h]; rfl

/-! ## The invariant between points -/

/-- The two accumulators, as memrefs. -/
abbrev scA : Memref sig .tc .vmem S4000x256 .f32 := Memref.whole cc0_scratch0
abbrev scB : Memref sig .tc .vmem S4000x1 .f32 := Memref.whole cc0_scratch1

/-- The scoped buffers this call neither stages nor accumulates in (the other call's staging buffers), at anything. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The plain invariant, with the two accumulators singled out as memrefs owned at some contents. -/
theorem plain_eq (c : Dev nD) :
    (Pipeline.ΦA spec0 c : sProp 𝕄)
      = iprop(iprop((∃ d, owns (c : Thread nD τ) scA fullShare d) ∗ (∃ d, owns (c : Thread nD τ) scB fullShare d) ∗ others c) ∗ (∃ r, prngReg c r)) := by
  unfold Pipeline.ΦA others; rw [scopedRest0_eq]; simp only [scA, scB, owns_whole]; try rfl

/-- The invariant before position `n`: before the first point the plain one; afterwards the same with the two
    accumulators at what point `n − 1` left in them. -/
def track (c : Dev nD) : (n : ℕ) → n ≤ cfg0.N → sProp 𝕄
  | 0, _ => Pipeline.ΦA spec0 c
  | n + 1, hn => iprop(iprop(owns (c : Thread nD τ) scA fullShare (accAt V c n hn).1 ∗ owns (c : Thread nD τ) scB fullShare (accAt V c n hn).2 ∗ others c) ∗ (∃ r, prngReg c r))

theorem track_zero (c : Dev nD) (n : ℕ) (h : n ≤ cfg0.N) (hz : n = 0) : track V c n h = Pipeline.ΦA spec0 c := by
  subst hz; rfl

theorem track_succ (c : Dev nD) (n : ℕ) (hn : n < cfg0.N) :
    track V c (n + 1) hn = iprop(iprop(owns (c : Thread nD τ) scA fullShare (accAt V c n hn).1 ∗ owns (c : Thread nD τ) scB fullShare (accAt V c n hn).2 ∗ others c) ∗ (∃ r, prngReg c r)) := rfl

theorem track_pos (c : Dev nD) (n : ℕ) (h : n ≤ cfg0.N) (hz : n ≠ 0) :
    track V c n h = iprop(iprop(owns (c : Thread nD τ) scA fullShare (accAt V c (n - 1) (by omega)).1 ∗ owns (c : Thread nD τ) scB fullShare (accAt V c (n - 1) (by omega)).2 ∗ others c) ∗ (∃ r, prngReg c r)) := by
  cases n with
  | zero => exact absurd rfl hz
  | succ n => rfl

/-! ## The proof data -/

/-- The call's proof data on core `c`: its arrays as it finds them; after the body at point `t` each input's staging
    buffer at its tile and each output's at the running sums after `t`; the tracking invariant; full shares; nothing owed. -/
def dat0 (c : Dev nD) : Dat τ (Elt F) Unit ℕ (Pipeline.UD sig nD τ) ℕ cfg0 c where
  A w := V c (Pipeline.arrRef spec0 w)
  after w t := match w with
    | ⟨0, _⟩ => blk0 V c 0 t
    | ⟨1, _⟩ => blk0 V c 1 t
    | ⟨2, _⟩ => (accAt V c t.val t.isLt).1
    | ⟨3, _⟩ => (accAt V c t.val t.isLt).2
  Φ t := track V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem track_castSucc (c : Dev nD) (t : Fin cfg0.N) :
    (dat0 V c).Φ t.castSucc = track V c t.val (Nat.le_of_lt t.isLt) := by
  dsimp only [dat0]; simp only [Fin.coe_castSucc]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = (accAt V c t.val t.isLt).1 := by dsimp only [dat0]
theorem after0_3 (c : Dev nD) (t : Fin cfg0.N) : (dat0 V c).after 3 t = (accAt V c t.val t.isLt).2 := by dsimp only [dat0]

theorem before0_0 (c : Dev nD) (t : Fin cfg0.N) (d) : (dat0 V c).before 0 t d = blk0 V c 0 t :=
  before0_0_of V (dat0 V c) (A_eq0 V c 0) (after0_0 V c) t d
theorem before0_1 (c : Dev nD) (t : Fin cfg0.N) (d) : (dat0 V c).before 1 t d = blk0 V c 1 t :=
  before0_1_of V (dat0 V c) (A_eq0 V c 1) (after0_1 V c) t d

/-! ## The body obligation -/

def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def post0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves_in0 (c : Dev nD) (t : Fin cfg0.N) :
    (dat0 V c).leavesExact 0 t = owns (c : Thread nD τ) (st0_0 t) fullShare (blk0 V c 0 t) := by
  unfold Dat.leavesExact; rw [live0_0 t, after0_0]
theorem leaves_in1 (c : Dev nD) (t : Fin cfg0.N) :
    (dat0 V c).leavesExact 1 t = owns (c : Thread nD τ) (st0_1 t) fullShare (blk0 V c 1 t) := by
  unfold Dat.leavesExact; rw [live0_1 t, after0_1]

set_option maxHeartbeats 4000000 in
theorem body0 (c : Dev nD) (t : Fin cfg0.N) :
    pre0 V c t ⊢ wp frame (wpE (defs₀ (F := F)) Variants.none c none) Set.univ (bodyAt0 t) (fun _ => post0 V c t) := by
  unfold pre0 post0 bodyAt0
  simp only [before0_0, before0_1]
  rw [show (dat0 V c).owesAt () t.succ = (dat0 V c).owesAt () t.castSucc from rfl]
  rw [show (dat0 V c).Φ t.succ = track V c (t.val + 1) t.isLt from rfl, track_succ]
  rw [leaves_in0, leaves_in1]
  have hN : t.val < 1600 := lt_of_lt_of_eq t.isLt (show cfg0.N = 1600 from N_0)
  by_cases hF : t.val % 64 = 0
  · -- a clearing point
    have hL : ¬t.val % 64 = 63 := by omega
    have cF : isFirst (grid0.coords t) := (isFirst_iff t).mpr hF
    have cL : ¬isLast (grid0.coords t) := fun h => hL ((isLast_iff t).mp h)
    rw [Dat.leavesExact_idle (dat0 V c) 2 t (idle0_2 t cL) (noFlush0_2 t cL),
      Dat.leavesExact_idle (dat0 V c) 3 t (idle0_3 t cL) (noFlush0_3 t cL)]
    rw [accAt_first V c t hF]; unfold accStep acc0; dsimp only
    have hΦ : (dat0 V c).Φ t.castSucc ⊢ (iprop(iprop((∃ d, owns (c : Thread nD τ) scA fullShare d) ∗ (∃ d, owns (c : Thread nD τ) scB fullShare d) ∗ others c) ∗ (∃ r, prngReg c r)) : sProp 𝕄) := by
      rw [track_castSucc V c t]
      by_cases hz : t.val = 0
      · rw [track_zero V c _ _ hz, plain_eq]
      · rw [track_pos V c _ _ hz]
        iintro ⟨⟨HA, HB, HO⟩, Hg⟩
        isplitr [Hg]
        · isplitl [HA]; · iexists _; iexact HA
          isplitl [HB]; · iexists _; iexact HB
          iexact HO
        iexact Hg
    iintro ⟨HΦ, Ho, ⟨%d0, H0⟩, ⟨%d1, H1⟩, ⟨%d2, H2⟩, ⟨%d3, H3⟩⟩
    ihave HΦ' := hΦ $$ HΦ
    icases HΦ' with ⟨⟨HA, HB, HO⟩, Hg⟩
    iapply (run_first c Set.univ (grid0.coords t) _ _ _ _ _ _ _ _ scA (Memref.isWhole_whole _) scB (Memref.isWhole_whole _) cF cL
      (blk0 V c 0 t) (blk0 V c 1 t) ((dat0 V c).before 2 t d2) ((dat0 V c).before 3 t d3) _)
    isplitl [H0]; · iexact H0
    isplitl [H1]; · iexact H1
    isplitl [H2]; · iexact H2
    isplitl [H3]; · iexact H3
    isplitl [HA]; · iexact HA
    isplitl [HB]; · iexact HB
    iintro ⟨H0, H1, H2, H3, HA, HB⟩
    isplitl [HA HB HO Hg]
    · isplitr [Hg]
      · isplitl [HA]; · iexact HA
        isplitl [HB]; · iexact HB
        iexact HO
      iexact Hg
    isplitl [Ho]; · iexact Ho
    isplitl [H0]; · iexact H0
    isplitl [H1]; · iexact H1
    isplitl [H2]; · iexists _; iexact H2
    iexists _; iexact H3
  · have hz : t.val ≠ 0 := fun h => hF (by rw [h])
    have cF : ¬isFirst (grid0.coords t) := fun h => hF ((isFirst_iff t).mp h)
    rw [accAt_next V c t hF]; unfold accStep; dsimp only
    rw [track_castSucc V c t, track_pos V c _ _ hz]
    by_cases hL : t.val % 64 = 63
    · -- a copy-out point
      have cL : isLast (grid0.coords t) := (isLast_iff t).mpr hL
      rw [show (dat0 V c).leavesExact 2 t = owns (c : Thread nD τ) (st0_2 t) fullShare ((dat0 V c).after 2 t) from by
          unfold Dat.leavesExact; rw [live0_2 t cL],
        show (dat0 V c).leavesExact 3 t = owns (c : Thread nD τ) (st0_3 t) fullShare ((dat0 V c).after 3 t) from by
          unfold Dat.leavesExact; rw [live0_3 t cL],
        after0_2, after0_3, accAt_next V c t hF]
      unfold accStep; dsimp only
      iintro ⟨⟨⟨HA, HB, HO⟩, Hg⟩, Ho, ⟨%d0, H0⟩, ⟨%d1, H1⟩, ⟨%d2, H2⟩, ⟨%d3, H3⟩⟩
      iapply (run_last c Set.univ (grid0.coords t) _ _ _ _ _ _ _ _ scA (Memref.isWhole_whole _) scB (Memref.isWhole_whole _) cF cL
        (blk0 V c 0 t) (blk0 V c 1 t) _ _ _)
      isplitl [H0]; · iexact H0
      isplitl [H1]; · iexact H1
      isplitl [H2]; · iexists _; iexact H2
      isplitl [H3]; · iexists _; iexact H3
      isplitl [HA]; · iexact HA
      isplitl [HB]; · iexact HB
      iintro ⟨H0, H1, H2, H3, HA, HB⟩
      isplitl [HA HB HO Hg]
      · isplitr [Hg]
        · isplitl [HA]; · iexact HA
          isplitl [HB]; · iexact HB
          iexact HO
        iexact Hg
      isplitl [Ho]; · iexact Ho
      isplitl [H0]; · iexact H0
      isplitl [H1]; · iexact H1
      isplitl [H2]; · iexact H2
      iexact H3
    · -- a middle point
      have cL : ¬isLast (grid0.coords t) := fun h => hL ((isLast_iff t).mp h)
      rw [Dat.leavesExact_idle (dat0 V c) 2 t (idle0_2 t cL) (noFlush0_2 t cL),
        Dat.leavesExact_idle (dat0 V c) 3 t (idle0_3 t cL) (noFlush0_3 t cL)]
      iintro ⟨⟨⟨HA, HB, HO⟩, Hg⟩, Ho, ⟨%d0, H0⟩, ⟨%d1, H1⟩, ⟨%d2, H2⟩, ⟨%d3, H3⟩⟩
      iapply (run_mid c Set.univ (grid0.coords t) _ _ _ _ _ _ _ _ scA (Memref.isWhole_whole _) scB (Memref.isWhole_whole _) cF cL
        (blk0 V c 0 t) (blk0 V c 1 t) ((dat0 V c).before 2 t d2) ((dat0 V c).before 3 t d3) _ _ _)
      isplitl [H0]; · iexact H0
      isplitl [H1]; · iexact H1
      isplitl [H2]; · iexact H2
      isplitl [H3]; · iexact H3
      isplitl [HA]; · iexact HA
      isplitl [HB]; · iexact HB
      iintro ⟨H0, H1, H2, H3, HA, HB⟩
      isplitl [HA HB HO Hg]
      · isplitr [Hg]
        · isplitl [HA]; · iexact HA
          isplitl [HB]; · iexact HB
          iexact HO
        iexact Hg
      isplitl [Ho]; · iexact Ho
      isplitl [H0]; · iexact H0
      isplitl [H1]; · iexact H1
      isplitl [H2]; · iexists _; iexact H2
      iexists _; iexact H3

/-- The body obligation of the segment-sum call, at every point. -/
theorem obligation0 (c : Dev nD) : BodyObligation (dat0 (F := F) V c) (defs₀ (F := F)) Variants.none () Set.univ := fun t => by
  rw [bigSep_W0, bigSep_W0]
  exact body0 V c t

/-! ## Entering and leaving the invariant -/

/-- What the launch hands the call is the invariant before the first point. -/
theorem track_in (c : Dev nD) : Pipeline.ΦA spec0 c ⊢ (dat0 V c).Φ 0 := by
  rw [show (dat0 V c).Φ 0 = track V c 0 (Nat.zero_le _) from rfl, track_zero V c 0 _ rfl]
  try exact Idealize.SL.BI.Entails.refl _

/-- After the last point the invariant gives the plain one back: what the accumulators hold is forgotten. -/
theorem track_out (c : Dev nD) : (dat0 V c).Φ (Fin.last cfg0.N) ⊢ Pipeline.ΦA spec0 c := by
  rw [show (dat0 V c).Φ (Fin.last cfg0.N) = track V c (Fin.last cfg0.N).val (Nat.le_of_lt_succ (Fin.last cfg0.N).isLt) from rfl,
    track_pos V c _ _ (by rw [Fin.val_last]; have : cfg0.N = 1600 := N_0; omega), plain_eq]
  iintro ⟨⟨HA, HB, HO⟩, Hg⟩
  isplitr [Hg]
  · isplitl [HA]; · iexists _; iexact HA
    isplitl [HB]; · iexists _; iexact HB
    iexact HO
  iexact Hg

/-- The same two facts in the shape a region of several takes them: the generator register and the scoped buffers no
    window stages go in (whatever else is offered beside them), and come back out with nothing else. -/
theorem enter0 (c : Dev nD) (P : sProp 𝕄) :
    iprop((∃ r, prngReg c r) ∗ P ∗ Pipeline.scopedRest spec0 c) ⊢ (dat0 V c).Φ 0 := by
  rw [show (dat0 V c).Φ 0 = Pipeline.ΦA spec0 c from rfl]; unfold Pipeline.ΦA
  iintro ⟨Hp, -, Hr⟩
  isplitl [Hr]; · iexact Hr
  iexact Hp

theorem leave0 (c : Dev nD) :
    (dat0 V c).Φ (Fin.last cfg0.N) ⊢ (iprop((∃ r, prngReg c r) ∗ BI.emp ∗ Pipeline.scopedRest spec0 c) : sProp 𝕄) := by
  have h := track_out V c
  unfold Pipeline.ΦA at h
  iintro Hall
  ihave Hsp := h $$ Hall
  icases Hsp with ⟨Hr, Hp⟩
  isplitl [Hp]; · iexact Hp
  isplitr; · iempintro
  iexact Hr

end Cert.Kernel.Hand

end
-- ==== Proof.K.Region1.lean ====
/-
  The combine call (the second pallas_call), at the buffer contents `V` it is entered from.

  Its grid has 20 points; point `t` stages rows 5000·t … 5000·t + 4999 of centers, of the segment sums and of the
  counts, and writes back the same rows of the result. The body loads the three staged blocks whole and stores one
  whole block: `centers · (1 + κ · count) − κ · sums`, the count's column broadcast along the row. So the proof data
  says: after the body each input's staging buffer still holds its block and the output's holds that expression of the
  three input blocks; nothing else of the core is touched, so the invariant between points is the plain one (the
  scoped buffers no window stages at anything, the generator register at some state).
-/
import proofs.«422952_j16217796510058_1_alg».proof.Proof.Gen.Kernel.Launch
import proofs.«422952_j16217796510058_1_alg».proof.Proof.Gen.Kernel.Skeleton
import proofs.«422952_j16217796510058_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the buffer contents the call finds on each core: the parameter everything below is stated at
variable (V : (c : Dev nD) → (b : Ref sig .tc) → Buf (Elt F) ((c : Thread nD τ).loc b))

/-! ## The blocks -/

/-- The zero offsets of a whole-buffer access, however they are spelt. -/
theorem off2_zero : (![0, 0] : Fin 2 → ℕ) = fun _ => 0 := by
  funext a; fin_cases a <;> rfl

/-- Window `w`'s block at point `t`: those rows of its array. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether or not it was fetched there,
    for any proof data over these arrays whose body leaves the block in place. One statement per input window. -/
theorem before1_0_of {c : Dev nD} (dat : Dat τ (Elt F) Unit ℕ (Pipeline.UD sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-! ## The body -/

/-- What the body's one store leaves in the output's staging buffer, from the three input blocks. -/
def comb (x0 x1 : Vec F S5000x256 .f32) (x2 : Vec F S5000x1 .f32) : Vec F S5000x256 .f32 :=
  k1_pay1 x0 x1 x2

set_option maxHeartbeats 1000000 in
/-- The body on whole staging memrefs, the three inputs' holding `x0`, `x1`, `x2` and the output's anything, runs to
    the continuation with the inputs' as they were and the output's at `comb x0 x1 x2`. -/
theorem run_comb (c : Dev nD) (E : Set ℕ) (i : grid1.Coords)
    (arg1 : Memref sig .tc .vmem S5000x256 .f32) (harg1 : arg1.IsWhole) (arg2 : Memref sig .tc .vmem S5000x256 .f32) (harg2 : arg2.IsWhole)
    (arg3 : Memref sig .tc .vmem S5000x1 .f32) (harg3 : arg3.IsWhole) (arg4 : Memref sig .tc .vmem S5000x256 .f32) (harg4 : arg4.IsWhole)
    (x0 x1 : Vec F S5000x256 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (comb x0 x1 x2)) -∗ K ⟨⟩))
      ⊢ wp frame (wpE (defs₀ (F := F)) Variants.none c none) E (cc1__combine_kernel i arg1 harg1 arg2 harg2 arg3 harg3 arg4 harg4) K := by
  simp only [cc1__combine_kernel_eq_skeleton]; unfold cc1__combine_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_singleton_self _, View.mem_set_unit_zero off2_zero Facts₀.inb_S5000x256_S5000x256_0_0 y⟩),
    View.canon_unit_zero off2_zero]
  simp only [View.readAt_eq_ld, View.ld_unit_zero (S := S5000x256) off2_zero, View.ld_unit_zero (S := S5000x1) off2_zero]
  rfl

/-! ## The proof data -/

/-- The call's proof data on core `c`: its arrays as it finds them; after the body at point `t` each input's staging
    buffer at its block and the output's at `comb` of the three blocks; the plain invariant; full shares; nothing owed. -/
def dat1 (c : Dev nD) : Dat τ (Elt F) Unit ℕ (Pipeline.UD sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => comb (blk1 V c 0 t) (blk1 V c 1 t) (blk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) :
    (dat1 V c).after 3 t = comb (blk1 V c 0 t) (blk1 V c 1 t) (blk1 V c 2 t) := by dsimp only [dat1]

theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d
theorem before1_2 (c : Dev nD) (t : Fin cfg1.N) (d) : (dat1 V c).before 2 t d = blk1 V c 2 t :=
  before1_2_of V (dat1 V c) (A_eq1 V c 2) (after1_2 V c) t d

/-! ## The body obligation -/

/-- What the body is called with at point `t`, the windows one by one, -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- At any point the inputs' staging buffers hold their blocks, so the body's triple applies; the invariant and the
    core's dues pass through unread. -/
theorem body1 (c : Dev nD) (t : Fin cfg1.N) :
    pre1 V c t ⊢ wp frame (wpE (defs₀ (F := F)) Variants.none c none) Set.univ (bodyAt1 t) (fun _ => post1 V c t) := by
  unfold pre1 post1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (run_comb c Set.univ (grid1.coords t) _ _ _ _ _ _ _ _ (blk1 V c 0 t) (blk1 V c 1 t) (blk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the combine call, at every point. -/
theorem obligation1 (c : Dev nD) : BodyObligation (dat1 (F := F) V c) (defs₀ (F := F)) Variants.none () Set.univ := fun t => by
  rw [bigSep_W1, bigSep_W1]
  exact body1 V c t

end Cert.Kernel.Hand

end
-- ==== Proof.K.Run.lean ====
/-
  The whole program as one run.

  @main is a reshape of the labels to a row, the segment-sum call, the combine call. Between them every unscoped
  buffer of the core holds known contents: as launched; then with the reshaped labels written; then with the
  segment-sum call's two output arrays at what its write-backs leave; then with the combine call's output array at
  what its write-backs leave. Each call is entered from the contents before it and left at the contents after it, the
  generator register and the core's (empty) dues riding along. Launching that chain gives: every weakly fair
  execution terminates, faults nowhere, and ends with every unscoped buffer at the last contents — the result array at
  the combine call's output, the three arguments as launched, since no item writes them.
-/
import proofs.«422952_j16217796510058_1_alg».proof.Proof.Gen.Kernel.Launch
import proofs.«422952_j16217796510058_1_alg».proof.Proof.Gen.Kernel.Skeleton
import proofs.«422952_j16217796510058_1_alg».proof.Proof.Gen.Kernel.Points
import proofs.«422952_j16217796510058_1_alg».proof.Proof.Gen.Kernel.Regions
import proofs.«422952_j16217796510058_1_alg».proof.Proof.K.Region0
import proofs.«422952_j16217796510058_1_alg».proof.Proof.K.Region1
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The contents at each boundary -/

/-- At launch. -/
abbrev B0 (c : Dev nD) : Valuation τ sig (Elt F) := fun b => m (c, b)
/-- After the reshape of the labels. -/
abbrev B1 (c : Dev nD) : Valuation τ sig (Elt F) := StableHlo.after hostOps0 (B0 m c)
/-- The same read at the TensorCore's references: what the segment-sum call is entered from. -/
abbrev U1 (c : Dev nD) (b : Ref sig .tc) : Buf (Elt F) ((c : Thread nD τ).loc b) := B1 m c b
/-- After the segment-sum call: its arrays at what its write-backs leave, every other buffer as before. -/
def B2 (c : Dev nD) : Valuation τ sig (Elt F) :=
  Pipeline.withArrays spec0 c (B1 m c) fun w => (dat0 (U1 m) c).arrAt w cfg0.N
theorem B2_arr (c : Dev nD) (w : Fin cfg0.W) :
    B2 m c (Proc.devRef .tc (Pipeline.arrRef spec0 w)) = (dat0 (U1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
/-- What the combine call is entered from. -/
abbrev U2 (c : Dev nD) (b : Ref sig .tc) : Buf (Elt F) ((c : Thread nD τ).loc b) := B2 m c b
/-- After the combine call. -/
def B3 (c : Dev nD) : Valuation τ sig (Elt F) :=
  Pipeline.withArrays spec1 c (B2 m c) fun w => (dat1 (U2 m) c).arrAt w cfg1.N
theorem B3_arr (c : Dev nD) (w : Fin cfg1.W) :
    B3 m c (Proc.devRef .tc (Pipeline.arrRef spec1 w)) = (dat1 (U2 m) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m c (Proc.devRef .tc b) = B2 m c (Proc.devRef .tc b) := by
  unfold B3; exact Pipeline.withArrays_of_ne spec1 c _ _ b hb
abbrev U3 (c : Dev nD) (b : Ref sig .tc) : Buf (Elt F) ((c : Thread nD τ).loc b) := B3 m c b

theorem arr0_out (c : Dev nD) (w : Fin cfg0.W) : (dat0 (U1 m) c).arrAt w cfg0.N = U2 m c (Pipeline.arrRef spec0 w) :=
  (B2_arr m c w).symm
theorem rest0_out (c : Dev nD) : ∀ b, b ∉ Finset.univ.image (Pipeline.arrRef spec0) → U2 m c b = U1 m c b :=
  fun b hb => B2_of_ne m c b fun w e => hb (Finset.mem_image.mpr ⟨w, Finset.mem_univ _, e⟩)
theorem arr1_out (c : Dev nD) (w : Fin cfg1.W) : (dat1 (U2 m) c).arrAt w cfg1.N = U3 m c (Pipeline.arrRef spec1 w) :=
  (B3_arr m c w).symm
theorem rest1_out (c : Dev nD) : ∀ b, b ∉ Finset.univ.image (Pipeline.arrRef spec1) → U3 m c b = U2 m c b :=
  fun b hb => B3_of_ne m c b fun w e => hb (Finset.mem_image.mpr ⟨w, Finset.mem_univ _, e⟩)

/-- The reshape writes the row of labels and nothing else. -/
theorem B1_of (c : Dev nD) (r : Ref sig .tc) (h : r ∉ hostOps0_W) : B1 m c r = B0 m c r :=
  StableHlo.after_of_writes_sub hostOps0 _ hostOps0_writes h

/-! ### The arguments end as launched, and the result is the combine call's output -/

theorem B3_main_arg0 (c : Dev nD) : B3 m c (Proc.devRef .tc main_arg0) = m ((c : Thread nD τ).loc main_arg0) :=
  calc B3 m c (Proc.devRef .tc main_arg0)
    _ = B2 m c (Proc.devRef .tc main_arg0) := B3_of_ne m c main_arg0 (by decide)
    _ = B1 m c (Proc.devRef .tc main_arg0) := (B2_arr m c 1).trans (((dat0 (U1 m) c).arrAt_in 1 rfl _).trans (A_eq0 (U1 m) c 1))
    _ = m ((c : Thread nD τ).loc main_arg0) := B1_of m c main_arg0 (by decide)
theorem B3_main_arg1 (c : Dev nD) : B3 m c (Proc.devRef .tc main_arg1) = m ((c : Thread nD τ).loc main_arg1) :=
  calc B3 m c (Proc.devRef .tc main_arg1)
    _ = B2 m c (Proc.devRef .tc main_arg1) := B3_of_ne m c main_arg1 (by decide)
    _ = B1 m c (Proc.devRef .tc main_arg1) := B2_of_ne m c main_arg1 (by decide)
    _ = m ((c : Thread nD τ).loc main_arg1) := B1_of m c main_arg1 (by decide)
theorem B3_main_arg2 (c : Dev nD) : B3 m c (Proc.devRef .tc main_arg2) = m ((c : Thread nD τ).loc main_arg2) :=
  calc B3 m c (Proc.devRef .tc main_arg2)
    _ = B2 m c (Proc.devRef .tc main_arg2) := (B3_arr m c 0).trans (((dat1 (U2 m) c).arrAt_in 0 rfl _).trans (A_eq1 (U2 m) c 0))
    _ = B1 m c (Proc.devRef .tc main_arg2) := B2_of_ne m c main_arg2 (by decide)
    _ = m ((c : Thread nD τ).loc main_arg2) := B1_of m c main_arg2 (by decide)
theorem B3_main_v2 (c : Dev nD) : B3 m c (Proc.devRef .tc main_v2) = (dat1 (U2 m) c).arrAt 3 cfg1.N :=
  B3_arr m c 3

/-! ## The proof data family and what rides along -/

/-- Both calls' proof data, each at the contents its call is entered from. -/
def pdats : (p : Fin 2) → (c : Dev nD) → Dat τ (Elt F) Unit ℕ (Pipeline.UD sig nD τ) ℕ (Pipeline.pin (pcfgs (F := F)) adm p) c
  | ⟨0, _⟩ => fun c => dat0 (U1 m) c
  | ⟨1, _⟩ => fun c => dat1 (U2 m) c
abbrev 𝒱₀ : Variants := Variants.none
abbrev L : GSem nD τ sig → Finset Unit := fun _ => ∅
abbrev lv : GSem nD τ sig → Unit → ℕ := fun _ _ => 0
/-- Beside the buffers, through every item: the generator register at some state and the core's dues, at nothing. -/
abbrev R (c : Dev nD) : sProp 𝕄 := iprop((∃ r, prngReg c r) ∗ ∃ W, owes (c : Thread nD τ) (0 : CellTallies nD τ sig Unit) W)
/-- The reshape as a segment, from the launch contents. -/
abbrev hseg : Pipeline.HostSeg (Name := ℕ) (U := Pipeline.UD sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (B0 m) R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tend (c : Dev nD) : sProp 𝕄 := iprop(StableHlo.held (c : Thread nD τ) (Pipeline.ucRefs τ sig) (B3 m c) ∗ ∃ r, prngReg c r)

/-! ## The two calls as segments -/

set_option backward.isDefEq.respectTransparency.types false in
/-- The segment-sum call: entered from `B1`, left at `B2`. Its arrays are split out of the unscoped buffers and put
    back at what it leaves; the generator register goes into its invariant before the first point and comes back after
    the last, where what the accumulators hold is forgotten; it owes nothing and has no semaphore of its own. -/
def seg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (obligation0 (U1 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := enter0 (U1 m) c _
  hout c := by
    rw [Pipeline.ownSems0_none]
    exact leave0 (U1 m) c
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (U1 m c) (U2 m c) ((pdats m 0 c).arrAt · cfg0.N) (arr0_out m c) (rest0_out m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The combine call: entered from `B2`, left at `B3`; the generator register into its plain invariant and out. -/
def seg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (obligation1 (U2 m) c).loose
  hwaits := Pipeline.hwaits_of_owed_zero _ _ _ _ L lv 1 fun _ _ => rfl
  pre c := iprop(StableHlo.held (c : Thread nD τ) (Pipeline.ucRefs τ sig) (B2 m c) ∗ R c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec1 c (U2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (U2 m c) (U3 m c) ((pdats m 1 c).arrAt · cfg1.N) (arr1_out m c) (rest1_out m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as the three items, and the launch -/

abbrev items : List (Pipeline.Seg (pcfgs (F := F)) adm (pdats m) () defs₀ 𝒱₀ L lv) :=
  [ .host (hseg m),
    .region (seg0 m),
    .region (seg1 m) ]
theorem main_items (c : Dev nD) : main (F := F) c = Pipeline.Seg.run (items m) := (main_chain c).trans (by chain_rfl)

set_option backward.isDefEq.respectTransparency.types false in
/-- Every weakly fair execution of @main from memory `m` with zero counters terminates, nothing faulting, and ends with
    the result array at the combine call's output and the three arguments as launched. -/
theorem run_all : θ_run defs (onTc (τ := τ) (main (F := F))) ⟨m, fun _ => 0, ρ⟩ (fun r => ∀ c : Dev nD,
      r.2.mem ((c.tc : Thread nD τ).loc main_v2) = (dat1 (U2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m) () cellOf_inj embL defs₀ 𝒱₀ L lv m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tend m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m c b)
    (hfin := fun c s' => by
      iintro ⟨⟨Hh, -⟩, HSI⟩
      unfold StableHlo.held
      imodintro
      iapply (pointsTo_read_all (Pipeline.ucRefs τ sig) (fun b => (((c : Thread nD τ)).1, b)) (B3 m c) s')
      isplitl [Hh] <;> iassumption)
    (hQ := fun s h c =>
      ⟨(h c _ (mem_uc main_v2 (by decide))).trans (B3_main_v2 m c),
       (h c _ (mem_uc main_arg0 (by decide))).trans (B3_main_arg0 m c),
       (h c _ (mem_uc main_arg1 (by decide))).trans (B3_main_arg1 m c),
       (h c _ (mem_uc main_arg2 (by decide))).trans (B3_main_arg2 m c)⟩)

/-- The frame claim, at any instance: the run with the result forgotten. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_all m ρ)

end Cert.Kernel.Hand

end
-- ==== Proof.KI.Region0Runs.lean ====
/-
  The segment-sum call (the first pallas_call), at the buffer contents `V` it is entered from.

  Its grid is 25 × 64: point `t = 64·i + j` stages labels and features of samples 1024·j … 1024·j + 1023 and owns
  rows 4000·i … 4000·i + 3999 of the two outputs. Two scratch buffers carry a running sum of features and a running
  count across the 64 points of one `i`: the body clears them when `j = 0`, adds the tile's one-hot products at every
  point, and copies them into the outputs' staging buffers when `j = 63`, the only points at which the pipeline writes
  those blocks back. At the other points the output windows are idle: their staging buffers are handed back untouched.
  So the invariant between points is not the plain one: after point `t` the two scratch buffers hold the running sums
  up to `t` (`accAt`), and that is what the next point starts from.
-/
import proofs.«422952_j16217796510058_1_alg».proof.Proof.Gen.KernelIdeal.Launch
import proofs.«422952_j16217796510058_1_alg».proof.Proof.Gen.KernelIdeal.Skeleton
import proofs.«422952_j16217796510058_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the buffer contents the call finds on each core: the parameter everything below is stated at
variable (V : (c : Dev nD) → (b : Ref sig .tc) → Buf (Elt F) ((c : Thread nD τ).loc b))

/-! ## The blocks -/

/-- The zero offsets of a whole-buffer access, however they are spelt. -/
theorem off2_zero0 : (![0, 0] : Fin 2 → ℕ) = fun _ => 0 := by
  funext a; fin_cases a <;> rfl

/-- Window `w`'s block at point `t`: that tile of its array. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (Pipeline.UD sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-! ## The body's two conditions, over the grid -/

/-- The body clears its accumulators: the grid's second coordinate is 0. -/
abbrev isFirst (i : grid0.Coords) : Prop :=
  (Scalar.cmpi .ne (Scalar.extui (Scalar.cmpi .eq (BitVec.ofNat 32 (i 1).val) 0#32)) 0#32) = 1#1
theorem isFirst_iff : ∀ t : Fin cfg0.N, isFirst (grid0.coords t) ↔ t.val % 64 = 0 :=
  (by decide +kernel : ∀ t : Fin grid0.N, isFirst (grid0.coords t) ↔ t.val % 64 = 0)

/-- The body copies its accumulators out: the grid's second coordinate is 63. -/
abbrev isLast (i : grid0.Coords) : Prop := k0_cond2 i = 1#1
theorem isLast_iff : ∀ t : Fin cfg0.N, isLast (grid0.coords t) ↔ t.val % 64 = 63 :=
  (by decide +kernel : ∀ t : Fin grid0.N, isLast (grid0.coords t) ↔ t.val % 64 = 63)

/-! ## Where the windows are idle -/

theorem live0_0 : ∀ t : Fin cfg0.N, cfg0.idle 0 (grid0.coords t) = false := by decide +kernel
theorem live0_1 : ∀ t : Fin cfg0.N, cfg0.idle 1 (grid0.coords t) = false := by decide +kernel
theorem idle0_2 : ∀ t : Fin cfg0.N, ¬isLast (grid0.coords t) → cfg0.idle 2 (grid0.coords t) = true := by decide +kernel
theorem idle0_3 : ∀ t : Fin cfg0.N, ¬isLast (grid0.coords t) → cfg0.idle 3 (grid0.coords t) = true := by decide +kernel
theorem live0_2 : ∀ t : Fin cfg0.N, isLast (grid0.coords t) → cfg0.idle 2 (grid0.coords t) = false := by decide +kernel
theorem live0_3 : ∀ t : Fin cfg0.N, isLast (grid0.coords t) → cfg0.idle 3 (grid0.coords t) = false := by decide +kernel
theorem noFlush0_2 : ∀ t : Fin cfg0.N, ¬isLast (grid0.coords t) → (cfg0.win 2).flush t = false := by decide +kernel
theorem noFlush0_3 : ∀ t : Fin cfg0.N, ¬isLast (grid0.coords t) → (cfg0.win 3).flush t = false := by decide +kernel

/-! ## The body, case by case -/

set_option maxHeartbeats 2000000 in
/-- A middle point (neither clearing nor copying out): on whole memrefs, the inputs' at `x0`, `x1`, the outputs' at
    anything `y2`, `y3` (handed back untouched), the accumulators at `a`, `b`, the body ends with the accumulators at
    `a` plus the tile's one-hot products and `b` plus the tile's one-hot counts. -/
theorem run_mid (c : Dev nD) (E : Set ℕ) (i : grid0.Coords)
    (arg2 : Memref sig .tc .vmem S1x1024 .i32) (harg2 : arg2.IsWhole) (arg3 : Memref sig .tc .vmem S1024x256 .f32) (harg3 : arg3.IsWhole)
    (arg4 : Memref sig .tc .vmem S4000x256 .f32) (harg4 : arg4.IsWhole) (arg5 : Memref sig .tc .vmem S4000x1 .f32) (harg5 : arg5.IsWhole)
    (arg6 : Memref sig .tc .vmem S4000x256 .f32) (harg6 : arg6.IsWhole) (arg7 : Memref sig .tc .vmem S4000x1 .f32) (harg7 : arg7.IsWhole)
    (hF : ¬isFirst i) (hL : ¬isLast i)
    (x0 : Vec F S1x1024 .i32) (x1 : Vec F S1024x256 .f32) (y2 : Vec F S4000x256 .f32) (y3 : Vec F S4000x1 .f32)
    (a : Vec F S4000x256 .f32) (b : Vec F S4000x1 .f32) (K : PUnit → sProp 𝕄) :
    iprop(owns (c : Thread nD τ) arg2 fullShare x0 ∗ owns (c : Thread nD τ) arg3 fullShare x1
        ∗ owns (c : Thread nD τ) arg4 fullShare y2 ∗ owns (c : Thread nD τ) arg5 fullShare y3
        ∗ owns (c : Thread nD τ) arg6 fullShare a ∗ owns (c : Thread nD τ) arg7 fullShare b
        ∗ (iprop(owns (c : Thread nD τ) arg2 fullShare x0 ∗ owns (c : Thread nD τ) arg3 fullShare x1
            ∗ owns (c : Thread nD τ) arg4 fullShare y2 ∗ owns (c : Thread nD τ) arg5 fullShare y3
            ∗ owns (c : Thread nD τ) arg6 fullShare (k0_pay4 i x0 x1 a) ∗ owns (c : Thread nD τ) arg7 fullShare (k0_pay5 i x0 b)) -∗ K ⟨⟩))
      ⊢ wp frame (wpE (defs₀ (F := F)) Variants.none c none) E (cc0__segsum_kernel i arg2 harg2 arg3 harg3 arg4 harg4 arg5 harg5 arg6 harg6 arg7 harg7) K := by
  simp only [cc0__segsum_kernel_eq_skeleton]; unfold cc0__segsum_kernel_skel
  unfold owns
  iintro ⟨⟨%f0, %hf0, H0⟩, ⟨%f1, %hf1, H1⟩, ⟨%f2, %hf2, H2⟩, ⟨%f3, %hf3, H3⟩, ⟨%f6, %hf6, H6⟩, ⟨%f7, %hf7, H7⟩, Hk⟩
  subst hf0; subst hf1; subst hf2; subst hf3; subst hf6; subst hf7
  sl_exec (disch := first | exact hF | exact hL)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H6]
  · iexists _; isplitr
    swap; · iexact H6
    ipureintro
    sl_unfold_words
    rw [View.read_writes_eq_canon _ _ _ (fun y => ⟨_, List.mem_cons_self, View.mem_set_unit_zero off2_zero0 Facts₀.inb_S4000x256_S4000x256_0_0 y⟩),
      View.canon_cons_unit_zero off2_zero0]
    simp only [View.readAt_eq_ld, View.ld_unit_zero (S := S1x1024) off2_zero0, View.ld_unit_zero (S := S1024x256) off2_zero0,
      View.ld_unit_zero (S := S4000x256) off2_zero0, View.ld_unit_zero (S := S4000x1) off2_zero0,
      View.readCov_unit_zero (S := S4000x256) _ off2_zero0, View.readCov_unit_zero (S := S4000x1) _ off2_zero0]
  · iexists _; isplitr
    swap; · iexact H7
    ipureintro
    sl_unfold_words
    rw [View.read_writes_eq_canon _ _ _ (fun y => ⟨_, List.mem_cons_self, View.mem_set_unit_zero off2_zero0 Facts₀.inb_S4000x1_S4000x1_0_0 y⟩),
      View.canon_cons_unit_zero off2_zero0]
    simp only [View.readAt_eq_ld, View.ld_unit_zero (S := S1x1024) off2_zero0, View.ld_unit_zero (S := S1024x256) off2_zero0,
      View.ld_unit_zero (S := S4000x256) off2_zero0, View.ld_unit_zero (S := S4000x1) off2_zero0,
      View.readCov_unit_zero (S := S4000x256) _ off2_zero0, View.readCov_unit_zero (S := S4000x1) _ off2_zero0]

set_option maxHeartbeats 2000000 in
/-- A clearing point (the first of its 64): the accumulators, at anything before, end at the tile's one-hot products and
    counts added to zero; the outputs' staging buffers are handed back untouched. -/
theorem run_first (c : Dev nD) (E : Set ℕ) (i : grid0.Coords)
    (arg2 : Memref sig .tc .vmem S1x1024 .i32) (harg2 : arg2.IsWhole) (arg3 : Memref sig .tc .vmem S1024x256 .f32) (harg3 : arg3.IsWhole)
    (arg4 : Memref sig .tc .vmem S4000x256 .f32) (harg4 : arg4.IsWhole) (arg5 : Memref sig .tc .vmem S4000x1 .f32) (harg5 : arg5.IsWhole)
    (arg6 : Memref sig .tc .vmem S4000x256 .f32) (harg6 : arg6.IsWhole) (arg7 : Memref sig .tc .vmem S4000x1 .f32) (harg7 : arg7.IsWhole)
    (hF : isFirst i) (hL : ¬isLast i)
    (x0 : Vec F S1x1024 .i32) (x1 : Vec F S1024x256 .f32) (y2 : Vec F S4000x256 .f32) (y3 : Vec F S4000x1 .f32)
    (K : PUnit → sProp 𝕄) :
    iprop(owns (c : Thread nD τ) arg2 fullShare x0 ∗ owns (c : Thread nD τ) arg3 fullShare x1
        ∗ owns (c : Thread nD τ) arg4 fullShare y2 ∗ owns (c : Thread nD τ) arg5 fullShare y3
        ∗ (∃ a, owns (c : Thread nD τ) arg6 fullShare a) ∗ (∃ b, owns (c : Thread nD τ) arg7 fullShare b)
        ∗ (iprop(owns (c : Thread nD τ) arg2 fullShare x0 ∗ owns (c : Thread nD τ) arg3 fullShare x1
            ∗ owns (c : Thread nD τ) arg4 fullShare y2 ∗ owns (c : Thread nD τ) arg5 fullShare y3
            ∗ owns (c : Thread nD τ) arg6 fullShare (k0_pay4 i x0 x1 k0_pay1) ∗ owns (c : Thread nD τ) arg7 fullShare (k0_pay5 i x0 k0_pay2)) -∗ K ⟨⟩))
      ⊢ wp frame (wpE (defs₀ (F := F)) Variants.none c none) E (cc0__segsum_kernel i arg2 harg2 arg3 harg3 arg4 harg4 arg5 harg5 arg6 harg6 arg7 harg7) K := by
  simp only [cc0__segsum_kernel_eq_skeleton]; unfold cc0__segsum_kernel_skel
  unfold owns
  iintro ⟨⟨%f0, %hf0, H0⟩, ⟨%f1, %hf1, H1⟩, ⟨%f2, %hf2, H2⟩, ⟨%f3, %hf3, H3⟩, ⟨%a, %f6, -, H6⟩, ⟨%b, %f7, -, H7⟩, Hk⟩
  subst hf0; subst hf1; subst hf2; subst hf3
  sl_exec (disch := first | exact hF | exact hL)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H6]
  · iexists _; isplitr
    swap; · iexact H6
    ipureintro
    sl_unfold_words
    rw [View.read_writes_eq_canon _ _ _ (fun y => ⟨_, List.mem_cons_self, View.mem_set_unit_zero off2_zero0 Facts₀.inb_S4000x256_S4000x256_0_0 y⟩),
      View.canon_cons_unit_zero off2_zero0]
    simp only [View.readAt_eq_ld, View.ld_unit_zero (S := S1x1024) off2_zero0, View.ld_unit_zero (S := S1024x256) off2_zero0,
      View.ld_unit_zero (S := S4000x256) off2_zero0, View.ld_unit_zero (S := S4000x1) off2_zero0,
      View.readCov_unit_zero (S := S4000x256) _ off2_zero0, View.readCov_unit_zero (S := S4000x1) _ off2_zero0]
  · iexists _; isplitr
    swap; · iexact H7
    ipureintro
    sl_unfold_words
    rw [View.read_writes_eq_canon _ _ _ (fun y => ⟨_, List.mem_cons_self, View.mem_set_unit_zero off2_zero0 Facts₀.inb_S4000x1_S4000x1_0_0 y⟩),
      View.canon_cons_unit_zero off2_zero0]
    simp only [View.readAt_eq_ld, View.ld_unit_zero (S := S1x1024) off2_zero0, View.ld_unit_zero (S := S1024x256) off2_zero0,
      View.ld_unit_zero (S := S4000x256) off2_zero0, View.ld_unit_zero (S := S4000x1) off2_zero0,
      View.readCov_unit_zero (S := S4000x256) _ off2_zero0, View.readCov_unit_zero (S := S4000x1) _ off2_zero0]

set_option maxHeartbeats 2000000 in
/-- A copy-out point (the last of its 64): the accumulators end at `a`, `b` plus the tile's contribution, and both
    outputs' staging buffers, at anything before, end holding those same totals. -/
theorem run_last (c : Dev nD) (E : Set ℕ) (i : grid0.Coords)
    (arg2 : Memref sig .tc .vmem S1x1024 .i32) (harg2 : arg2.IsWhole) (arg3 : Memref sig .tc .vmem S1024x256 .f32) (harg3 : arg3.IsWhole)
    (arg4 : Memref sig .tc .vmem S4000x256 .f32) (harg4 : arg4.IsWhole) (arg5 : Memref sig .tc .vmem S4000x1 .f32) (harg5 : arg5.IsWhole)
    (arg6 : Memref sig .tc .vmem S4000x256 .f32) (harg6 : arg6.IsWhole) (arg7 : Memref sig .tc .vmem S4000x1 .f32) (harg7 : arg7.IsWhole)
    (hF : ¬isFirst i) (hL : isLast i)
    (x0 : Vec F S1x1024 .i32) (x1 : Vec F S1024x256 .f32)
    (a : Vec F S4000x256 .f32) (b : Vec F S4000x1 .f32) (K : PUnit → sProp 𝕄) :
    iprop(owns (c : Thread nD τ) arg2 fullShare x0 ∗ owns (c : Thread nD τ) arg3 fullShare x1
        ∗ (∃ y2, owns (c : Thread nD τ) arg4 fullShare y2) ∗ (∃ y3, owns (c : Thread nD τ) arg5 fullShare y3)
        ∗ owns (c : Thread nD τ) arg6 fullShare a ∗ owns (c : Thread nD τ) arg7 fullShare b
        ∗ (iprop(owns (c : Thread nD τ) arg2 fullShare x0 ∗ owns (c : Thread nD τ) arg3 fullShare x1
            ∗ owns (c : Thread nD τ) arg4 fullShare (k0_pay4 i x0 x1 a) ∗ owns (c : Thread nD τ) arg5 fullShare (k0_pay5 i x0 b)
            ∗ owns (c : Thread nD τ) arg6 fullShare (k0_pay4 i x0 x1 a) ∗ owns (c : Thread nD τ) arg7 fullShare (k0_pay5 i x0 b)) -∗ K ⟨⟩))
      ⊢ wp frame (wpE (defs₀ (F := F)) Variants.none c none) E (cc0__segsum_kernel i arg2 harg2 arg3 harg3 arg4 harg4 arg5 harg5 arg6 harg6 arg7 harg7) K := by
  simp only [cc0__segsum_kernel_eq_skeleton]; unfold cc0__segsum_kernel_skel
  unfold owns
  iintro ⟨⟨%f0, %hf0, H0⟩, ⟨%f1, %hf1, H1⟩, ⟨%y2, %f2, -, H2⟩, ⟨%y3, %f3, -, H3⟩, ⟨%f6, %hf6, H6⟩, ⟨%f7, %hf7, H7⟩, Hk⟩
  subst hf0; subst hf1; subst hf6; subst hf7
  sl_exec (disch := first | exact hF | exact hL)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    rw [View.read_writes_eq_canon _ _ _ (fun y => ⟨_, List.mem_cons_self, View.mem_set_unit_zero off2_zero0 Facts₀.inb_S4000x256_S4000x256_0_0 y⟩),
      View.canon_cons_unit_zero off2_zero0]
    simp only [View.readAt_eq_ld, View.ld_unit_zero (S := S1x1024) off2_zero0, View.ld_unit_zero (S := S1024x256) off2_zero0,
      View.ld_unit_zero (S := S4000x256) off2_zero0, View.ld_unit_zero (S := S4000x1) off2_zero0,
      View.readCov_unit_zero (S := S4000x256) _ off2_zero0, View.readCov_unit_zero (S := S4000x1) _ off2_zero0]
  isplitl [H3]
  · iexists _; isplitr
    swap; · iexact H3
    ipureintro
    sl_unfold_words
    rw [View.read_writes_eq_canon _ _ _ (fun y => ⟨_, List.mem_cons_self, View.mem_set_unit_zero off2_zero0 Facts₀.inb_S4000x1_S4000x1_0_0 y⟩),
      View.canon_cons_unit_zero off2_zero0]
    simp only [View.readAt_eq_ld, View.ld_unit_zero (S := S1x1024) off2_zero0, View.ld_unit_zero (S := S1024x256) off2_zero0,
      View.ld_unit_zero (S := S4000x256) off2_zero0, View.ld_unit_zero (S := S4000x1) off2_zero0,
      View.readCov_unit_zero (S := S4000x256) _ off2_zero0, View.readCov_unit_zero (S := S4000x1) _ off2_zero0]
  isplitl [H6]
  · iexists _; isplitr
    swap; · iexact H6
    ipureintro
    sl_unfold_words
    rw [View.read_writes_eq_canon _ _ _ (fun y => ⟨_, List.mem_cons_self, View.mem_set_unit_zero off2_zero0 Facts₀.inb_S4000x256_S4000x256_0_0 y⟩),
      View.canon_cons_unit_zero off2_zero0]
    simp only [View.readAt_eq_ld, View.ld_unit_zero (S := S1x1024) off2_zero0, View.ld_unit_zero (S := S1024x256) off2_zero0,
      View.ld_unit_zero (S := S4000x256) off2_zero0, View.ld_unit_zero (S := S4000x1) off2_zero0,
      View.readCov_unit_zero (S := S4000x256) _ off2_zero0, View.readCov_unit_zero (S := S4000x1) _ off2_zero0]
  · iexists _; isplitr
    swap; · iexact H7
    ipureintro
    sl_unfold_words
    rw [View.read_writes_eq_canon _ _ _ (fun y => ⟨_, List.mem_cons_self, View.mem_set_unit_zero off2_zero0 Facts₀.inb_S4000x1_S4000x1_0_0 y⟩),
      View.canon_cons_unit_zero off2_zero0]
    simp only [View.readAt_eq_ld, View.ld_unit_zero (S := S1x1024) off2_zero0, View.ld_unit_zero (S := S1024x256) off2_zero0,
      View.ld_unit_zero (S := S4000x256) off2_zero0, View.ld_unit_zero (S := S4000x1) off2_zero0,
      View.readCov_unit_zero (S := S4000x256) _ off2_zero0, View.readCov_unit_zero (S := S4000x1) _ off2_zero0]

end Cert.KernelIdeal.Hand

end
-- ==== Proof.KI.Region0.lean ====
/-
  The segment-sum call's proof data: what its two accumulators hold after every point, the invariant that carries
  them from one point to the next, and the body obligation.

  After point `t = 64·i + j` the accumulators hold the contributions of tiles `0 … j` of row block `i`: one
  `accStep` from cleared accumulators when `j = 0`, one `accStep` from what point `t − 1` left otherwise. The outputs'
  staging buffers receive that value at `j = 63` and are untouched elsewhere, where the proof data's entry for them is
  never consulted.
-/
import proofs.«422952_j16217796510058_1_alg».proof.Proof.Gen.KernelIdeal.Launch
import proofs.«422952_j16217796510058_1_alg».proof.Proof.Gen.KernelIdeal.Skeleton
import proofs.«422952_j16217796510058_1_alg».proof.Proof.Gen.KernelIdeal.Points
import proofs.«422952_j16217796510058_1_alg».proof.Proof.KI.Region0Runs
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the buffer contents the call finds on each core: the parameter everything below is stated at
variable (V : (c : Dev nD) → (b : Ref sig .tc) → Buf (Elt F) ((c : Thread nD τ).loc b))

/-! ## The running sums -/

/-- Both accumulators cleared. -/
def acc0 : Vec F S4000x256 .f32 × Vec F S4000x1 .f32 := (k0_pay1, k0_pay2)

/-- Point `t`'s tile added to both accumulators. -/
def accStep (c : Dev nD) (t : Fin cfg0.N) (p : Vec F S4000x256 .f32 × Vec F S4000x1 .f32) :
    Vec F S4000x256 .f32 × Vec F S4000x1 .f32 :=
  (k0_pay4 (grid0.coords t) (blk0 V c 0 t) (blk0 V c 1 t) p.1, k0_pay5 (grid0.coords t) (blk0 V c 0 t) p.2)

/-- What the accumulators hold after point `n`. -/
def accAt (c : Dev nD) : (n : ℕ) → n < cfg0.N → Vec F S4000x256 .f32 × Vec F S4000x1 .f32
  | 0, hn => accStep V c ⟨0, hn⟩ acc0
  | n + 1, hn => accStep V c ⟨n + 1, hn⟩ (if (n + 1) % 64 = 0 then acc0 else accAt c n (Nat.lt_of_succ_lt hn))

/-- At the first point of a row block the sums start afresh. -/
theorem accAt_first (c : Dev nD) (t : Fin cfg0.N) (h : t.val % 64 = 0) :
    accAt V c t.val t.isLt = accStep V c t acc0 := by
  obtain ⟨n, hn⟩ := t
  cases n with
  | zero => rfl
  | succ n => show accStep V c ⟨n + 1, hn⟩ (if (n + 1) % 64 = 0 then acc0 else accAt V c n _) = _; rw [if_pos h]

/-- At any other point they continue from the point before. -/
theorem accAt_next (c : Dev nD) (t : Fin cfg0.N) (h : ¬t.val % 64 = 0) :
    accAt V c t.val t.isLt = accStep V c t (accAt V c (t.val - 1) (Nat.lt_of_le_of_lt (Nat.sub_le _ _) t.isLt)) := by
  obtain ⟨n, hn⟩ := t
  cases n with
  | zero => exact absurd (Nat.zero_mod _) h
  | succ n => show accStep V c ⟨n + 1, hn⟩ (if (n + 1) % 64 = 0 then acc0 else accAt V c n _) = _; rw [if_neg h]; rfl

/-! ## The invariant between points -/

/-- The two accumulators, as memrefs. -/
abbrev scA : Memref sig .tc .vmem S4000x256 .f32 := Memref.whole cc0_scratch0
abbrev scB : Memref sig .tc .vmem S4000x1 .f32 := Memref.whole cc0_scratch1

/-- The scoped buffers this call neither stages nor accumulates in (the other call's staging buffers), at anything. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The plain invariant, with the two accumulators singled out as memrefs owned at some contents. -/
theorem plain_eq (c : Dev nD) :
    (Pipeline.ΦA spec0 c : sProp 𝕄)
      = iprop(iprop((∃ d, owns (c : Thread nD τ) scA fullShare d) ∗ (∃ d, owns (c : Thread nD τ) scB fullShare d) ∗ others c) ∗ (∃ r, prngReg c r)) := by
  unfold Pipeline.ΦA others; rw [scopedRest0_eq]; simp only [scA, scB, owns_whole]; try rfl

/-- The invariant before position `n`: before the first point the plain one; afterwards the same with the two
    accumulators at what point `n − 1` left in them. -/
def track (c : Dev nD) : (n : ℕ) → n ≤ cfg0.N → sProp 𝕄
  | 0, _ => Pipeline.ΦA spec0 c
  | n + 1, hn => iprop(iprop(owns (c : Thread nD τ) scA fullShare (accAt V c n hn).1 ∗ owns (c : Thread nD τ) scB fullShare (accAt V c n hn).2 ∗ others c) ∗ (∃ r, prngReg c r))

theorem track_zero (c : Dev nD) (n : ℕ) (h : n ≤ cfg0.N) (hz : n = 0) : track V c n h = Pipeline.ΦA spec0 c := by
  subst hz; rfl

theorem track_succ (c : Dev nD) (n : ℕ) (hn : n < cfg0.N) :
    track V c (n + 1) hn = iprop(iprop(owns (c : Thread nD τ) scA fullShare (accAt V c n hn).1 ∗ owns (c : Thread nD τ) scB fullShare (accAt V c n hn).2 ∗ others c) ∗ (∃ r, prngReg c r)) := rfl

theorem track_pos (c : Dev nD) (n : ℕ) (h : n ≤ cfg0.N) (hz : n ≠ 0) :
    track V c n h = iprop(iprop(owns (c : Thread nD τ) scA fullShare (accAt V c (n - 1) (by omega)).1 ∗ owns (c : Thread nD τ) scB fullShare (accAt V c (n - 1) (by omega)).2 ∗ others c) ∗ (∃ r, prngReg c r)) := by
  cases n with
  | zero => exact absurd rfl hz
  | succ n => rfl

/-! ## The proof data -/

/-- The call's proof data on core `c`: its arrays as it finds them; after the body at point `t` each input's staging
    buffer at its tile and each output's at the running sums after `t`; the tracking invariant; full shares; nothing owed. -/
def dat0 (c : Dev nD) : Dat τ (Elt F) Unit ℕ (Pipeline.UD sig nD τ) ℕ cfg0 c where
  A w := V c (Pipeline.arrRef spec0 w)
  after w t := match w with
    | ⟨0, _⟩ => blk0 V c 0 t
    | ⟨1, _⟩ => blk0 V c 1 t
    | ⟨2, _⟩ => (accAt V c t.val t.isLt).1
    | ⟨3, _⟩ => (accAt V c t.val t.isLt).2
  Φ t := track V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem track_castSucc (c : Dev nD) (t : Fin cfg0.N) :
    (dat0 V c).Φ t.castSucc = track V c t.val (Nat.le_of_lt t.isLt) := by
  dsimp only [dat0]; simp only [Fin.coe_castSucc]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = (accAt V c t.val t.isLt).1 := by dsimp only [dat0]
theorem after0_3 (c : Dev nD) (t : Fin cfg0.N) : (dat0 V c).after 3 t = (accAt V c t.val t.isLt).2 := by dsimp only [dat0]

theorem before0_0 (c : Dev nD) (t : Fin cfg0.N) (d) : (dat0 V c).before 0 t d = blk0 V c 0 t :=
  before0_0_of V (dat0 V c) (A_eq0 V c 0) (after0_0 V c) t d
theorem before0_1 (c : Dev nD) (t : Fin cfg0.N) (d) : (dat0 V c).before 1 t d = blk0 V c 1 t :=
  before0_1_of V (dat0 V c) (A_eq0 V c 1) (after0_1 V c) t d

/-! ## The body obligation -/

def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def post0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves_in0 (c : Dev nD) (t : Fin cfg0.N) :
    (dat0 V c).leavesExact 0 t = owns (c : Thread nD τ) (st0_0 t) fullShare (blk0 V c 0 t) := by
  unfold Dat.leavesExact; rw [live0_0 t, after0_0]
theorem leaves_in1 (c : Dev nD) (t : Fin cfg0.N) :
    (dat0 V c).leavesExact 1 t = owns (c : Thread nD τ) (st0_1 t) fullShare (blk0 V c 1 t) := by
  unfold Dat.leavesExact; rw [live0_1 t, after0_1]

set_option maxHeartbeats 4000000 in
theorem body0 (c : Dev nD) (t : Fin cfg0.N) :
    pre0 V c t ⊢ wp frame (wpE (defs₀ (F := F)) Variants.none c none) Set.univ (bodyAt0 t) (fun _ => post0 V c t) := by
  unfold pre0 post0 bodyAt0
  simp only [before0_0, before0_1]
  rw [show (dat0 V c).owesAt () t.succ = (dat0 V c).owesAt () t.castSucc from rfl]
  rw [show (dat0 V c).Φ t.succ = track V c (t.val + 1) t.isLt from rfl, track_succ]
  rw [leaves_in0, leaves_in1]
  have hN : t.val < 1600 := lt_of_lt_of_eq t.isLt (show cfg0.N = 1600 from N_0)
  by_cases hF : t.val % 64 = 0
  · -- a clearing point
    have hL : ¬t.val % 64 = 63 := by omega
    have cF : isFirst (grid0.coords t) := (isFirst_iff t).mpr hF
    have cL : ¬isLast (grid0.coords t) := fun h => hL ((isLast_iff t).mp h)
    rw [Dat.leavesExact_idle (dat0 V c) 2 t (idle0_2 t cL) (noFlush0_2 t cL),
      Dat.leavesExact_idle (dat0 V c) 3 t (idle0_3 t cL) (noFlush0_3 t cL)]
    rw [accAt_first V c t hF]; unfold accStep acc0; dsimp only
    have hΦ : (dat0 V c).Φ t.castSucc ⊢ (iprop(iprop((∃ d, owns (c : Thread nD τ) scA fullShare d) ∗ (∃ d, owns (c : Thread nD τ) scB fullShare d) ∗ others c) ∗ (∃ r, prngReg c r)) : sProp 𝕄) := by
      rw [track_castSucc V c t]
      by_cases hz : t.val = 0
      · rw [track_zero V c _ _ hz, plain_eq]
      · rw [track_pos V c _ _ hz]
        iintro ⟨⟨HA, HB, HO⟩, Hg⟩
        isplitr [Hg]
        · isplitl [HA]; · iexists _; iexact HA
          isplitl [HB]; · iexists _; iexact HB
          iexact HO
        iexact Hg
    iintro ⟨HΦ, Ho, ⟨%d0, H0⟩, ⟨%d1, H1⟩, ⟨%d2, H2⟩, ⟨%d3, H3⟩⟩
    ihave HΦ' := hΦ $$ HΦ
    icases HΦ' with ⟨⟨HA, HB, HO⟩, Hg⟩
    iapply (run_first c Set.univ (grid0.coords t) _ _ _ _ _ _ _ _ scA (Memref.isWhole_whole _) scB (Memref.isWhole_whole _) cF cL
      (blk0 V c 0 t) (blk0 V c 1 t) ((dat0 V c).before 2 t d2) ((dat0 V c).before 3 t d3) _)
    isplitl [H0]; · iexact H0
    isplitl [H1]; · iexact H1
    isplitl [H2]; · iexact H2
    isplitl [H3]; · iexact H3
    isplitl [HA]; · iexact HA
    isplitl [HB]; · iexact HB
    iintro ⟨H0, H1, H2, H3, HA, HB⟩
    isplitl [HA HB HO Hg]
    · isplitr [Hg]
      · isplitl [HA]; · iexact HA
        isplitl [HB]; · iexact HB
        iexact HO
      iexact Hg
    isplitl [Ho]; · iexact Ho
    isplitl [H0]; · iexact H0
    isplitl [H1]; · iexact H1
    isplitl [H2]; · iexists _; iexact H2
    iexists _; iexact H3
  · have hz : t.val ≠ 0 := fun h => hF (by rw [h])
    have cF : ¬isFirst (grid0.coords t) := fun h => hF ((isFirst_iff t).mp h)
    rw [accAt_next V c t hF]; unfold accStep; dsimp only
    rw [track_castSucc V c t, track_pos V c _ _ hz]
    by_cases hL : t.val % 64 = 63
    · -- a copy-out point
      have cL : isLast (grid0.coords t) := (isLast_iff t).mpr hL
      rw [show (dat0 V c).leavesExact 2 t = owns (c : Thread nD τ) (st0_2 t) fullShare ((dat0 V c).after 2 t) from by
          unfold Dat.leavesExact; rw [live0_2 t cL],
        show (dat0 V c).leavesExact 3 t = owns (c : Thread nD τ) (st0_3 t) fullShare ((dat0 V c).after 3 t) from by
          unfold Dat.leavesExact; rw [live0_3 t cL],
        after0_2, after0_3, accAt_next V c t hF]
      unfold accStep; dsimp only
      iintro ⟨⟨⟨HA, HB, HO⟩, Hg⟩, Ho, ⟨%d0, H0⟩, ⟨%d1, H1⟩, ⟨%d2, H2⟩, ⟨%d3, H3⟩⟩
      iapply (run_last c Set.univ (grid0.coords t) _ _ _ _ _ _ _ _ scA (Memref.isWhole_whole _) scB (Memref.isWhole_whole _) cF cL
        (blk0 V c 0 t) (blk0 V c 1 t) _ _ _)
      isplitl [H0]; · iexact H0
      isplitl [H1]; · iexact H1
      isplitl [H2]; · iexists _; iexact H2
      isplitl [H3]; · iexists _; iexact H3
      isplitl [HA]; · iexact HA
      isplitl [HB]; · iexact HB
      iintro ⟨H0, H1, H2, H3, HA, HB⟩
      isplitl [HA HB HO Hg]
      · isplitr [Hg]
        · isplitl [HA]; · iexact HA
          isplitl [HB]; · iexact HB
          iexact HO
        iexact Hg
      isplitl [Ho]; · iexact Ho
      isplitl [H0]; · iexact H0
      isplitl [H1]; · iexact H1
      isplitl [H2]; · iexact H2
      iexact H3
    · -- a middle point
      have cL : ¬isLast (grid0.coords t) := fun h => hL ((isLast_iff t).mp h)
      rw [Dat.leavesExact_idle (dat0 V c) 2 t (idle0_2 t cL) (noFlush0_2 t cL),
        Dat.leavesExact_idle (dat0 V c) 3 t (idle0_3 t cL) (noFlush0_3 t cL)]
      iintro ⟨⟨⟨HA, HB, HO⟩, Hg⟩, Ho, ⟨%d0, H0⟩, ⟨%d1, H1⟩, ⟨%d2, H2⟩, ⟨%d3, H3⟩⟩
      iapply (run_mid c Set.univ (grid0.coords t) _ _ _ _ _ _ _ _ scA (Memref.isWhole_whole _) scB (Memref.isWhole_whole _) cF cL
        (blk0 V c 0 t) (blk0 V c 1 t) ((dat0 V c).before 2 t d2) ((dat0 V c).before 3 t d3) _ _ _)
      isplitl [H0]; · iexact H0
      isplitl [H1]; · iexact H1
      isplitl [H2]; · iexact H2
      isplitl [H3]; · iexact H3
      isplitl [HA]; · iexact HA
      isplitl [HB]; · iexact HB
      iintro ⟨H0, H1, H2, H3, HA, HB⟩
      isplitl [HA HB HO Hg]
      · isplitr [Hg]
        · isplitl [HA]; · iexact HA
          isplitl [HB]; · iexact HB
          iexact HO
        iexact Hg
      isplitl [Ho]; · iexact Ho
      isplitl [H0]; · iexact H0
      isplitl [H1]; · iexact H1
      isplitl [H2]; · iexists _; iexact H2
      iexists _; iexact H3

/-- The body obligation of the segment-sum call, at every point. -/
theorem obligation0 (c : Dev nD) : BodyObligation (dat0 (F := F) V c) (defs₀ (F := F)) Variants.none () Set.univ := fun t => by
  rw [bigSep_W0, bigSep_W0]
  exact body0 V c t

/-! ## Entering and leaving the invariant -/

/-- What the launch hands the call is the invariant before the first point. -/
theorem track_in (c : Dev nD) : Pipeline.ΦA spec0 c ⊢ (dat0 V c).Φ 0 := by
  rw [show (dat0 V c).Φ 0 = track V c 0 (Nat.zero_le _) from rfl, track_zero V c 0 _ rfl]
  try exact Idealize.SL.BI.Entails.refl _

/-- After the last point the invariant gives the plain one back: what the accumulators hold is forgotten. -/
theorem track_out (c : Dev nD) : (dat0 V c).Φ (Fin.last cfg0.N) ⊢ Pipeline.ΦA spec0 c := by
  rw [show (dat0 V c).Φ (Fin.last cfg0.N) = track V c (Fin.last cfg0.N).val (Nat.le_of_lt_succ (Fin.last cfg0.N).isLt) from rfl,
    track_pos V c _ _ (by rw [Fin.val_last]; have : cfg0.N = 1600 := N_0; omega), plain_eq]
  iintro ⟨⟨HA, HB, HO⟩, Hg⟩
  isplitr [Hg]
  · isplitl [HA]; · iexists _; iexact HA
    isplitl [HB]; · iexists _; iexact HB
    iexact HO
  iexact Hg

/-- The same two facts in the shape a region of several takes them: the generator register and the scoped buffers no
    window stages go in (whatever else is offered beside them), and come back out with nothing else. -/
theorem enter0 (c : Dev nD) (P : sProp 𝕄) :
    iprop((∃ r, prngReg c r) ∗ P ∗ Pipeline.scopedRest spec0 c) ⊢ (dat0 V c).Φ 0 := by
  rw [show (dat0 V c).Φ 0 = Pipeline.ΦA spec0 c from rfl]; unfold Pipeline.ΦA
  iintro ⟨Hp, -, Hr⟩
  isplitl [Hr]; · iexact Hr
  iexact Hp

theorem leave0 (c : Dev nD) :
    (dat0 V c).Φ (Fin.last cfg0.N) ⊢ (iprop((∃ r, prngReg c r) ∗ BI.emp ∗ Pipeline.scopedRest spec0 c) : sProp 𝕄) := by
  have h := track_out V c
  unfold Pipeline.ΦA at h
  iintro Hall
  ihave Hsp := h $$ Hall
  icases Hsp with ⟨Hr, Hp⟩
  isplitl [Hp]; · iexact Hp
  isplitr; · iempintro
  iexact Hr

end Cert.KernelIdeal.Hand

end
-- ==== Proof.KI.Region1.lean ====
/-
  The combine call (the second pallas_call), at the buffer contents `V` it is entered from.

  Its grid has 20 points; point `t` stages rows 5000·t … 5000·t + 4999 of centers, of the segment sums and of the
  counts, and writes back the same rows of the result. The body loads the three staged blocks whole and stores one
  whole block: `centers · (1 + κ · count) − κ · sums`, the count's column broadcast along the row. So the proof data
  says: after the body each input's staging buffer still holds its block and the output's holds that expression of the
  three input blocks; nothing else of the core is touched, so the invariant between points is the plain one (the
  scoped buffers no window stages at anything, the generator register at some state).
-/
import proofs.«422952_j16217796510058_1_alg».proof.Proof.Gen.KernelIdeal.Launch
import proofs.«422952_j16217796510058_1_alg».proof.Proof.Gen.KernelIdeal.Skeleton
import proofs.«422952_j16217796510058_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the buffer contents the call finds on each core: the parameter everything below is stated at
variable (V : (c : Dev nD) → (b : Ref sig .tc) → Buf (Elt F) ((c : Thread nD τ).loc b))

/-! ## The blocks -/

/-- The zero offsets of a whole-buffer access, however they are spelt. -/
theorem off2_zero : (![0, 0] : Fin 2 → ℕ) = fun _ => 0 := by
  funext a; fin_cases a <;> rfl

/-- Window `w`'s block at point `t`: those rows of its array. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether or not it was fetched there,
    for any proof data over these arrays whose body leaves the block in place. One statement per input window. -/
theorem before1_0_of {c : Dev nD} (dat : Dat τ (Elt F) Unit ℕ (Pipeline.UD sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-! ## The body -/

/-- What the body's one store leaves in the output's staging buffer, from the three input blocks. -/
def comb (x0 x1 : Vec F S5000x256 .f32) (x2 : Vec F S5000x1 .f32) : Vec F S5000x256 .f32 :=
  k1_pay1 x0 x1 x2

set_option maxHeartbeats 1000000 in
/-- The body on whole staging memrefs, the three inputs' holding `x0`, `x1`, `x2` and the output's anything, runs to
    the continuation with the inputs' as they were and the output's at `comb x0 x1 x2`. -/
theorem run_comb (c : Dev nD) (E : Set ℕ) (i : grid1.Coords)
    (arg1 : Memref sig .tc .vmem S5000x256 .f32) (harg1 : arg1.IsWhole) (arg2 : Memref sig .tc .vmem S5000x256 .f32) (harg2 : arg2.IsWhole)
    (arg3 : Memref sig .tc .vmem S5000x1 .f32) (harg3 : arg3.IsWhole) (arg4 : Memref sig .tc .vmem S5000x256 .f32) (harg4 : arg4.IsWhole)
    (x0 x1 : Vec F S5000x256 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (comb x0 x1 x2)) -∗ K ⟨⟩))
      ⊢ wp frame (wpE (defs₀ (F := F)) Variants.none c none) E (cc1__combine_kernel i arg1 harg1 arg2 harg2 arg3 harg3 arg4 harg4) K := by
  simp only [cc1__combine_kernel_eq_skeleton]; unfold cc1__combine_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_singleton_self _, View.mem_set_unit_zero off2_zero Facts₀.inb_S5000x256_S5000x256_0_0 y⟩),
    View.canon_unit_zero off2_zero]
  simp only [View.readAt_eq_ld, View.ld_unit_zero (S := S5000x256) off2_zero, View.ld_unit_zero (S := S5000x1) off2_zero]
  rfl

/-! ## The proof data -/

/-- The call's proof data on core `c`: its arrays as it finds them; after the body at point `t` each input's staging
    buffer at its block and the output's at `comb` of the three blocks; the plain invariant; full shares; nothing owed. -/
def dat1 (c : Dev nD) : Dat τ (Elt F) Unit ℕ (Pipeline.UD sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => comb (blk1 V c 0 t) (blk1 V c 1 t) (blk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) :
    (dat1 V c).after 3 t = comb (blk1 V c 0 t) (blk1 V c 1 t) (blk1 V c 2 t) := by dsimp only [dat1]

theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d
theorem before1_2 (c : Dev nD) (t : Fin cfg1.N) (d) : (dat1 V c).before 2 t d = blk1 V c 2 t :=
  before1_2_of V (dat1 V c) (A_eq1 V c 2) (after1_2 V c) t d

/-! ## The body obligation -/

/-- What the body is called with at point `t`, the windows one by one, -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- At any point the inputs' staging buffers hold their blocks, so the body's triple applies; the invariant and the
    core's dues pass through unread. -/
theorem body1 (c : Dev nD) (t : Fin cfg1.N) :
    pre1 V c t ⊢ wp frame (wpE (defs₀ (F := F)) Variants.none c none) Set.univ (bodyAt1 t) (fun _ => post1 V c t) := by
  unfold pre1 post1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (run_comb c Set.univ (grid1.coords t) _ _ _ _ _ _ _ _ (blk1 V c 0 t) (blk1 V c 1 t) (blk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the combine call, at every point. -/
theorem obligation1 (c : Dev nD) : BodyObligation (dat1 (F := F) V c) (defs₀ (F := F)) Variants.none () Set.univ := fun t => by
  rw [bigSep_W1, bigSep_W1]
  exact body1 V c t

end Cert.KernelIdeal.Hand

end
-- ==== Proof.KI.Run.lean ====
/-
  The whole program as one run.

  @main is a reshape of the labels to a row, the segment-sum call, the combine call. Between them every unscoped
  buffer of the core holds known contents: as launched; then with the reshaped labels written; then with the
  segment-sum call's two output arrays at what its write-backs leave; then with the combine call's output array at
  what its write-backs leave. Each call is entered from the contents before it and left at the contents after it, the
  generator register and the core's (empty) dues riding along. Launching that chain gives: every weakly fair
  execution terminates, faults nowhere, and ends with every unscoped buffer at the last contents — the result array at
  the combine call's output, the three arguments as launched, since no item writes them.
-/
import proofs.«422952_j16217796510058_1_alg».proof.Proof.Gen.KernelIdeal.Launch
import proofs.«422952_j16217796510058_1_alg».proof.Proof.Gen.KernelIdeal.Skeleton
import proofs.«422952_j16217796510058_1_alg».proof.Proof.Gen.KernelIdeal.Points
import proofs.«422952_j16217796510058_1_alg».proof.Proof.Gen.KernelIdeal.Regions
import proofs.«422952_j16217796510058_1_alg».proof.Proof.KI.Region0
import proofs.«422952_j16217796510058_1_alg».proof.Proof.KI.Region1
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The contents at each boundary -/

/-- At launch. -/
abbrev B0 (c : Dev nD) : Valuation τ sig (Elt F) := fun b => m (c, b)
/-- After the reshape of the labels. -/
abbrev B1 (c : Dev nD) : Valuation τ sig (Elt F) := StableHlo.after hostOps0 (B0 m c)
/-- The same read at the TensorCore's references: what the segment-sum call is entered from. -/
abbrev U1 (c : Dev nD) (b : Ref sig .tc) : Buf (Elt F) ((c : Thread nD τ).loc b) := B1 m c b
/-- After the segment-sum call: its arrays at what its write-backs leave, every other buffer as before. -/
def B2 (c : Dev nD) : Valuation τ sig (Elt F) :=
  Pipeline.withArrays spec0 c (B1 m c) fun w => (dat0 (U1 m) c).arrAt w cfg0.N
theorem B2_arr (c : Dev nD) (w : Fin cfg0.W) :
    B2 m c (Proc.devRef .tc (Pipeline.arrRef spec0 w)) = (dat0 (U1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
/-- What the combine call is entered from. -/
abbrev U2 (c : Dev nD) (b : Ref sig .tc) : Buf (Elt F) ((c : Thread nD τ).loc b) := B2 m c b
/-- After the combine call. -/
def B3 (c : Dev nD) : Valuation τ sig (Elt F) :=
  Pipeline.withArrays spec1 c (B2 m c) fun w => (dat1 (U2 m) c).arrAt w cfg1.N
theorem B3_arr (c : Dev nD) (w : Fin cfg1.W) :
    B3 m c (Proc.devRef .tc (Pipeline.arrRef spec1 w)) = (dat1 (U2 m) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m c (Proc.devRef .tc b) = B2 m c (Proc.devRef .tc b) := by
  unfold B3; exact Pipeline.withArrays_of_ne spec1 c _ _ b hb
abbrev U3 (c : Dev nD) (b : Ref sig .tc) : Buf (Elt F) ((c : Thread nD τ).loc b) := B3 m c b

theorem arr0_out (c : Dev nD) (w : Fin cfg0.W) : (dat0 (U1 m) c).arrAt w cfg0.N = U2 m c (Pipeline.arrRef spec0 w) :=
  (B2_arr m c w).symm
theorem rest0_out (c : Dev nD) : ∀ b, b ∉ Finset.univ.image (Pipeline.arrRef spec0) → U2 m c b = U1 m c b :=
  fun b hb => B2_of_ne m c b fun w e => hb (Finset.mem_image.mpr ⟨w, Finset.mem_univ _, e⟩)
theorem arr1_out (c : Dev nD) (w : Fin cfg1.W) : (dat1 (U2 m) c).arrAt w cfg1.N = U3 m c (Pipeline.arrRef spec1 w) :=
  (B3_arr m c w).symm
theorem rest1_out (c : Dev nD) : ∀ b, b ∉ Finset.univ.image (Pipeline.arrRef spec1) → U3 m c b = U2 m c b :=
  fun b hb => B3_of_ne m c b fun w e => hb (Finset.mem_image.mpr ⟨w, Finset.mem_univ _, e⟩)

/-- The reshape writes the row of labels and nothing else. -/
theorem B1_of (c : Dev nD) (r : Ref sig .tc) (h : r ∉ hostOps0_W) : B1 m c r = B0 m c r :=
  StableHlo.after_of_writes_sub hostOps0 _ hostOps0_writes h

/-! ### The arguments end as launched, and the result is the combine call's output -/

theorem B3_main_arg0 (c : Dev nD) : B3 m c (Proc.devRef .tc main_arg0) = m ((c : Thread nD τ).loc main_arg0) :=
  calc B3 m c (Proc.devRef .tc main_arg0)
    _ = B2 m c (Proc.devRef .tc main_arg0) := B3_of_ne m c main_arg0 (by decide)
    _ = B1 m c (Proc.devRef .tc main_arg0) := (B2_arr m c 1).trans (((dat0 (U1 m) c).arrAt_in 1 rfl _).trans (A_eq0 (U1 m) c 1))
    _ = m ((c : Thread nD τ).loc main_arg0) := B1_of m c main_arg0 (by decide)
theorem B3_main_arg1 (c : Dev nD) : B3 m c (Proc.devRef .tc main_arg1) = m ((c : Thread nD τ).loc main_arg1) :=
  calc B3 m c (Proc.devRef .tc main_arg1)
    _ = B2 m c (Proc.devRef .tc main_arg1) := B3_of_ne m c main_arg1 (by decide)
    _ = B1 m c (Proc.devRef .tc main_arg1) := B2_of_ne m c main_arg1 (by decide)
    _ = m ((c : Thread nD τ).loc main_arg1) := B1_of m c main_arg1 (by decide)
theorem B3_main_arg2 (c : Dev nD) : B3 m c (Proc.devRef .tc main_arg2) = m ((c : Thread nD τ).loc main_arg2) :=
  calc B3 m c (Proc.devRef .tc main_arg2)
    _ = B2 m c (Proc.devRef .tc main_arg2) := (B3_arr m c 0).trans (((dat1 (U2 m) c).arrAt_in 0 rfl _).trans (A_eq1 (U2 m) c 0))
    _ = B1 m c (Proc.devRef .tc main_arg2) := B2_of_ne m c main_arg2 (by decide)
    _ = m ((c : Thread nD τ).loc main_arg2) := B1_of m c main_arg2 (by decide)
theorem B3_main_v2 (c : Dev nD) : B3 m c (Proc.devRef .tc main_v2) = (dat1 (U2 m) c).arrAt 3 cfg1.N :=
  B3_arr m c 3

/-! ## The proof data family and what rides along -/

/-- Both calls' proof data, each at the contents its call is entered from. -/
def pdats : (p : Fin 2) → (c : Dev nD) → Dat τ (Elt F) Unit ℕ (Pipeline.UD sig nD τ) ℕ (Pipeline.pin (pcfgs (F := F)) adm p) c
  | ⟨0, _⟩ => fun c => dat0 (U1 m) c
  | ⟨1, _⟩ => fun c => dat1 (U2 m) c
abbrev 𝒱₀ : Variants := Variants.none
abbrev L : GSem nD τ sig → Finset Unit := fun _ => ∅
abbrev lv : GSem nD τ sig → Unit → ℕ := fun _ _ => 0
/-- Beside the buffers, through every item: the generator register at some state and the core's dues, at nothing. -/
abbrev R (c : Dev nD) : sProp 𝕄 := iprop((∃ r, prngReg c r) ∗ ∃ W, owes (c : Thread nD τ) (0 : CellTallies nD τ sig Unit) W)
/-- The reshape as a segment, from the launch contents. -/
abbrev hseg : Pipeline.HostSeg (Name := ℕ) (U := Pipeline.UD sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (B0 m) R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tend (c : Dev nD) : sProp 𝕄 := iprop(StableHlo.held (c : Thread nD τ) (Pipeline.ucRefs τ sig) (B3 m c) ∗ ∃ r, prngReg c r)

/-! ## The two calls as segments -/

set_option backward.isDefEq.respectTransparency.types false in
/-- The segment-sum call: entered from `B1`, left at `B2`. Its arrays are split out of the unscoped buffers and put
    back at what it leaves; the generator register goes into its invariant before the first point and comes back after
    the last, where what the accumulators hold is forgotten; it owes nothing and has no semaphore of its own. -/
def seg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (obligation0 (U1 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := enter0 (U1 m) c _
  hout c := by
    rw [Pipeline.ownSems0_none]
    exact leave0 (U1 m) c
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (U1 m c) (U2 m c) ((pdats m 0 c).arrAt · cfg0.N) (arr0_out m c) (rest0_out m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The combine call: entered from `B2`, left at `B3`; the generator register into its plain invariant and out. -/
def seg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (obligation1 (U2 m) c).loose
  hwaits := Pipeline.hwaits_of_owed_zero _ _ _ _ L lv 1 fun _ _ => rfl
  pre c := iprop(StableHlo.held (c : Thread nD τ) (Pipeline.ucRefs τ sig) (B2 m c) ∗ R c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec1 c (U2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (U2 m c) (U3 m c) ((pdats m 1 c).arrAt · cfg1.N) (arr1_out m c) (rest1_out m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as the three items, and the launch -/

abbrev items : List (Pipeline.Seg (pcfgs (F := F)) adm (pdats m) () defs₀ 𝒱₀ L lv) :=
  [ .host (hseg m),
    .region (seg0 m),
    .region (seg1 m) ]
theorem main_items (c : Dev nD) : main (F := F) c = Pipeline.Seg.run (items m) := (main_chain c).trans (by chain_rfl)

set_option backward.isDefEq.respectTransparency.types false in
/-- Every weakly fair execution of @main from memory `m` with zero counters terminates, nothing faulting, and ends with
    the result array at the combine call's output and the three arguments as launched. -/
theorem run_all : θ_run defs (onTc (τ := τ) (main (F := F))) ⟨m, fun _ => 0, ρ⟩ (fun r => ∀ c : Dev nD,
      r.2.mem ((c.tc : Thread nD τ).loc main_v2) = (dat1 (U2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m) () cellOf_inj embL defs₀ 𝒱₀ L lv m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tend m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m c b)
    (hfin := fun c s' => by
      iintro ⟨⟨Hh, -⟩, HSI⟩
      unfold StableHlo.held
      imodintro
      iapply (pointsTo_read_all (Pipeline.ucRefs τ sig) (fun b => (((c : Thread nD τ)).1, b)) (B3 m c) s')
      isplitl [Hh] <;> iassumption)
    (hQ := fun s h c =>
      ⟨(h c _ (mem_uc main_v2 (by decide))).trans (B3_main_v2 m c),
       (h c _ (mem_uc main_arg0 (by decide))).trans (B3_main_arg0 m c),
       (h c _ (mem_uc main_arg1 (by decide))).trans (B3_main_arg1 m c),
       (h c _ (mem_uc main_arg2 (by decide))).trans (B3_main_arg2 m c)⟩)

/-- The frame claim, at any instance: the run with the result forgotten. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_all m ρ)

end Cert.KernelIdeal.Hand

end
-- ==== Proof.Spec.lean ====
/-
  The function both programs compute, over the literal shapes.

  Write `S n` for the set of samples `b` whose label is the row `n`. With `κ` the step `α − 1` (the f32 word
  nearest −1/10, the same word in both programs, never evaluated), row `n`, column `d` of the result is

      centers[n,d] · (1 + κ · |S n|) − κ · Σ_{b ∈ S n} features[b,d].

  The kernel reaches it as a count and a segment sum accumulated tile by tile and then combined pointwise; the
  reference as centers[n,d] + Σ_{b ∈ S n} κ · (centers[n,d] − features[b,d]). The two agree by distributivity,
  which on the extended reals needs every entry to be a real number: that is where finiteness is used.
-/
import Idealize.ShloMosaic.PureOps.Ideal
import Idealize.ShloMosaic.Lib.ValueIdx

noncomputable section

open scoped BigOperators

namespace Cert.Spec

open Idealize.ShloMosaic Idealize.ShloMosaic.ValueIdx

/-- features: 65536 samples of 256 columns. -/
abbrev SF : Shape := ⟨2, ![65536, 256]⟩
/-- labels: one 32-bit word per sample. -/
abbrev SL : Shape := ⟨1, ![65536]⟩
/-- centers and the result: 100000 rows of 256 columns. -/
abbrev SC : Shape := ⟨2, ![100000, 256]⟩

/-- The step `α − 1` as both programs carry it: one f32 word, read at the ideal instance. -/
abbrev κ : EReal := Ideal.ofBits .f32 0xBDCCCCCD#32

/-- Sample `b` carries the label of row `n`: its label word is the word of `n`. -/
def hit (lab : SL.Idx → BitVec 32) (n : Fin 100000) (b : Fin 65536) : Prop :=
  lab (ix1 b) = BitVec.ofNat 32 n.val

instance (lab : SL.Idx → BitVec 32) (n : Fin 100000) (b : Fin 65536) : Decidable (hit lab n b) :=
  inferInstanceAs (Decidable (_ = _))

/-- How many samples carry row `n`'s label. -/
def cnt (lab : SL.Idx → BitVec 32) (n : Fin 100000) : EReal :=
  ∑ b : Fin 65536, if hit lab n b then (1 : EReal) else 0

/-- The sum of column `d` over the samples that carry row `n`'s label. -/
def seg (feat : SF.Idx → EReal) (lab : SL.Idx → BitVec 32) (n : Fin 100000) (d : Fin 256) : EReal :=
  ∑ b : Fin 65536, if hit lab n b then feat (ix2 b d) else 0

/-- The updated centers. -/
def G (feat : SF.Idx → EReal) (lab : SL.Idx → BitVec 32) (cen : SC.Idx → EReal) : SC.Idx → EReal :=
  fun i => cen i * (1 + κ * cnt lab (i 0)) - κ * seg feat lab (i 0) (i 1)

/-- Every entry is a real number. -/
def Finite {s : Shape} (x : s.Idx → EReal) : Prop := ∀ i, ∃ r : ℝ, x i = (r : EReal)

/-- Every label, read as a signed integer, names a row. -/
def InRange (lab : SL.Idx → BitVec 32) : Prop :=
  ∀ b : Fin 65536, 0 ≤ (lab (ix1 b)).toInt ∧ (lab (ix1 b)).toInt < 100000

end Cert.Spec

end
-- ==== Proof.KI.Payloads.lean ====
/-
  The arithmetic of the two kernel bodies, read one entry at a time over the extended reals.

  The segment-sum body first clears its two accumulators (every entry 0). Then, for the tile of 4000 rows
  numbered by the grid's first coordinate g, it builds the 4000 × 1024 one-hot matrix whose entry (r, k) is 1
  when the k-th label of the current chunk is the row number g · 4000 + r and 0 otherwise, and adds to the
  accumulators the product of that matrix with the chunk of features (a sum over the 1024 samples of the
  chunk of the features whose label hits the row) and with a column of ones (the number of hits).
  The combine body is pointwise: centers · (1 + κ · count) − κ · sum.

  Changes of float format are the identity on the extended reals, so the one-hot matrix and the features
  enter the products as they are; 0 · x = 0 and 1 · x = x hold for every extended real x, so no entry has
  to be finite here.
-/
import Idealize.ShloMosaic.Lib.ValueIdx
import Idealize.ShloMosaic.Lib.Pipeline.Value
import Idealize.ShloMosaic.Lib.ValueLayout
import Idealize.ShloMosaic.PureOps.Ideal.Laws
import proofs.«422952_j16217796510058_1_alg».proof.Proof.Spec
import proofs.«422952_j16217796510058_1_alg».proof.Proof.Gen.KernelIdeal.Skeleton

noncomputable section

open scoped BigOperators

namespace Cert.KernelIdeal.Pay

open Cert.KernelIdeal Cert.KernelIdeal.Gen Idealize.ShloMosaic Idealize.ShloMosaic.ValueIdx

/-! ## Two layout readings and two constants -/

/-- A column [a, 1] broadcast along the rows to [a, b] reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The f32 word of 1.0 denotes the real 1. -/
theorem ofBits_one_f32 : Ideal.ofBits .f32 0x3F800000#32 = 1 :=
  IdealRules.sign_bit.ideal_onePat .f32

/-- The bf16 word of 1.0 denotes the real 1. -/
theorem ofBits_one_bf16 : Ideal.ofBits .bf16 0x3F80#16 = 1 :=
  IdealRules.sign_bit.ideal_onePat .bf16

/-! ## The cleared accumulators -/

theorem pay1_apply (y : S4000x256.Idx) : k0_pay1 (F := Ideal) y = 0 := by
  unfold k0_pay1
  exact Ideal.ofBits_zero_f32

theorem pay2_apply (y : S4000x1.Idx) : k0_pay2 (F := Ideal) y = 0 := by
  unfold k0_pay2
  exact Ideal.ofBits_zero_f32

/-! ## The one-hot matrix -/

/-- The number of row r of tile g, as a 32-bit word: the tile's first row g · 4000 plus r. -/
theorem rowWord_apply (g : ℕ) (r : Fin 4000) (k : Fin 1024) :
    broadcastTo S4000x1024
        (addi (broadcast S4000x1 (Scalar.muli (BitVec.ofNat 32 g) 4000#32))
          (iota Kind.tc S4000x1 32 [0] iota_S4000x1_d0_w32))
        broadcasts_S4000x1_S4000x1024 (ix2 r k)
      = BitVec.ofNat 32 (g * 4000 + r.val) := by
  rw [broadcastTo_a1_ab_apply]
  show IntOp.addi (Scalar.muli (BitVec.ofNat 32 g) 4000#32) (iota Kind.tc S4000x1 32 [0] iota_S4000x1_d0_w32 (ix2 r (0 : Fin 1))) = _
  rw [iota_single_apply]
  show BitVec.ofNat 32 g * BitVec.ofNat 32 4000 + BitVec.ofNat 32 r.val = _
  rw [← BitVec.ofNat_mul, ← BitVec.ofNat_add]

/-- The chunk's labels, one row of 1024, repeated down the 4000 rows. -/
theorem labWord_apply (v3 : Vec Ideal S1x1024 .i32) (r : Fin 4000) (k : Fin 1024) :
    broadcastTo S4000x1024 (shapeCast S1x1024 v3 shapeCasts_S1x1024_S1x1024) broadcasts_S1x1024_S4000x1024 (ix2 r k)
      = v3 (ix2 0 k) := by
  rw [shapeCast_self, broadcastTo_1b_ab_apply]

/-- A comparison's bit, widened and converted, is the real 1 or 0. -/
theorem oneHot_word (a b : BitVec 32) :
    (FloatOps.sitofp .f32 (BitVec.setWidth 32 (IntOp.cmpi .eq a b)) : Ideal .f32) = if b = a then 1 else 0 := by
  show (((BitVec.setWidth 32 (IntOp.cmpi .eq a b)).toInt : ℝ) : EReal) = _
  by_cases h : b = a
  · subst h
    simp [IntOp.cmpi]
  · have h' : (a == b) = false := beq_eq_false_iff_ne.mpr fun e => h e.symm
    simp [IntOp.cmpi, h', h]

/-- Entry (r, k) of the one-hot matrix: 1 when the chunk's k-th label is the row number g · 4000 + r. -/
theorem pay3_apply (i : grid0.Coords) (v3 : Vec Ideal S1x1024 .i32) (r : Fin 4000) (k : Fin 1024) :
    k0_pay3 (F := Ideal) i v3 (ix2 r k)
      = if v3 (ix2 0 k) = BitVec.ofNat 32 ((i 0).val * 4000 + r.val) then 1 else 0 := by
  unfold k0_pay3
  dsimp only
  rw [truncf_apply, sitofp_apply, extui_apply]
  show FloatOps.sitofp .f32 (BitVec.setWidth 32 (IntOp.cmpi .eq
      (broadcastTo S4000x1024
            (addi (broadcast S4000x1 (Scalar.muli (BitVec.ofNat 32 (i 0).val) 4000#32))
              (iota Kind.tc S4000x1 32 [0] iota_S4000x1_d0_w32))
            broadcasts_S4000x1_S4000x1024 (ix2 r k))
      (broadcastTo S4000x1024 (shapeCast S1x1024 v3 shapeCasts_S1x1024_S1x1024) broadcasts_S1x1024_S4000x1024 (ix2 r k)))) = _
  rw [rowWord_apply, labWord_apply, oneHot_word]

/-! ## The products with the one-hot matrix -/

/-- On the one-hot matrix the first axis is kept: the product's row. -/
theorem lhsF_0 (j : S4000x256.Idx) (q : dot_S4000x1024_S1024x256_S4000x256_1_0_0_1_n_n.contr.Idx) :
    (dot_S4000x1024_S1024x256_S4000x256_1_0_0_1_n_n.lhsIdx j q 0).val = (j 0).val := by
  unfold DotDims.lhsIdx
  rw [dif_neg (show ¬(0 : Fin S4000x1024.rank) ∈ dot_S4000x1024_S1024x256_S4000x256_1_0_0_1_n_n.lhsBatch by decide),
    dif_pos (show (0 : Fin S4000x1024.rank) ∈ dot_S4000x1024_S1024x256_S4000x256_1_0_0_1_n_n.lhsNonContracting by decide)]
  rfl

/-- Its second axis is the one summed over. -/
theorem lhsF_1 (j : S4000x256.Idx) (q : dot_S4000x1024_S1024x256_S4000x256_1_0_0_1_n_n.contr.Idx) :
    (dot_S4000x1024_S1024x256_S4000x256_1_0_0_1_n_n.lhsIdx j q 1).val = (q ⟨0, by decide⟩).val :=
  DotDims.lhsIdx_val_of_single _ rfl j q

/-- On the features' chunk the first axis is the one summed over … -/
theorem rhsF_0 (j : S4000x256.Idx) (q : dot_S4000x1024_S1024x256_S4000x256_1_0_0_1_n_n.contr.Idx) :
    (dot_S4000x1024_S1024x256_S4000x256_1_0_0_1_n_n.rhsIdx j q 0).val = (q ⟨0, by decide⟩).val :=
  DotDims.rhsIdx_val_of_single _ rfl j q

/-- … and the second is kept: the product's column. -/
theorem rhsF_1 (j : S4000x256.Idx) (q : dot_S4000x1024_S1024x256_S4000x256_1_0_0_1_n_n.contr.Idx) :
    (dot_S4000x1024_S1024x256_S4000x256_1_0_0_1_n_n.rhsIdx j q 1).val = (j 1).val := by
  unfold DotDims.rhsIdx
  rw [dif_neg (show ¬(1 : Fin S1024x256.rank) ∈ dot_S4000x1024_S1024x256_S4000x256_1_0_0_1_n_n.rhsBatch by decide),
    dif_pos (show (1 : Fin S1024x256.rank) ∈ dot_S4000x1024_S1024x256_S4000x256_1_0_0_1_n_n.rhsNonContracting by decide)]
  rfl

/-- The product of the one-hot matrix with a chunk, into a cleared accumulator, at (r, d): the sum over the
    chunk's 1024 samples of the one-hot entry (r, k) times the chunk's entry (k, d). -/
theorem matmulF_apply (A : FVec Ideal S4000x1024 .bf16) (B : FVec Ideal S1024x256 .bf16) (r : Fin 4000) (d : Fin 256) :
    matmul dot_S4000x1024_S1024x256_S4000x256_1_0_0_1_n_n none A B (constant (F := Ideal) S4000x256 .f32 0x00000000#32) (ix2 r d)
      = ∑ k : Fin 1024, A (ix2 r k) * B (ix2 k d) := by
  show FloatOps.matmul dot_S4000x1024_S1024x256_S4000x256_1_0_0_1_n_n none A B (constant S4000x256 .f32 0x00000000#32) (ix2 r d) = _
  rw [Ideal.matmul_constant_zero_apply,
    ← Equiv.sum_comp (contrEquiv1 dot_S4000x1024_S1024x256_S4000x256_1_0_0_1_n_n 1024 rfl rfl).symm]
  refine Finset.sum_congr rfl fun k _ => ?_
  have hl : dot_S4000x1024_S1024x256_S4000x256_1_0_0_1_n_n.lhsIdx (ix2 r d)
      ((contrEquiv1 dot_S4000x1024_S1024x256_S4000x256_1_0_0_1_n_n 1024 rfl rfl).symm k) = ix2 r k := by
    funext a
    refine Fin.ext ?_
    match a with
    | ⟨0, _⟩ => exact lhsF_0 _ _
    | ⟨1, _⟩ => exact (lhsF_1 _ _).trans (contrEquiv1_symm_val _ 1024 rfl rfl k)
  have hr : dot_S4000x1024_S1024x256_S4000x256_1_0_0_1_n_n.rhsIdx (ix2 r d)
      ((contrEquiv1 dot_S4000x1024_S1024x256_S4000x256_1_0_0_1_n_n 1024 rfl rfl).symm k) = ix2 k d := by
    funext a
    refine Fin.ext ?_
    match a with
    | ⟨0, _⟩ => exact (rhsF_0 _ _).trans (contrEquiv1_symm_val _ 1024 rfl rfl k)
    | ⟨1, _⟩ => exact rhsF_1 _ _
  rw [hl, hr]

/-- The features' accumulator after a chunk: what it held plus, for each sample of the chunk whose label is this
    row's number, that sample's feature. -/
theorem pay4_apply (i : grid0.Coords) (v3 : Vec Ideal S1x1024 .i32) (v15 : Vec Ideal S1024x256 .f32)
    (v18 : Vec Ideal S4000x256 .f32) (r : Fin 4000) (d : Fin 256) :
    k0_pay4 (F := Ideal) i v3 v15 v18 (ix2 r d)
      = v18 (ix2 r d) + ∑ k : Fin 1024,
          (if v3 (ix2 0 k) = BitVec.ofNat 32 ((i 0).val * 4000 + r.val) then v15 (ix2 k d) else 0) := by
  unfold k0_pay4
  dsimp only
  rw [shapeCast_self, addf_apply, matmulF_apply]
  refine congrArg (v18 (ix2 r d) + ·) (Finset.sum_congr rfl fun k _ => ?_)
  rw [pay3_apply, truncf_apply, ite_mul, one_mul, zero_mul]

/-! ## The same for the column of ones -/

theorem lhsC_0 (j : S4000x1.Idx) (q : dot_S4000x1024_S1024x1_S4000x1_1_0_0_1_n_n.contr.Idx) :
    (dot_S4000x1024_S1024x1_S4000x1_1_0_0_1_n_n.lhsIdx j q 0).val = (j 0).val := by
  unfold DotDims.lhsIdx
  rw [dif_neg (show ¬(0 : Fin S4000x1024.rank) ∈ dot_S4000x1024_S1024x1_S4000x1_1_0_0_1_n_n.lhsBatch by decide),
    dif_pos (show (0 : Fin S4000x1024.rank) ∈ dot_S4000x1024_S1024x1_S4000x1_1_0_0_1_n_n.lhsNonContracting by decide)]
  rfl

theorem lhsC_1 (j : S4000x1.Idx) (q : dot_S4000x1024_S1024x1_S4000x1_1_0_0_1_n_n.contr.Idx) :
    (dot_S4000x1024_S1024x1_S4000x1_1_0_0_1_n_n.lhsIdx j q 1).val = (q ⟨0, by decide⟩).val :=
  DotDims.lhsIdx_val_of_single _ rfl j q

/-- The product of the one-hot matrix with a column, into a cleared accumulator, at row r: the sum over the
    chunk's 1024 samples of the one-hot entry (r, k) times whatever the column holds there. Only the one-hot
    matrix's index is named: the column used is constant. -/
theorem matmulC_apply (A : FVec Ideal S4000x1024 .bf16) (B : FVec Ideal S1024x1 .bf16) (r : Fin 4000) :
    matmul dot_S4000x1024_S1024x1_S4000x1_1_0_0_1_n_n none A B (constant (F := Ideal) S4000x1 .f32 0x00000000#32) (ix2 r (0 : Fin 1))
      = ∑ k : Fin 1024, A (ix2 r k)
          * B (dot_S4000x1024_S1024x1_S4000x1_1_0_0_1_n_n.rhsIdx (ix2 r (0 : Fin 1))
              ((contrEquiv1 dot_S4000x1024_S1024x1_S4000x1_1_0_0_1_n_n 1024 rfl rfl).symm k)) := by
  show FloatOps.matmul dot_S4000x1024_S1024x1_S4000x1_1_0_0_1_n_n none A B (constant S4000x1 .f32 0x00000000#32) (ix2 r (0 : Fin 1)) = _
  rw [Ideal.matmul_constant_zero_apply,
    ← Equiv.sum_comp (contrEquiv1 dot_S4000x1024_S1024x1_S4000x1_1_0_0_1_n_n 1024 rfl rfl).symm]
  refine Finset.sum_congr rfl fun k _ => ?_
  have hl : dot_S4000x1024_S1024x1_S4000x1_1_0_0_1_n_n.lhsIdx (ix2 r (0 : Fin 1))
      ((contrEquiv1 dot_S4000x1024_S1024x1_S4000x1_1_0_0_1_n_n 1024 rfl rfl).symm k) = ix2 r k := by
    funext a
    refine Fin.ext ?_
    match a with
    | ⟨0, _⟩ => exact lhsC_0 _ _
    | ⟨1, _⟩ => exact (lhsC_1 _ _).trans (contrEquiv1_symm_val _ 1024 rfl rfl k)
  rw [hl]

/-- The count's accumulator after a chunk: what it held plus the number of samples of the chunk whose label is
    this row's number. -/
theorem pay5_apply (i : grid0.Coords) (v3 : Vec Ideal S1x1024 .i32) (v24 : Vec Ideal S4000x1 .f32) (r : Fin 4000) :
    k0_pay5 (F := Ideal) i v3 v24 (ix2 r 0)
      = v24 (ix2 r 0) + ∑ k : Fin 1024,
          (if v3 (ix2 0 k) = BitVec.ofNat 32 ((i 0).val * 4000 + r.val) then (1 : EReal) else 0) := by
  unfold k0_pay5
  dsimp only
  rw [shapeCast_self, addf_apply, matmulC_apply]
  refine congrArg (v24 (ix2 r 0) + ·) (Finset.sum_congr rfl fun k _ => ?_)
  rw [pay3_apply, broadcast_apply]
  show _ * Ideal.ofBits .bf16 0x3F80#16 = _
  rw [ofBits_one_bf16, mul_one]

/-! ## The combine body -/

/-- centers · (1 + κ · count) − κ · sum, entry by entry; the count is a column, repeated along each row. -/
theorem pay1k_apply (v0 v1 : Vec Ideal S5000x256 .f32) (v3 : Vec Ideal S5000x1 .f32) (r : Fin 5000) (d : Fin 256) :
    k1_pay1 (F := Ideal) v0 v1 v3 (ix2 r d)
      = v0 (ix2 r d) * (1 + Cert.Spec.κ * v3 (ix2 r 0)) - Cert.Spec.κ * v1 (ix2 r d) := by
  unfold k1_pay1
  rw [subf_apply, mulf_apply, mulf_apply, broadcastTo_a1_ab_apply, shapeCast_self, shapeCast_self, shapeCast_self,
    addf_apply, mulf_apply, broadcast_apply, broadcast_apply, broadcast_apply]
  show v0 (ix2 r d) * (Ideal.ofBits .f32 0x3F800000#32 + Ideal.ofBits .f32 0xBDCCCCCD#32 * v3 (ix2 r 0))
      - Ideal.ofBits .f32 0xBDCCCCCD#32 * v1 (ix2 r d) = _
  rw [ofBits_one_f32]

end Cert.KernelIdeal.Pay

end
-- ==== Proof.KI.Value0.lean ====
/-
  What the segment-sum call leaves in its two output arrays, over the extended reals.

  The call's grid is 25 × 64. Point t = 64·i + j stages the labels and the features of samples
  1024·j … 1024·j + 1023 and owns rows 4000·i … 4000·i + 3999 of the two outputs. Write, for a row number n, a
  column d and a sample number b,

      term(b) = features[b, d]   if the label of sample b is the word of n,   0 otherwise

  (for the counts, 1 in place of features[b, d]). One point adds to entry (r, d) of the running sums the terms of
  its own tile for the row number 4000·i + r: the one-hot product of the body, read where the tile sits in the
  arrays. By induction along the 64 points of a row block, after point 64·i + j the running sums hold the terms of
  samples 0 … 1024·(j + 1) − 1: the sums are cleared at j = 0 (0 + x = x), and a range of 1024·(j + 1) numbers is a
  range of 1024·j numbers followed by 1024 more. At j = 63 that is every sample, and the sum over the numbers below
  65536 is the sum over the samples. No entry has to be finite: the extended reals are a commutative monoid under
  addition, and nothing else is used.

  Those are the only points at which the outputs are written back, and what is written is the block of rows
  4000·i … 4000·i + 3999 of ONE function of the arrays, the segment sums (the counts). Row n lies in the block
  written at point 64·(n / 4000) + 63, so the 25 written blocks tile each output, and each output array ends
  holding that function.
-/
import proofs.«422952_j16217796510058_1_alg».proof.Proof.KI.Region0
import proofs.«422952_j16217796510058_1_alg».proof.Proof.KI.Payloads
import proofs.«422952_j16217796510058_1_alg».proof.Proof.Spec
import Idealize.ShloMosaic.Lib.Pipeline.Value
import Idealize.ShloMosaic.Lib.ValueIdx
import Mathlib.Algebra.BigOperators.Group.Finset.Basic
import Mathlib.Data.Fintype.BigOperators

set_option maxRecDepth 16384

noncomputable section

open scoped BigOperators

namespace Cert.KernelIdeal.Val0

open Cert.KernelIdeal Cert.KernelIdeal.Gen Cert.KernelIdeal.Hand Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-! ## The grid, point by point -/

/-- Where each window sits at point `t = 64·i + j`: the labels' tile at column block `j`, the features' tile at row
    block `j`, both outputs at row block `i`; and the grid's first coordinate is `i`. -/
theorem idx_facts : ∀ t : Fin cfg0.N,
    win0_0.index t (0 : Fin 2) = 0 ∧ win0_0.index t (1 : Fin 2) = t.val % 64
    ∧ win0_1.index t (0 : Fin 2) = t.val % 64 ∧ win0_1.index t (1 : Fin 2) = 0
    ∧ win0_2.index t (0 : Fin 2) = t.val / 64 ∧ win0_2.index t (1 : Fin 2) = 0
    ∧ win0_3.index t (0 : Fin 2) = t.val / 64 ∧ win0_3.index t (1 : Fin 2) = 0
    ∧ (grid0.coords t 0).val = t.val / 64 :=
  (by decide +kernel : ∀ t : Fin grid0.N, _)

/-- The labels as the call finds them: one row of 65536 words. -/
abbrev labArr (c : Dev nD) : S1x65536.Idx → BitVec 32 := V c main_v0
/-- The features as the call finds them. -/
abbrev featArr (c : Dev nD) : S65536x256.Idx → EReal := V c main_arg0

/-! ## The input tiles, read where they sit in their arrays -/

/-- Entry `k` of the labels' tile at point `t` is the label of sample `1024·(t mod 64) + k`. -/
theorem lab_blk (c : Dev nD) (t : Fin cfg0.N) (k : Fin 1024) (b : Fin 65536) (hb : b.val = t.val % 64 * 1024 + k.val) :
    (blk0 V c 0 t : S1x1024.Idx → BitVec 32) (ix2 0 k) = labArr V c (ix2 0 b) := by
  obtain ⟨e0, e1, -⟩ := idx_facts t
  unfold blk0
  rw [View.read_apply]
  show V c main_v0 (((cfg0.win 0).blk t).view.emb (ix2 0 k)) = V c main_v0 (ix2 0 b)
  refine congrArg (V c main_v0) (funext fun a => Fin.ext ?_)
  match a with
  | ⟨0, _⟩ => show win0_0.index t (0 : Fin 2) * 1 + 1 * 0 = 0; omega
  | ⟨1, _⟩ => show win0_0.index t (1 : Fin 2) * 1024 + 1 * k.val = b.val; omega

/-- Entry `(k, d)` of the features' tile at point `t` is column `d` of sample `1024·(t mod 64) + k`. -/
theorem feat_blk (c : Dev nD) (t : Fin cfg0.N) (k : Fin 1024) (d : Fin 256) (b : Fin 65536)
    (hb : b.val = t.val % 64 * 1024 + k.val) :
    (blk0 V c 1 t : S1024x256.Idx → EReal) (ix2 k d) = featArr V c (ix2 b d) := by
  obtain ⟨-, -, e2, e3, -⟩ := idx_facts t
  unfold blk0
  rw [View.read_apply]
  show V c main_arg0 (((cfg0.win 1).blk t).view.emb (ix2 k d)) = V c main_arg0 (ix2 b d)
  refine congrArg (V c main_arg0) (funext fun a => Fin.ext ?_)
  match a with
  | ⟨0, _⟩ => show win0_1.index t (0 : Fin 2) * 1024 + 1 * k.val = b.val; omega
  | ⟨1, _⟩ => show win0_1.index t (1 : Fin 2) * 256 + 1 * d.val = d.val; omega

/-! ## Sums over the samples, taken a tile at a time -/

/-- What sample number `n` adds to the row whose number is the word `w`: its weight `g` if its label is `w`, else
    nothing; numbers past the last sample add nothing. -/
def term (lab : S1x65536.Idx → BitVec 32) (g : Fin 65536 → EReal) (w : BitVec 32) (n : ℕ) : EReal :=
  if h : n < 65536 then (if lab (ix2 0 ⟨n, h⟩) = w then g ⟨n, h⟩ else 0) else 0

/-- One tile's share: the sum over its 1024 entries is the sum of the terms of samples `1024·j … 1024·j + 1023`. -/
theorem tile_sum (lab : S1x65536.Idx → BitVec 32) (g : Fin 65536 → EReal) (w : BitVec 32) (j : ℕ)
    (v : S1x1024.Idx → BitVec 32) (x : Fin 1024 → EReal)
    (hv : ∀ (k : Fin 1024) (b : Fin 65536), b.val = j * 1024 + k.val → v (ix2 0 k) = lab (ix2 0 b))
    (hx : ∀ (k : Fin 1024) (b : Fin 65536), b.val = j * 1024 + k.val → x k = g b) (hj : j < 64) :
    (∑ k : Fin 1024, if v (ix2 0 k) = w then x k else 0) = ∑ k ∈ Finset.range 1024, term lab g w (j * 1024 + k) := by
  rw [← Fin.sum_univ_eq_sum_range (fun k => term lab g w (j * 1024 + k)) 1024]
  refine Finset.sum_congr rfl fun k _ => ?_
  have hk : j * 1024 + k.val < 65536 := by have := k.isLt; omega
  unfold term
  rw [dif_pos hk, hv k ⟨j * 1024 + k.val, hk⟩ rfl, hx k ⟨j * 1024 + k.val, hk⟩ rfl]

/-- All 64 tiles: the terms of all sample numbers below 65536 are the sum over the samples. -/
theorem all_sum (lab : S1x65536.Idx → BitVec 32) (g : Fin 65536 → EReal) (w : BitVec 32) :
    ∑ n ∈ Finset.range 65536, term lab g w n = ∑ b : Fin 65536, if lab (ix2 0 b) = w then g b else 0 := by
  rw [← Fin.sum_univ_eq_sum_range (term lab g w) 65536]
  refine Finset.sum_congr rfl fun b _ => ?_
  unfold term
  rw [dif_pos b.isLt]

/-- The terms of tiles `0 … j − 1`. -/
def upto (lab : S1x65536.Idx → BitVec 32) (g : Fin 65536 → EReal) (w : BitVec 32) (j : ℕ) : EReal :=
  ∑ n ∈ Finset.range (j * 1024), term lab g w n

theorem upto_zero (lab : S1x65536.Idx → BitVec 32) (g : Fin 65536 → EReal) (w : BitVec 32) : upto lab g w 0 = 0 := by
  unfold upto
  rw [Nat.zero_mul, Finset.range_zero, Finset.sum_empty]

/-- Tiles `0 … j` are tiles `0 … j − 1` and tile `j`. -/
theorem upto_succ (lab : S1x65536.Idx → BitVec 32) (g : Fin 65536 → EReal) (w : BitVec 32) (j : ℕ) :
    upto lab g w (j + 1) = upto lab g w j + ∑ k ∈ Finset.range 1024, term lab g w (j * 1024 + k) := by
  unfold upto
  rw [show (j + 1) * 1024 = j * 1024 + 1024 by omega]
  exact Finset.sum_range_add (term lab g w) (j * 1024) 1024

/-- All 64 tiles: the sum over the samples. -/
theorem upto_all (lab : S1x65536.Idx → BitVec 32) (g : Fin 65536 → EReal) (w : BitVec 32) :
    upto lab g w 64 = ∑ b : Fin 65536, if lab (ix2 0 b) = w then g b else 0 := by
  unfold upto
  exact all_sum lab g w

/-! ## One point's step, entry by entry -/

/-- The features' accumulator after a point of row block `g0` that staged tile `j`: what it held plus tile `j`'s terms. -/
theorem feat_step (i : grid0.Coords) (v3 : Vec Ideal S1x1024 .i32) (v15 : Vec Ideal S1024x256 .f32)
    (v18 : Vec Ideal S4000x256 .f32) (lab : S1x65536.Idx → BitVec 32) (feat : S65536x256.Idx → EReal) (j g0 : ℕ)
    (hj : j < 64) (hi : (i 0).val = g0)
    (hv : ∀ (k : Fin 1024) (b : Fin 65536), b.val = j * 1024 + k.val → v3 (ix2 0 k) = lab (ix2 0 b))
    (hx : ∀ (k : Fin 1024) (d : Fin 256) (b : Fin 65536), b.val = j * 1024 + k.val → v15 (ix2 k d) = feat (ix2 b d))
    (r : Fin 4000) (d : Fin 256) :
    k0_pay4 (F := Ideal) i v3 v15 v18 (ix2 r d)
      = v18 (ix2 r d) + ∑ k ∈ Finset.range 1024,
          term lab (fun b => feat (ix2 b d)) (BitVec.ofNat 32 (g0 * 4000 + r.val)) (j * 1024 + k) := by
  rw [Pay.pay4_apply, hi]
  exact congrArg (v18 (ix2 r d) + ·)
    (tile_sum lab (fun b => feat (ix2 b d)) (BitVec.ofNat 32 (g0 * 4000 + r.val)) j v3 (fun k => v15 (ix2 k d)) hv
      (fun k b hb => hx k d b hb) hj)

/-- The count's accumulator after such a point: what it held plus the number of tile `j`'s samples with the row's label. -/
theorem cnt_step (i : grid0.Coords) (v3 : Vec Ideal S1x1024 .i32) (v24 : Vec Ideal S4000x1 .f32)
    (lab : S1x65536.Idx → BitVec 32) (j g0 : ℕ) (hj : j < 64) (hi : (i 0).val = g0)
    (hv : ∀ (k : Fin 1024) (b : Fin 65536), b.val = j * 1024 + k.val → v3 (ix2 0 k) = lab (ix2 0 b))
    (r : Fin 4000) :
    k0_pay5 (F := Ideal) i v3 v24 (ix2 r 0)
      = v24 (ix2 r 0) + ∑ k ∈ Finset.range 1024,
          term lab (fun _ => 1) (BitVec.ofNat 32 (g0 * 4000 + r.val)) (j * 1024 + k) := by
  rw [Pay.pay5_apply, hi]
  exact congrArg (v24 (ix2 r 0) + ·)
    (tile_sum lab (fun _ => 1) (BitVec.ofNat 32 (g0 * 4000 + r.val)) j v3 (fun _ => 1) hv (fun _ _ _ => rfl) hj)

/-! ## The running sums along a row block -/

/-- The features' half of one point's step, over the arrays the call finds. -/
theorem feat_point (c : Dev nD) (n : ℕ) (h : n < cfg0.N) (p : Vec Ideal S4000x256 .f32 × Vec Ideal S4000x1 .f32)
    (r : Fin 4000) (d : Fin 256) :
    (accStep V c ⟨n, h⟩ p).1 (ix2 r d)
      = p.1 (ix2 r d) + ∑ k ∈ Finset.range 1024,
          term (labArr V c) (fun b => featArr V c (ix2 b d)) (BitVec.ofNat 32 (n / 64 * 4000 + r.val)) (n % 64 * 1024 + k) := by
  have hN : n < 1600 := lt_of_lt_of_eq h (show cfg0.N = 1600 from N_0)
  show k0_pay4 (F := Ideal) (grid0.coords ⟨n, h⟩) (blk0 V c 0 ⟨n, h⟩) (blk0 V c 1 ⟨n, h⟩) p.1 (ix2 r d) = _
  exact feat_step (grid0.coords ⟨n, h⟩) (blk0 V c 0 ⟨n, h⟩) (blk0 V c 1 ⟨n, h⟩) p.1 (labArr V c) (featArr V c) (n % 64) (n / 64)
    (Nat.mod_lt _ (by decide)) (idx_facts ⟨n, h⟩).2.2.2.2.2.2.2.2
    (fun k b hb => lab_blk V c ⟨n, h⟩ k b hb) (fun k d b hb => feat_blk V c ⟨n, h⟩ k d b hb) r d

/-- The count's half. -/
theorem cnt_point (c : Dev nD) (n : ℕ) (h : n < cfg0.N) (p : Vec Ideal S4000x256 .f32 × Vec Ideal S4000x1 .f32)
    (r : Fin 4000) :
    (accStep V c ⟨n, h⟩ p).2 (ix2 r 0)
      = p.2 (ix2 r 0) + ∑ k ∈ Finset.range 1024,
          term (labArr V c) (fun _ => 1) (BitVec.ofNat 32 (n / 64 * 4000 + r.val)) (n % 64 * 1024 + k) := by
  show k0_pay5 (F := Ideal) (grid0.coords ⟨n, h⟩) (blk0 V c 0 ⟨n, h⟩) p.2 (ix2 r 0) = _
  exact cnt_step (grid0.coords ⟨n, h⟩) (blk0 V c 0 ⟨n, h⟩) p.2 (labArr V c) (n % 64) (n / 64)
    (Nat.mod_lt _ (by decide)) (idx_facts ⟨n, h⟩).2.2.2.2.2.2.2.2
    (fun k b hb => lab_blk V c ⟨n, h⟩ k b hb) r

/-- After point `n = 64·i + j` the features' accumulator holds, at row `r` and column `d`, the terms of tiles `0 … j`
    for the row number `4000·i + r`. -/
theorem feat_inv (c : Dev nD) (r : Fin 4000) (d : Fin 256) (n : ℕ) : ∀ h : n < cfg0.N,
    (accAt V c n h).1 (ix2 r d)
      = upto (labArr V c) (fun b => featArr V c (ix2 b d)) (BitVec.ofNat 32 (n / 64 * 4000 + r.val)) (n % 64 + 1) := by
  induction n with
  | zero =>
    intro h
    refine (congrArg (fun p => p.1 (ix2 r d)) (accAt_first V c ⟨0, h⟩ rfl)).trans ?_
    refine (feat_point V c 0 h acc0 r d).trans ?_
    rw [show (acc0 (F := Ideal)).1 (ix2 r d) = k0_pay1 (F := Ideal) (ix2 r d) from rfl, Pay.pay1_apply, upto_succ, upto_zero]
  | succ n ih =>
    intro h
    by_cases hm : (n + 1) % 64 = 0
    · refine (congrArg (fun p => p.1 (ix2 r d)) (accAt_first V c ⟨n + 1, h⟩ hm)).trans ?_
      refine (feat_point V c (n + 1) h acc0 r d).trans ?_
      rw [show (acc0 (F := Ideal)).1 (ix2 r d) = k0_pay1 (F := Ideal) (ix2 r d) from rfl, Pay.pay1_apply, hm, upto_succ, upto_zero]
    · refine (congrArg (fun p => p.1 (ix2 r d)) (accAt_next V c ⟨n + 1, h⟩ hm)).trans ?_
      refine (feat_point V c (n + 1) h _ r d).trans ?_
      have e1 : (n + 1) / 64 = n / 64 := by omega
      have e2 : (n + 1) % 64 = n % 64 + 1 := by omega
      rw [e1, e2, upto_succ]
      exact congrArg (· + _) (ih (Nat.lt_of_succ_lt h))

/-- The same for the count. -/
theorem cnt_inv (c : Dev nD) (r : Fin 4000) (n : ℕ) : ∀ h : n < cfg0.N,
    (accAt V c n h).2 (ix2 r 0)
      = upto (labArr V c) (fun _ => 1) (BitVec.ofNat 32 (n / 64 * 4000 + r.val)) (n % 64 + 1) := by
  induction n with
  | zero =>
    intro h
    refine (congrArg (fun p => p.2 (ix2 r 0)) (accAt_first V c ⟨0, h⟩ rfl)).trans ?_
    refine (cnt_point V c 0 h acc0 r).trans ?_
    rw [show (acc0 (F := Ideal)).2 (ix2 r 0) = k0_pay2 (F := Ideal) (ix2 r 0) from rfl, Pay.pay2_apply, upto_succ, upto_zero]
  | succ n ih =>
    intro h
    by_cases hm : (n + 1) % 64 = 0
    · refine (congrArg (fun p => p.2 (ix2 r 0)) (accAt_first V c ⟨n + 1, h⟩ hm)).trans ?_
      refine (cnt_point V c (n + 1) h acc0 r).trans ?_
      rw [show (acc0 (F := Ideal)).2 (ix2 r 0) = k0_pay2 (F := Ideal) (ix2 r 0) from rfl, Pay.pay2_apply, hm, upto_succ, upto_zero]
    · refine (congrArg (fun p => p.2 (ix2 r 0)) (accAt_next V c ⟨n + 1, h⟩ hm)).trans ?_
      refine (cnt_point V c (n + 1) h _ r).trans ?_
      have e1 : (n + 1) / 64 = n / 64 := by omega
      have e2 : (n + 1) % 64 = n % 64 + 1 := by omega
      rw [e1, e2, upto_succ]
      exact congrArg (· + _) (ih (Nat.lt_of_succ_lt h))

/-! ## From the written blocks to the arrays -/

/-- The segment sums as one function of the arrays the call finds: row `n`, column `d` holds the sum of column `d` over
    the samples labelled `n`. -/
def sumArr (c : Dev nD) : S100000x256.Idx → EReal := fun i =>
  ∑ b : Fin 65536, if labArr V c (ix2 0 b) = BitVec.ofNat 32 (i 0).val then featArr V c (ix2 b (i 1)) else 0

/-- The counts likewise: row `n` holds the number of samples labelled `n`. -/
def cntArr (c : Dev nD) : S100000x1.Idx → EReal := fun i =>
  ∑ b : Fin 65536, if labArr V c (ix2 0 b) = BitVec.ofNat 32 (i 0).val then (1 : EReal) else 0

/-- At the last point of row block `i` the features' accumulator holds, at `(r, d)`, entry `(4000·i + r, d)` of the segment sums. -/
theorem sums_at (c : Dev nD) (t : Fin cfg0.N) (ht : t.val % 64 = 63) (x : S4000x256.Idx) (i : S100000x256.Idx)
    (h0 : (i 0).val = t.val / 64 * 4000 + (x 0).val) (h1 : (i 1).val = (x 1).val) :
    (accAt V c t.val t.isLt).1 x = sumArr V c i := by
  obtain ⟨r, d, rfl⟩ : ∃ (r : Fin 4000) (d : Fin 256), x = ix2 r d := ⟨x 0, x 1, eq_ix2 x⟩
  have h0' : (i 0).val = t.val / 64 * 4000 + r.val := h0
  obtain rfl : d = i 1 := Fin.ext h1.symm
  rw [feat_inv V c r (i 1) t.val t.isLt, ht]
  show upto _ _ _ 64 = _
  rw [upto_all]
  unfold sumArr
  rw [h0']

/-- And the count's accumulator holds, at row `r`, entry `4000·i + r` of the counts. -/
theorem counts_at (c : Dev nD) (t : Fin cfg0.N) (ht : t.val % 64 = 63) (x : S4000x1.Idx) (i : S100000x1.Idx)
    (h0 : (i 0).val = t.val / 64 * 4000 + (x 0).val) :
    (accAt V c t.val t.isLt).2 x = cntArr V c i := by
  obtain ⟨r, z, rfl⟩ : ∃ (r : Fin 4000) (z : Fin 1), x = ix2 r z := ⟨x 0, x 1, eq_ix2 x⟩
  obtain rfl : z = 0 := Subsingleton.elim _ _
  have h0' : (i 0).val = t.val / 64 * 4000 + r.val := h0
  rw [cnt_inv V c r t.val t.isLt, ht]
  show upto _ _ _ 64 = _
  rw [upto_all]
  unfold cntArr
  rw [h0']

/-- What a point that writes back writes to the sums' array is its block of the segment sums. -/
theorem flushed2_eq (c : Dev nD) (t : Fin cfg0.N) (hf : (cfg0.win 2).flush t = true) :
    (dat0 V c).flushed 2 t = ((cfg0.win 2).blk t).view.read (Elt Ideal) (sumArr V c) := by
  have ht : t.val % 64 = 63 := (flush0_2 t).mp hf
  obtain ⟨-, -, -, -, e4, e5, -⟩ := idx_facts t
  show (cfg0.win 2).cut (grid0.coords t) ((dat0 V c).after 2 t) = _
  rw [after0_2]
  funext y
  refine (sums_at V c t ht ((cfg0.win 2).xinj (grid0.coords t) y) (((cfg0.win 2).blk t).view.emb y) ?_ ?_).trans ?_
  · show win0_2.index t (0 : Fin 2) * 4000 + 1 * (y 0).val = t.val / 64 * 4000 + (y 0).val; omega
  · show win0_2.index t (1 : Fin 2) * 256 + 1 * (y 1).val = (y 1).val; omega
  · -- reading the whole function through the block, at the block's entry y, is the function at where y sits
    generalize sumArr V c = G
    rfl

/-- And to the counts' array, its block of the counts. -/
theorem flushed3_eq (c : Dev nD) (t : Fin cfg0.N) (hf : (cfg0.win 3).flush t = true) :
    (dat0 V c).flushed 3 t = ((cfg0.win 3).blk t).view.read (Elt Ideal) (cntArr V c) := by
  have ht : t.val % 64 = 63 := (flush0_3 t).mp hf
  obtain ⟨-, -, -, -, -, -, e6, e7, -⟩ := idx_facts t
  show (cfg0.win 3).cut (grid0.coords t) ((dat0 V c).after 3 t) = _
  rw [after0_3]
  funext y
  refine (counts_at V c t ht ((cfg0.win 3).xinj (grid0.coords t) y) (((cfg0.win 3).blk t).view.emb y) ?_).trans ?_
  · show win0_3.index t (0 : Fin 2) * 4000 + 1 * (y 0).val = t.val / 64 * 4000 + (y 0).val; omega
  · generalize cntArr V c = G
    rfl

/-- An index of the sums' array lies in point `t`'s block iff each coordinate lies in the block's range on its axis. -/
theorem mem_blk2 (t : Fin cfg0.N) (i : S100000x256.Idx) :
    i ∈ ((cfg0.win 2).blk t).view.set ↔ ∀ a : Fin 2, win0_2.index t a * S4000x256.size a ≤ (i a).val
      ∧ (i a).val < win0_2.index t a * S4000x256.size a + S4000x256.size a := by
  show i ∈ ((View.whole main_v1_0).slice (win0_2.rect t)).set ↔ _
  rw [View.set_slice_whole, Rect.mem_set_unit]
  exact Iff.rfl

theorem mem_blk3 (t : Fin cfg0.N) (i : S100000x1.Idx) :
    i ∈ ((cfg0.win 3).blk t).view.set ↔ ∀ a : Fin 2, win0_3.index t a * S4000x1.size a ≤ (i a).val
      ∧ (i a).val < win0_3.index t a * S4000x1.size a + S4000x1.size a := by
  show i ∈ ((View.whole main_v1_1).slice (win0_3.rect t)).set ↔ _
  rw [View.set_slice_whole, Rect.mem_set_unit]
  exact Iff.rfl

/-- Row `n` is written back by the last point of row block `n / 4000`. -/
theorem cover2 (i : S100000x256.Idx) :
    ∃ t : Fin cfg0.N, (cfg0.win 2).flush t = true ∧ i ∈ ((cfg0.win 2).blk t).view.set := by
  have hN : cfg0.N = 1600 := N_0
  have hi0 : (i 0).val < 100000 := idx2_lt0 i
  have hi1 : (i 1).val < 256 := idx2_lt1 i
  have hq : (i 0).val / 4000 * 64 + 63 < cfg0.N := by rw [hN]; omega
  obtain ⟨-, -, -, -, e4, e5, -⟩ := idx_facts ⟨(i 0).val / 4000 * 64 + 63, hq⟩
  have e4' : win0_2.index ⟨(i 0).val / 4000 * 64 + 63, hq⟩ (0 : Fin 2) = (i 0).val / 4000 := by
    rw [e4]; show ((i 0).val / 4000 * 64 + 63) / 64 = _; omega
  refine ⟨⟨(i 0).val / 4000 * 64 + 63, hq⟩, (flush0_2 _).mpr (by show ((i 0).val / 4000 * 64 + 63) % 64 = 63; omega), ?_⟩
  rw [mem_blk2]
  intro a
  match a with
  | ⟨0, _⟩ =>
    show win0_2.index ⟨(i 0).val / 4000 * 64 + 63, hq⟩ (0 : Fin 2) * 4000 ≤ (i 0).val
      ∧ (i 0).val < win0_2.index ⟨(i 0).val / 4000 * 64 + 63, hq⟩ (0 : Fin 2) * 4000 + 4000
    rw [e4']; omega
  | ⟨1, _⟩ =>
    show win0_2.index ⟨(i 0).val / 4000 * 64 + 63, hq⟩ (1 : Fin 2) * 256 ≤ (i 1).val
      ∧ (i 1).val < win0_2.index ⟨(i 0).val / 4000 * 64 + 63, hq⟩ (1 : Fin 2) * 256 + 256
    rw [e5]; omega

theorem cover3 (i : S100000x1.Idx) :
    ∃ t : Fin cfg0.N, (cfg0.win 3).flush t = true ∧ i ∈ ((cfg0.win 3).blk t).view.set := by
  have hN : cfg0.N = 1600 := N_0
  have hi0 : (i 0).val < 100000 := idx2_lt0 i
  have hi1 : (i 1).val < 1 := idx2_lt1 i
  have hq : (i 0).val / 4000 * 64 + 63 < cfg0.N := by rw [hN]; omega
  obtain ⟨-, -, -, -, -, -, e6, e7, -⟩ := idx_facts ⟨(i 0).val / 4000 * 64 + 63, hq⟩
  have e6' : win0_3.index ⟨(i 0).val / 4000 * 64 + 63, hq⟩ (0 : Fin 2) = (i 0).val / 4000 := by
    rw [e6]; show ((i 0).val / 4000 * 64 + 63) / 64 = _; omega
  refine ⟨⟨(i 0).val / 4000 * 64 + 63, hq⟩, (flush0_3 _).mpr (by show ((i 0).val / 4000 * 64 + 63) % 64 = 63; omega), ?_⟩
  rw [mem_blk3]
  intro a
  match a with
  | ⟨0, _⟩ =>
    show win0_3.index ⟨(i 0).val / 4000 * 64 + 63, hq⟩ (0 : Fin 2) * 4000 ≤ (i 0).val
      ∧ (i 0).val < win0_3.index ⟨(i 0).val / 4000 * 64 + 63, hq⟩ (0 : Fin 2) * 4000 + 4000
    rw [e6']; omega
  | ⟨1, _⟩ =>
    show win0_3.index ⟨(i 0).val / 4000 * 64 + 63, hq⟩ (1 : Fin 2) * 1 ≤ (i 1).val
      ∧ (i 1).val < win0_3.index ⟨(i 0).val / 4000 * 64 + 63, hq⟩ (1 : Fin 2) * 1 + 1
    rw [e7]; omega

/-! ## What the call leaves in its two output arrays -/

/-- The sums' array ends holding the segment sums of the features over the labels. -/
theorem sums_final (c : Dev nD) :
    (dat0 (F := Ideal) V c).arrAt 2 cfg0.N = (fun i : S100000x256.Idx =>
      ∑ b : Fin 65536, if (V c main_v0 : S1x65536.Idx → BitVec 32) (ix2 0 b) = BitVec.ofNat 32 (i 0).val then (V c main_arg0 : S65536x256.Idx → EReal) (ix2 b (i 1)) else 0 : S100000x256.Idx → EReal) :=
  (dat0 V c).arrAt_eq_of_cover 2 (sumArr V c) (fun t hf => flushed2_eq V c t hf) cover2

/-- The counts' array ends holding, per row, the number of samples with that row's label. -/
theorem counts_final (c : Dev nD) :
    (dat0 (F := Ideal) V c).arrAt 3 cfg0.N = (fun i : S100000x1.Idx =>
      ∑ b : Fin 65536, if (V c main_v0 : S1x65536.Idx → BitVec 32) (ix2 0 b) = BitVec.ofNat 32 (i 0).val then (1 : EReal) else 0 : S100000x1.Idx → EReal) :=
  (dat0 V c).arrAt_eq_of_cover 3 (cntArr V c) (fun t hf => flushed3_eq V c t hf) cover3

end Cert.KernelIdeal.Val0

end
-- ==== Proof.KI.Value1.lean ====
/-
  What the combine call leaves in its output array, at the ideal instance.

  The call's grid has 20 points. At point t every window's block is rows 5000·t … 5000·t + 4999 of its array, all
  columns: of centers, of the segment sums, of the counts (one column), and of the result. The body stores into the
  result's block, entry (r, d), the value

      centers[r, d] · (1 + κ · count[r]) − κ · sums[r, d]

  of the three input blocks. Since all four blocks sit at the same rows, entry (r, d) of the block written back at
  point t is that expression of the ARRAYS at row 5000·t + r: what each point writes back is its block of one
  function of the three arrays. Every row n is in the block of point n / 5000, and every point writes back, so the
  blocks cover the array and the array ends holding that function everywhere.
-/
import proofs.«422952_j16217796510058_1_alg».proof.Proof.KI.Region1
import proofs.«422952_j16217796510058_1_alg».proof.Proof.KI.Payloads
import proofs.«422952_j16217796510058_1_alg».proof.Proof.Spec
import Idealize.ShloMosaic.Lib.Pipeline.Value
import Idealize.ShloMosaic.Lib.ValueIdx

set_option maxRecDepth 16384

noncomputable section

namespace Cert.KernelIdeal.Val1

open Cert.KernelIdeal Cert.KernelIdeal.Gen Cert.KernelIdeal.Hand Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-! ## The three arrays the call reads, and the function it computes -/

/-- centers, as the call finds it. -/
abbrev cenArr (c : Dev nD) : S100000x256.Idx → EReal := V c main_arg2
/-- The segment sums, as the call finds them. -/
abbrev sumArr (c : Dev nD) : S100000x256.Idx → EReal := V c main_v1_0
/-- The counts, one column, as the call finds them. -/
abbrev cntArr (c : Dev nD) : S100000x1.Idx → EReal := V c main_v1_1

/-- Row n, column d of the result: centers[n,d] · (1 + κ · count[n]) − κ · sums[n,d]. -/
abbrev combined (cen sums : S100000x256.Idx → EReal) (cnt : S100000x1.Idx → EReal) : S100000x256.Idx → EReal :=
  fun i => cen i * (1 + Cert.Spec.κ * cnt (ix2 (i 0) 0)) - Cert.Spec.κ * sums i

/-! ## Where the blocks sit -/

/-- At point t every window's block index is (t, 0): the blocks are row bands, all columns. -/
theorem band_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- Entry (r, d) of centers' block at point t is centers at row 5000·t + r, column d. -/
theorem cenBlk_apply (c : Dev nD) (t : Fin cfg1.N) (j : S5000x256.Idx) (i : S100000x256.Idx)
    (h0 : (i 0).val = 5000 * t.val + (j 0).val) (h1 : (i 1).val = (j 1).val) :
    (blk1 (F := Ideal) V c 0 t : Vec Ideal S5000x256 .f32) j = cenArr V c i := by
  obtain ⟨e0, e1, -⟩ := band_index t
  show V c main_arg2 (((cfg1.win 0).blk t).view.emb j) = V c main_arg2 i
  congr 1
  funext a
  apply Fin.ext
  match a with
  | ⟨0, _⟩ => show win1_0.index t (0 : Fin 2) * 5000 + 1 * (j 0).val = (i 0).val; rw [e0, h0]; omega
  | ⟨1, _⟩ => show win1_0.index t (1 : Fin 2) * 256 + 1 * (j 1).val = (i 1).val; rw [e1, h1]; omega

/-- Entry (r, d) of the sums' block at point t is the sums at row 5000·t + r, column d. -/
theorem sumBlk_apply (c : Dev nD) (t : Fin cfg1.N) (j : S5000x256.Idx) (i : S100000x256.Idx)
    (h0 : (i 0).val = 5000 * t.val + (j 0).val) (h1 : (i 1).val = (j 1).val) :
    (blk1 (F := Ideal) V c 1 t : Vec Ideal S5000x256 .f32) j = sumArr V c i := by
  obtain ⟨-, -, e0, e1, -⟩ := band_index t
  show V c main_v1_0 (((cfg1.win 1).blk t).view.emb j) = V c main_v1_0 i
  congr 1
  funext a
  apply Fin.ext
  match a with
  | ⟨0, _⟩ => show win1_1.index t (0 : Fin 2) * 5000 + 1 * (j 0).val = (i 0).val; rw [e0, h0]; omega
  | ⟨1, _⟩ => show win1_1.index t (1 : Fin 2) * 256 + 1 * (j 1).val = (i 1).val; rw [e1, h1]; omega

/-- Entry r of the counts' block at point t is the count of row 5000·t + r. -/
theorem cntBlk_apply (c : Dev nD) (t : Fin cfg1.N) (j : S5000x1.Idx) (i : S100000x1.Idx)
    (h0 : (i 0).val = 5000 * t.val + (j 0).val) (h1 : (i 1).val = (j 1).val) :
    (blk1 (F := Ideal) V c 2 t : Vec Ideal S5000x1 .f32) j = cntArr V c i := by
  obtain ⟨-, -, -, -, e0, e1, -⟩ := band_index t
  show V c main_v1_1 (((cfg1.win 2).blk t).view.emb j) = V c main_v1_1 i
  congr 1
  funext a
  apply Fin.ext
  match a with
  | ⟨0, _⟩ => show win1_2.index t (0 : Fin 2) * 5000 + 1 * (j 0).val = (i 0).val; rw [e0, h0]; omega
  | ⟨1, _⟩ => show win1_2.index t (1 : Fin 2) * 1 + 1 * (j 1).val = (i 1).val; rw [e1, h1]; omega

/-! ## What a point writes back -/

/-- The body's store at an entry: the pointwise expression of the three blocks, the count's column repeated. -/
theorem comb_apply (x0 x1 : Vec Ideal S5000x256 .f32) (x2 : Vec Ideal S5000x1 .f32) (j : S5000x256.Idx) :
    comb (F := Ideal) x0 x1 x2 j = x0 j * (1 + Cert.Spec.κ * x2 (ix2 (j 0) 0)) - Cert.Spec.κ * x1 j := by
  obtain ⟨r, d, rfl⟩ : ∃ (r : Fin 5000) (d : Fin 256), j = ix2 r d := ⟨j 0, j 1, eq_ix2 j⟩
  exact Pay.pay1k_apply x0 x1 x2 r d

/-- What point t writes back is block t of `combined` of the three arrays. -/
theorem flushed_eq (c : Dev nD) (t : Fin cfg1.N) :
    (dat1 (F := Ideal) V c).flushed 3 t
      = ((cfg1.win 3).blk t).view.read (Elt Ideal) (combined (cenArr V c) (sumArr V c) (cntArr V c)) := by
  show (cfg1.win 3).cut (grid1.coords t) ((dat1 (F := Ideal) V c).after 3 t) = _
  rw [after1_3]
  obtain ⟨-, -, -, -, -, -, e0, e1⟩ := band_index t
  refine funext fun (j : S5000x256.Idx) => ?_
  show comb (F := Ideal) (blk1 V c 0 t) (blk1 V c 1 t) (blk1 V c 2 t) j
      = combined (cenArr V c) (sumArr V c) (cntArr V c) (((cfg1.win 3).blk t).view.emb j)
  refine (comb_apply _ _ _ j).trans ?_
  have hj0 : (j 0).val < 5000 := (j 0).isLt
  have hj1 : (j 1).val < 256 := (j 1).isLt
  have p0 : ((((cfg1.win 3).blk t).view.emb j) 0).val = 5000 * t.val + (j 0).val := by
    show win1_3.index t (0 : Fin 2) * 5000 + 1 * (j 0).val = _
    rw [e0]; omega
  have p1 : ((((cfg1.win 3).blk t).view.emb j) 1).val = (j 1).val := by
    show win1_3.index t (1 : Fin 2) * 256 + 1 * (j 1).val = _
    rw [e1]; omega
  rw [cenBlk_apply V c t j _ p0 p1, sumBlk_apply V c t j _ p0 p1,
    cntBlk_apply V c t (ix2 (j 0) 0) (ix2 ((((cfg1.win 3).blk t).view.emb j) 0) 0) p0 rfl]

/-! ## The blocks cover the array -/

/-- An index of the result is in point t's block iff each coordinate is in the block's range on its axis. -/
theorem mem_blk (t : Fin cfg1.N) (i : S100000x256.Idx) :
    i ∈ ((cfg1.win 3).blk t).view.set
      ↔ ∀ a : Fin 2, win1_3.index t a * S5000x256.size a ≤ (i a).val ∧ (i a).val < win1_3.index t a * S5000x256.size a + S5000x256.size a := by
  show i ∈ ((View.whole main_v2).slice (win1_3.rect t)).set ↔ _
  rw [View.set_slice_whole, Rect.mem_set_unit]
  exact Iff.rfl

/-- Row n lies in the block of point n / 5000, which writes back. -/
theorem covered (i : S100000x256.Idx) :
    ∃ t : Fin cfg1.N, (cfg1.win 3).flush t = true ∧ i ∈ ((cfg1.win 3).blk t).view.set := by
  have hN : cfg1.N = 20 := N_1
  have hi0 : (i 0).val < 100000 := (i 0).isLt
  have hi1 : (i 1).val < 256 := (i 1).isLt
  have ht : (i 0).val / 5000 < cfg1.N := by rw [hN]; omega
  refine ⟨⟨(i 0).val / 5000, ht⟩, flush1_3 _, ?_⟩
  obtain ⟨-, -, -, -, -, -, e0, e1⟩ := band_index ⟨(i 0).val / 5000, ht⟩
  rw [mem_blk]
  intro a
  match a with
  | ⟨0, _⟩ =>
    show win1_3.index ⟨(i 0).val / 5000, ht⟩ (0 : Fin 2) * 5000 ≤ (i 0).val
      ∧ (i 0).val < win1_3.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win1_3.index ⟨(i 0).val / 5000, ht⟩ (1 : Fin 2) * 256 ≤ (i 1).val
      ∧ (i 1).val < win1_3.index ⟨(i 0).val / 5000, ht⟩ (1 : Fin 2) * 256 + 256
    rw [e1]
    omega

/-! ## The array after the call -/

/-- After the call the result array holds, at row n and column d, centers[n,d] · (1 + κ · count[n]) − κ · sums[n,d],
    of the three arrays as the call found them. -/
theorem combine_final (c : Dev nD) :
    (dat1 (F := Ideal) V c).arrAt 3 cfg1.N = fun i : S100000x256.Idx =>
      cenArr V c i * (1 + Cert.Spec.κ * cntArr V c (ix2 (i 0) 0)) - Cert.Spec.κ * sumArr V c i :=
  (dat1 (F := Ideal) V c).arrAt_eq_of_cover 3 (combined (cenArr V c) (sumArr V c) (cntArr V c))
    (fun t _ => flushed_eq V c t) covered

end Cert.KernelIdeal.Val1

end
-- ==== Proof.KI.Whole.lean ====
/-
  The idealized kernel's result is the specification.

  The combine call's output is `centers · (1 + κ · counts) − κ · sums` of the arrays it is entered from. Those are:
  the centers as launched (no item writes them); the two arrays the segment-sum call left, which are, row by row, the
  count and the column sums over the samples whose entry in the ROW of labels is that row's word. The row of labels is
  the reshape of the label vector, entry `b` of the one being entry `b` of the other, and the features are as launched.
  Put together, that is `Spec.G` of the three launch arrays.
-/
import proofs.«422952_j16217796510058_1_alg».proof.Proof.KI.Run
import proofs.«422952_j16217796510058_1_alg».proof.Proof.Spec
import proofs.«422952_j16217796510058_1_alg».proof.Proof.KI.Value0
import proofs.«422952_j16217796510058_1_alg».proof.Proof.KI.Value1
import Idealize.ShloMosaic.Lib.StableHlo.Run
import Idealize.ShloMosaic.Lib.Pipeline.Value
import Idealize.ShloMosaic.Lib.ValueIdx

set_option maxRecDepth 16384

noncomputable section

namespace Cert.KernelIdeal.Whole

open Cert.KernelIdeal Cert.KernelIdeal.Gen Cert.KernelIdeal.Hand
open Idealize.ShloMosaic Idealize.ShloMosaic.TcCoe Idealize.ShloMosaic.ValueIdx Idealize.SL.Sem Idealize.ShloMosaic.StableHlo

variable (m : (ℓ : Loc nD τ sig) → Buf (Elt Ideal) ℓ)

open scoped BigOperators

/-- The three launch arrays, at their literal types. -/
abbrev featArr (c : Dev nD) : S65536x256.Idx → EReal := m ((c.tc : Thread nD τ).loc main_arg0)
abbrev labArr (c : Dev nD) : S65536.Idx → BitVec 32 := m ((c.tc : Thread nD τ).loc main_arg1)
abbrev cenArr (c : Dev nD) : S100000x256.Idx → EReal := m ((c.tc : Thread nD τ).loc main_arg2)
/-- The row of labels and the features as the segment-sum call finds them. -/
abbrev rowArr (c : Dev nD) : S1x65536.Idx → BitVec 32 := U1 m c main_v0
abbrev featIn (c : Dev nD) : S65536x256.Idx → EReal := U1 m c main_arg0

/-- The row of labels is the reshape of the label vector, -/
theorem row_eq (c : Dev nD) : rowArr m c = shapeCast S1x65536 (labArr m c) Facts₀.shapeCasts_S65536_S1x65536 := by
  dsimp only [rowArr, U1, B1, hostOps0]
  after_results
  rfl

/-- so its entry `b` is the vector's entry `b`: both sit at position `b` in row-major order. -/
theorem labels_row (c : Dev nD) (b : Fin 65536) : rowArr m c (ix2 0 b) = labArr m c (ix1 b) := by
  rw [row_eq]
  exact shapeCast_apply _ _ (ix2 0 b) (ix1 b) (by rw [Shape.rowMajor_val_one, Shape.rowMajor_val_two]; simp)

/-- The reshape does not write the features, -/
theorem feat_in (c : Dev nD) : featIn m c = featArr m c := B1_of m c main_arg0 (by decide)

/-- and neither it nor the segment-sum call writes the centers. -/
theorem cen_in (c : Dev nD) : Val1.cenArr (U2 m) c = cenArr m c :=
  (B2_of_ne m c main_arg2 (by decide)).trans (B1_of m c main_arg2 (by decide))

/-- The combine call finds the segment-sum call's two outputs in the arrays it stages. -/
theorem sums_in (c : Dev nD) : Val1.sumArr (U2 m) c = (dat0 (U1 m) c).arrAt 2 cfg0.N := B2_arr m c 2
theorem counts_in (c : Dev nD) : Val1.cntArr (U2 m) c = (dat0 (U1 m) c).arrAt 3 cfg0.N := B2_arr m c 3

/-- The combine call's output array, after both calls, is the updated centers of the launch arrays. -/
theorem result_eq (c : Dev nD) :
    (dat1 (U2 m) c).arrAt 3 cfg1.N
      = Cert.Spec.G (m ((c.tc : Thread nD τ).loc main_arg0)) (m ((c.tc : Thread nD τ).loc main_arg1)) (m ((c.tc : Thread nD τ).loc main_arg2)) := by
  rw [Val1.combine_final (U2 m) c, cen_in, sums_in, counts_in, Val0.sums_final (U1 m) c, Val0.counts_final (U1 m) c]
  funext i
  -- a sum over the samples whose ROW entry is the word `w` is the sum over those whose VECTOR entry is
  have e1 : ∀ (w : BitVec 32) (g : Fin 65536 → EReal),
      (∑ b : Fin 65536, if rowArr m c (ix2 0 b) = w then g b else 0) = ∑ b : Fin 65536, if labArr m c (ix1 b) = w then g b else 0 := by
    intro w g
    exact Finset.sum_congr rfl (fun b _ => by rw [labels_row m c b])
  show (cenArr m c i * (1 + Cert.Spec.κ * (∑ b : Fin 65536, if rowArr m c (ix2 0 b) = BitVec.ofNat 32 (i 0).val then (1 : EReal) else 0))
      - Cert.Spec.κ * (∑ b : Fin 65536, if rowArr m c (ix2 0 b) = BitVec.ofNat 32 (i 0).val then featIn m c (ix2 b (i 1)) else 0)) = _
  rw [feat_in, e1 _ (fun _ => (1 : EReal)), e1 _ (fun b => featArr m c (ix2 b (i 1)))]
  unfold Cert.Spec.G Cert.Spec.cnt Cert.Spec.seg Cert.Spec.hit
  rfl

end Cert.KernelIdeal.Whole

end
-- ==== Proof.RefValue.lean ====
/-
  The reference program's result is the specified function.

  The reference adds to the centers, at the rows named by the labels, the step times (gathered center − feature):
  a scatter with colliding updates, whose value at entry (n, d) is the center plus the exact sum of the updates
  that land there. A label l is first normalised as "l + 100000 if l < 0 else l"; for a label that names a row
  (0 ≤ l < 100000) this is l itself. The gather reads, for sample b and column d, the center at (clamp l_b, d),
  and in range the clamp is the identity. The update of sample b in column d' starts at row l_b (read signed, not
  clamped) with window coordinate d', so it lands on (n, d) exactly when l_b = n and d' = d. Hence

      ref[n,d] = centers[n,d] + Σ_{b : l_b = n} κ · (centers[n,d] − features[b,d]),

  and when every entry is a real number this is centers[n,d] · (1 + κ · |S n|) − κ · Σ_{b ∈ S n} features[b,d]
  by distributivity. The step κ is only ever used as some real number.
-/
import proofs.«422952_j16217796510058_1_alg».proof.Proof.Spec
import proofs.«422952_j16217796510058_1_alg».proof.Proof.Gen.ReferenceIdeal.Read
import Idealize.ShloMosaic.Lib.ValueIdx
import Idealize.ShloMosaic.Lib.StableHlo.Predicate
import Mathlib.Data.EReal.Operations
import Mathlib.Tactic.Ring
import Mathlib.Tactic.Choose

noncomputable section

open scoped BigOperators

namespace Cert.RefValue

open Cert.ReferenceIdeal Cert.ReferenceIdeal.Gen Idealize.ShloMosaic Idealize.ShloMosaic.TcCoe Idealize.SL.Sem Idealize.ShloMosaic.StableHlo
open Idealize.ShloMosaic.ValueIdx Cert.ReferenceIdeal.Read Cert.Spec

/-- The step is a real number: its exponent field is neither all ones nor zero. -/
theorem kappa_real : ∃ r : ℝ, κ = (r : EReal) := by
  show ∃ r : ℝ, Ideal.ieee 8 23 (0xBDCCCCCD#32) = (r : EReal)
  unfold Ideal.ieee
  simp only []
  rw [if_neg (by decide), if_neg (by decide)]
  exact ⟨_, rfl⟩

theorem idx15 (b : Fin 65536) (e : Fin 1) : idx_main_v15 (ix2 b e) = ix1 b := by
  funext a; match a with | ⟨0, _⟩ => rfl

/-- A word that is non-negative read signed is not below zero. -/
theorem slt_zero_of_nonneg (x : BitVec 32) (h : 0 ≤ x.toInt) : IntOp.cmpi .slt x 0#32 = 0#1 := by
  have : x.slt 0#32 = false := by
    rw [BitVec.slt_eq_decide]
    simp only [BitVec.toInt_zero, decide_eq_false_iff_not, not_lt]
    exact h
  show BitVec.ofBool (x.slt 0#32) = 0#1
  rw [this]; rfl

/-- The normalised label of a sample whose label names a row is the label itself (the scatter's copy). -/
theorem idx_read15 (lab : IVec S65536 32) (hl : InRange lab) (b : Fin 65536) (e : Fin 1) :
    val_main_v15 (F := Ideal) lab (ix2 b e) = lab (ix1 b) := by
  rw [val_main_v15_apply, val_main_v14_apply, val_main_v11_apply, val_main_v10_apply, val_main_c_1_apply, idx15,
    slt_zero_of_nonneg _ (hl b).1, select_zero]

theorem idx5 (b : Fin 65536) (e : Fin 1) : idx_main_v5 (ix2 b e) = ix1 b := by
  funext a; match a with | ⟨0, _⟩ => rfl

/-- The same for the gather's copy of the normalised labels. -/
theorem idx_read5 (lab : IVec S65536 32) (hl : InRange lab) (b : Fin 65536) (e : Fin 1) :
    val_main_v5 (F := Ideal) lab (ix2 b e) = lab (ix1 b) := by
  rw [val_main_v5_apply, val_main_v4_apply, val_main_v1_apply, val_main_v0_apply, val_main_c_apply, idx5,
    slt_zero_of_nonneg _ (hl b).1, select_zero]

/-- The gather's and the scatter's dimension numbers. -/
abbrev gd := gather_S100000x256_S65536x1_S65536x256_1_0_n_n_0_1_1256
abbrev sd := scatter_S100000x256_S65536x1_S65536x256_1_0_0_1

theorem gather_si (b : Fin 65536) (d : Fin 256) :
    gd.siIdx (ix2 b d) ⟨List.idxOf (0 : Fin 2) gd.startIndexMap, List.idxOf_lt_length_iff.2 (List.mem_singleton.mpr rfl)⟩
      = ix2 b (0 : Fin 1) := by
  funext a; refine Fin.ext ?_
  match a with
  | ⟨0, _⟩ => rfl
  | ⟨1, _⟩ => rfl

/-- The gather at (b, d) reads the center at (the start index of b, read signed and clamped into the rows; d). -/
theorem gather_read (cen : FVec Ideal S100000x256 .f32) (idx : IVec S65536x1 32) (b : Fin 65536) (d : Fin 256) :
    Host.gather gd cen idx (ix2 b d)
      = cen (ix2 (⟨min (idx (ix2 b (0 : Fin 1))).toInt.toNat (100000 - 1), by omega⟩ : Fin 100000) d) := by
  unfold Host.gather
  congr 1
  funext a
  refine Fin.ext ?_
  match a with
  | ⟨0, _⟩ =>
    show gd.start (ix2 b d) idx 0 + gd.batchCoord (ix2 b d) 0 + gd.offCoord (ix2 b d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gd.startIndexMap from List.mem_singleton.mpr rfl), gather_si]
    rfl
  | ⟨1, _⟩ =>
    show gd.start (ix2 b d) idx 1 + gd.batchCoord (ix2 b d) 1 + gd.offCoord (ix2 b d) 1 = d.val
    rw [GatherDims.batchCoord_eq_zero _ _ _ List.not_mem_nil]
    unfold GatherDims.start
    rw [dif_neg (by decide)]
    simp only [Nat.zero_add]
    unfold GatherDims.offCoord
    rw [dif_pos (by decide)]
    rfl

theorem scatter_si (b : Fin 65536) (d : Fin 256) :
    sd.siIdx (ix2 b d) ⟨List.idxOf (0 : Fin 2) sd.scatterDimsToOperandDims, List.idxOf_lt_length_iff.2 (List.mem_singleton.mpr rfl)⟩
      = ix2 b (0 : Fin 1) := by
  funext a; refine Fin.ext ?_
  match a with
  | ⟨0, _⟩ => rfl
  | ⟨1, _⟩ => rfl

/-- On the row axis an update starts at its sample's index read signed, with window coordinate 0; on the column axis
    it starts at 0 with its own column as window coordinate. -/
theorem scatter_start0 (idx : IVec S65536x1 32) (b : Fin 65536) (d : Fin 256) :
    sd.start (ix2 b d) idx 0 = (idx (ix2 b (0 : Fin 1))).toInt := by
  unfold ScatterDims.start
  rw [dif_pos (show (0 : Fin 2) ∈ sd.scatterDimsToOperandDims from List.mem_singleton.mpr rfl), scatter_si]

theorem scatter_start1 (idx : IVec S65536x1 32) (b : Fin 65536) (d : Fin 256) :
    sd.start (ix2 b d) idx 1 = 0 := by
  unfold ScatterDims.start
  rw [dif_neg (by decide)]

theorem scatter_window0 (b : Fin 65536) (d : Fin 256) : sd.window (ix2 b d) 0 = 0 := by
  unfold ScatterDims.window
  rw [dif_neg (by decide)]

theorem scatter_window1 (b : Fin 65536) (d : Fin 256) : sd.window (ix2 b d) 1 = d.val := by
  unfold ScatterDims.window
  rw [dif_pos (by decide)]
  rfl

/-- An update whose start index is a row lands at that row, in its own column. -/
theorem scatter_lands (idx : IVec S65536x1 32) (b : Fin 65536) (d : Fin 256)
    (h0 : 0 ≤ (idx (ix2 b (0 : Fin 1))).toInt) (h1 : (idx (ix2 b (0 : Fin 1))).toInt < 100000) :
    sd.resultIdx? (ix2 b d) idx
      = some (ix2 (⟨(idx (ix2 b (0 : Fin 1))).toInt.toNat, by omega⟩ : Fin 100000) d) := by
  have hd := d.isLt
  have hall : ∀ a : Fin 2, 0 ≤ sd.start (ix2 b d) idx a + sd.window (ix2 b d) a ∧
      sd.start (ix2 b d) idx a + sd.window (ix2 b d) a < (S100000x256.size a : Int) := by
    intro a
    match a with
    | ⟨0, _⟩ =>
      show 0 ≤ sd.start (ix2 b d) idx 0 + sd.window (ix2 b d) 0 ∧ sd.start (ix2 b d) idx 0 + sd.window (ix2 b d) 0 < (100000 : Int)
      rw [scatter_start0, scatter_window0]; omega
    | ⟨1, _⟩ =>
      show 0 ≤ sd.start (ix2 b d) idx 1 + sd.window (ix2 b d) 1 ∧ sd.start (ix2 b d) idx 1 + sd.window (ix2 b d) 1 < (256 : Int)
      rw [scatter_start1, scatter_window1]; omega
  unfold ScatterDims.resultIdx?
  rw [dif_pos hall]
  congr 1
  funext a; refine Fin.ext ?_
  match a with
  | ⟨0, _⟩ =>
    show (sd.start (ix2 b d) idx 0 + sd.window (ix2 b d) 0).toNat = (idx (ix2 b (0 : Fin 1))).toInt.toNat
    rw [scatter_start0, scatter_window0]; simp
  | ⟨1, _⟩ =>
    show (sd.start (ix2 b d) idx 1 + sd.window (ix2 b d) 1).toNat = d.val
    rw [scatter_start1, scatter_window1]; simp

/-- A label in range is the word of row `n` exactly when, read signed, it is `n`. -/
theorem hit_iff (lab : IVec S65536 32) (hl : InRange lab) (n : Fin 100000) (b : Fin 65536) :
    hit lab n b ↔ (lab (ix1 b)).toInt.toNat = n.val := by
  have hn := n.isLt
  have h0 := (hl b).1
  have h1 := (hl b).2
  unfold hit
  constructor
  · intro h
    rw [h, Predicate.toInt_ofNat_small n.val (by omega)]; simp
  · intro h
    apply BitVec.eq_of_toInt_eq
    rw [Predicate.toInt_ofNat_small n.val (by omega)]
    omega

/-- Which updates land on entry `(n, d)`: those of column `d` whose sample carries row `n`'s label. -/
theorem lands_iff (lab : IVec S65536 32) (hl : InRange lab) (n : Fin 100000) (d : Fin 256) (b : Fin 65536) (d' : Fin 256) :
    sd.resultIdx? (ix2 b d') (val_main_v15 (F := Ideal) lab) = some (ix2 n d) ↔ hit lab n b ∧ d' = d := by
  have e := idx_read15 lab hl b (0 : Fin 1)
  rw [scatter_lands _ b d' (by rw [e]; exact (hl b).1) (by rw [e]; exact (hl b).2), Option.some.injEq, hit_iff lab hl]
  constructor
  · intro h
    have h0 := congrFun h 0
    have h1 := congrFun h 1
    refine ⟨?_, h1⟩
    have h0v : (val_main_v15 (F := Ideal) lab (ix2 b (0 : Fin 1))).toInt.toNat = n.val := congrArg Fin.val h0
    rw [e] at h0v; exact h0v
  · rintro ⟨h, rfl⟩
    funext a
    match a with
    | ⟨0, _⟩ =>
      refine Fin.ext ?_
      show (val_main_v15 (F := Ideal) lab (ix2 b (0 : Fin 1))).toInt.toNat = n.val
      rw [e]; exact h
    | ⟨1, _⟩ => rfl

/-- The update a sample of row `n` contributes in column `d`: the step times (center − feature). -/
theorem upd_at (feat : FVec Ideal S65536x256 .f32) (lab : IVec S65536 32) (cen : FVec Ideal S100000x256 .f32)
    (hl : InRange lab) (n : Fin 100000) (d : Fin 256) (b : Fin 65536) (h : hit lab n b) :
    val_main_v9 (F := Ideal) feat lab cen (ix2 b d) = κ * (cen (ix2 n d) - feat (ix2 b d)) := by
  have hn := n.isLt
  have hr : (⟨min (val_main_v5 (F := Ideal) lab (ix2 b (0 : Fin 1))).toInt.toNat (100000 - 1), by omega⟩ : Fin 100000) = n := by
    apply Fin.ext
    show min (val_main_v5 (F := Ideal) lab (ix2 b (0 : Fin 1))).toInt.toNat (100000 - 1) = n.val
    rw [idx_read5 lab hl, (hit_iff lab hl n b).1 h]; omega
  rw [val_main_v9_apply, val_main_v8_apply, val_main_cst_apply, val_main_v7_apply]
  unfold val_main_v6
  rw [gather_read, hr]
  rfl

/-- The sum over the updates that land on `(n, d)` is the sum, over the samples carrying row `n`'s label, of
    their column-`d` update. -/
theorem sum_landing (lab : IVec S65536 32) (hl : InRange lab) (upd : S65536x256.Idx → EReal) (n : Fin 100000) (d : Fin 256)
    [∀ j, Decidable (sd.resultIdx? j (val_main_v15 (F := Ideal) lab) = some (ix2 n d))] :
    (∑ j, if sd.resultIdx? j (val_main_v15 (F := Ideal) lab) = some (ix2 n d) then upd j else 0)
      = ∑ b : Fin 65536, if hit lab n b then upd (ix2 b d) else 0 := by
  rw [sum_idx2]
  refine Finset.sum_congr rfl fun b _ => ?_
  by_cases h : hit lab n b
  · rw [if_pos h, Finset.sum_eq_single d]
    · rw [if_pos ((lands_iff lab hl n d b d).2 ⟨h, rfl⟩)]
    · intro d' _ hne
      exact if_neg (fun hh => hne ((lands_iff lab hl n d b d').1 hh).2)
    · intro hh; exact absurd (Finset.mem_univ d) hh
  · rw [if_neg h]
    exact Finset.sum_eq_zero fun d' _ => if_neg (fun hh => h ((lands_iff lab hl n d b d').1 hh).1)

/-- A finite sum of reals, read in the extended reals, is the real sum. -/
theorem coe_sum {ι : Type} (s : Finset ι) (g : ι → ℝ) :
    ∑ b ∈ s, ((g b : ℝ) : EReal) = ((∑ b ∈ s, g b : ℝ) : EReal) := by
  classical
  induction s using Finset.induction_on with
  | empty => simp
  | insert a s ha ih => rw [Finset.sum_insert ha, Finset.sum_insert ha, ih, EReal.coe_add]

/-- Distributivity over the reals: adding the step times (c − f b) for each selected sample to c gives
    c · (1 + step · count) − step · (sum of the selected f b). -/
theorem real_alg (P : Fin 65536 → Prop) [DecidablePred P] (c k : ℝ) (f : Fin 65536 → ℝ) :
    (c : EReal) + ∑ b, (if P b then (k : EReal) * ((c : EReal) - (f b : EReal)) else 0)
      = (c : EReal) * (1 + (k : EReal) * ∑ b, (if P b then (1 : EReal) else 0))
        - (k : EReal) * ∑ b, (if P b then (f b : EReal) else 0) := by
  have e1 : ∀ b, (if P b then (k : EReal) * ((c : EReal) - (f b : EReal)) else 0)
      = (((if P b then k * (c - f b) else 0 : ℝ)) : EReal) := by
    intro b; split
    · rw [EReal.coe_mul, EReal.coe_sub]
    · rfl
  have e2 : ∀ b, (if P b then (1 : EReal) else 0) = (((if P b then 1 else 0 : ℝ)) : EReal) := by
    intro b; split <;> rfl
  have e3 : ∀ b, (if P b then (f b : EReal) else 0) = (((if P b then f b else 0 : ℝ)) : EReal) := by
    intro b; split <;> rfl
  simp only [e1, e2, e3]
  rw [coe_sum, coe_sum, coe_sum]
  rw [← EReal.coe_add, ← EReal.coe_mul, ← EReal.coe_mul, show (1 : EReal) = ((1 : ℝ) : EReal) from rfl,
    ← EReal.coe_add, ← EReal.coe_mul, ← EReal.coe_sub]
  congr 1
  have e4 : ∀ b, (if P b then k * (c - f b) else 0 : ℝ)
      = c * (k * (if P b then 1 else 0)) - k * (if P b then f b else 0) := by
    intro b; split <;> ring
  simp only [e4]
  rw [Finset.sum_sub_distrib, ← Finset.mul_sum, ← Finset.mul_sum, ← Finset.mul_sum]
  ring

/-- The reference's result is the specified function. -/
theorem ref_eq (feat : FVec Ideal Cert.ReferenceIdeal.S65536x256 .f32) (lab : IVec Cert.ReferenceIdeal.S65536 32)
    (cen : FVec Ideal Cert.ReferenceIdeal.S100000x256 .f32)
    (hf : Cert.Spec.Finite feat) (hc : Cert.Spec.Finite cen) (hl : Cert.Spec.InRange lab) :
    Cert.ReferenceIdeal.Read.val_main_v16 (F := Ideal) feat lab cen = Cert.Spec.G feat lab cen := by
  classical
  funext i
  obtain ⟨n, d, rfl⟩ : ∃ (n : Fin 100000) (d : Fin 256), i = ix2 n d := ⟨i 0, i 1, eq_ix2 i⟩
  obtain ⟨k, hk⟩ := kappa_real
  choose fr hfr using hf
  choose cr hcr using hc
  show cen (ix2 n d) + ∑ j ∈ Finset.univ.filter
        (fun j => sd.resultIdx? j (val_main_v15 (F := Ideal) lab) = some (ix2 n d)), val_main_v9 (F := Ideal) feat lab cen j
      = cen (ix2 n d) * (1 + κ * cnt lab n) - κ * seg feat lab n d
  rw [Finset.sum_filter, sum_landing lab hl]
  have hterm : ∀ b : Fin 65536, (if hit lab n b then val_main_v9 (F := Ideal) feat lab cen (ix2 b d) else 0)
      = (if hit lab n b then (k : EReal) * ((cr (ix2 n d) : EReal) - (fr (ix2 b d) : EReal)) else 0) := by
    intro b
    by_cases h : hit lab n b
    · rw [if_pos h, if_pos h, upd_at feat lab cen hl n d b h, hk, hcr, hfr]
    · rw [if_neg h, if_neg h]
  have hseg : ∀ b : Fin 65536, (if hit lab n b then feat (ix2 b d) else 0)
      = (if hit lab n b then (fr (ix2 b d) : EReal) else 0) := by
    intro b; rw [hfr]
  unfold cnt seg
  rw [Finset.sum_congr rfl (fun b _ => hterm b), Finset.sum_congr rfl (fun b _ => hseg b), hk, hcr]
  exact real_alg (hit lab n) (cr (ix2 n d)) k (fun b => fr (ix2 b d))

end Cert.RefValue

end
-- ==== Proof.PreFacts.lean ====
/-
  What the precondition says of the three inputs.

  The printed predicate is the conjunction of three reductions by "and" over all axes: over the samples' entries x of
  the comparison |x| < +∞, over the centers' entries of the same comparison, and over the labels ℓ of the pair of signed
  comparisons 0 ≤ ℓ and ℓ < 100000. A conjunction that is 1 has both sides 1; a reduction by "and" from 1 that is 1 met
  only 1s. So every entry x of either float input has |x| = max x (−x) < +∞ on the extended reals, which rules out both
  infinities and leaves a real number; and every label, read signed, lies in [0, 100000).
-/
import proofs.«422952_j16217796510058_1_alg».proof.Proof.Spec
import proofs.«422952_j16217796510058_1_alg».proof.Pre_finite_inputs
import Idealize.ShloMosaic.Lib.ReduceAll
import Idealize.ShloMosaic.Lib.ValueIdx
import Idealize.ShloMosaic.PureOps.Ideal

noncomputable section

namespace Cert.PreFacts

open Idealize.ShloMosaic Idealize.ShloMosaic.ValueIdx

/-- The scalar shape has one index. -/
instance : Subsingleton Cert.Pre_finite_inputs.S_.Idx := ⟨fun a b => funext fun d => d.elim0⟩

/-- The f32 word 0x7F800000 is +∞. -/
theorem inf_word : Ideal.ofBits .f32 0x7F800000#32 = (⊤ : EReal) := by simp [Ideal.ofBits, Ideal.ieee]

/-- An extended real whose absolute value max x (−x) is strictly below +∞ is a real number:
    at −∞ the maximum is −(−∞) = +∞, at +∞ it is +∞, and +∞ < +∞ is false. -/
theorem real_of_abs_lt_inf (x : EReal)
    (h : Ideal.cmp .olt (max x (-x)) (Ideal.ofBits .f32 0x7F800000#32) = 1#1) : ∃ r : ℝ, x = (r : EReal) := by
  rw [inf_word] at h
  induction x using EReal.rec with
  | bot => simp [Ideal.cmp] at h
  | top => simp [Ideal.cmp] at h
  | coe r => exact ⟨r, rfl⟩

/-- A word that tests 0 ≤ w and w < 100000, both signed, reads as an integer of [0, 100000). -/
theorem range_of_word (w : BitVec 32)
    (h : IntOp.andi (IntOp.cmpi .sge w 0#32) (IntOp.cmpi .slt w 100000#32) = 1#1) :
    0 ≤ w.toInt ∧ w.toInt < 100000 := by
  rw [IntOp.andi_eq_one, IntOp.cmpi_sge, IntOp.cmpi_slt] at h
  have h0 : (0#32 : BitVec 32).toInt = 0 := by decide
  have h1 : (100000#32 : BitVec 32).toInt = 100000 := by decide
  rw [h0] at h
  rw [h1] at h
  exact h

theorem of_pre [Cert.Pre_finite_inputs.Facts] (feat : FVec Ideal Cert.Pre_finite_inputs.S65536x256 .f32)
    (lab : IVec Cert.Pre_finite_inputs.S65536 32) (cen : FVec Ideal Cert.Pre_finite_inputs.S100000x256 .f32)
    (h : Cert.Pre_finite_inputs.fn (F := Ideal) feat lab cen = fun _ => 1#1) :
    Cert.Spec.Finite feat ∧ Cert.Spec.Finite cen ∧ Cert.Spec.InRange lab := by
  -- the predicate's one word, as the conjunction of its three reductions
  have e := congrFun h ix0
  dsimp only [Cert.Pre_finite_inputs.fn] at e
  obtain ⟨e12, e3⟩ := IntOp.andi_eq_one.1 e
  obtain ⟨e1, e2⟩ := IntOp.andi_eq_one.1 e12
  refine ⟨fun i => ?_, fun i => ?_, fun b => ?_⟩
  · exact real_of_abs_lt_inf (feat i) (Host.reduce_andi_all _ _ _ _ _ e1 i)
  · exact real_of_abs_lt_inf (cen i) (Host.reduce_andi_all _ _ _ _ _ e2 i)
  · exact range_of_word (lab (ix1 b)) (Host.reduce_andi_all _ _ _ _ _ e3 (ix1 b))

end Cert.PreFacts

end
-- ==== Proof.lean ====
/-
  The claim: the one-hot segment-sum kernel and the gather / scatter-add reference compute the same updated centers.

  With `S n` the samples labelled `n` and `κ` the step `α − 1` (one f32 word on both sides), the kernel computes
  `centers[n,d] · (1 + κ · |S n|) − κ · Σ_{b ∈ S n} features[b,d]` — a count and a segment sum accumulated over
  64 tiles of samples per block of 4000 rows, then combined pointwise — and the reference computes
  `centers[n,d] + Σ_{b ∈ S n} κ · (centers[n,d] − features[b,d])`. They are one function of the inputs when every
  float entry is a real number (distributivity on the extended reals needs that) and every label names a row: a
  negative label is wrapped onto a row by the reference's indexing and matches no row in the kernel's one-hot compare,
  so outside the label range the two differ; inside it the reference's wrap is the identity.

  Frames: both kernel programs run as the reshape of the labels, the segment-sum call and the combine call, each call
  entered from and left at known buffer contents; the reference is a straight line of host operations. Nothing writes
  an argument. The idealization rewrote no operation, so there is nothing to preserve.
-/
import proofs.«422952_j16217796510058_1_alg».proof.Defs
import proofs.«422952_j16217796510058_1_alg».proof.Proof.Gen.Kernel
import proofs.«422952_j16217796510058_1_alg».proof.Proof.Gen.KernelIdeal
import proofs.«422952_j16217796510058_1_alg».proof.Proof.Gen.ReferenceIdeal
import proofs.«422952_j16217796510058_1_alg».proof.Proof.Gen.Pre_finite_inputs
import proofs.«422952_j16217796510058_1_alg».proof.Proof.Gen.ReferenceIdeal.Run
import proofs.«422952_j16217796510058_1_alg».proof.Proof.Gen.ReferenceIdeal.Read
import proofs.«422952_j16217796510058_1_alg».proof.Proof.K.Run
import proofs.«422952_j16217796510058_1_alg».proof.Proof.KI.Run
import proofs.«422952_j16217796510058_1_alg».proof.Proof.KI.Whole
import proofs.«422952_j16217796510058_1_alg».proof.Proof.RefValue
import proofs.«422952_j16217796510058_1_alg».proof.Proof.PreFacts

noncomputable section

namespace Cert.Proof

open Idealize.ShloMosaic Idealize.SL.Sem

/-- The kernel as printed runs to the end and leaves its arguments as launched. -/
theorem frame_k : Cert.frame_Kernel := fun m ρ _ => Cert.Kernel.Hand.frame_all m ρ

/-- So does its idealization. -/
theorem frame_ki : Cert.frame_KernelIdeal := fun m ρ _ => Cert.KernelIdeal.Hand.frame_all m ρ

/-- The reference is a straight line of host operations: its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the result array at the specification of the (agreeing) arguments. -/
theorem algebraic : Cert.algebraic_KernelIdeal_ReferenceIdeal := by
  intro m ρ m' ρ' hpre hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run (Cert.KernelIdeal.defs (F := Ideal)) _ _).mono
      (fun r h c => ⟨(h c).1.trans (Cert.KernelIdeal.Whole.result_eq m c), (h c).2⟩)
      (Cert.KernelIdeal.Hand.run_all m ρ)
  · refine (θ_run (Cert.ReferenceIdeal.defs (F := Ideal)) _ _).mono (fun r h c => ⟨?_, (h c).2⟩)
      (Cert.ReferenceIdeal.Value.run (F := Ideal) m' ρ')
    obtain ⟨hf, hc, hl⟩ := Cert.PreFacts.of_pre _ _ _ (hpre c)
    rw [(h c).1, Cert.ReferenceIdeal.Read.val_main_v16_eq, (hagree c).1, (hagree c).2.1, (hagree c).2.2]
    exact Cert.RefValue.ref_eq _ _ _ hf hc hl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
